-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x1 : Shape := ⟨2, ![1, 1]⟩
abbrev S512x1 : Shape := ⟨2, ![512, 1]⟩
abbrev S512x128 : Shape := ⟨2, ![512, 128]⟩
abbrev S1x512 : Shape := ⟨2, ![1, 512]⟩
abbrev S5000x512 : Shape := ⟨2, ![5000, 512]⟩
abbrev S512 : Shape := ⟨1, ![512]⟩

abbrev nBuf : Space → Nat
  | .hbm => 70
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .bf16⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x128, .bf16⟩
  | .hbm, ⟨44, _⟩ => ⟨S1700000x128, .f32⟩
  | .hbm, ⟨45, _⟩ => ⟨S_, .f32⟩
  | .hbm, ⟨46, _⟩ => ⟨S100000x128, .f32⟩
  | .hbm, ⟨47, _⟩ => ⟨S1700000x1, .i32⟩
  | .hbm, ⟨48, _⟩ => ⟨S100000x128, .f32⟩
  | .hbm, ⟨49, _⟩ => ⟨S1x128, .f32⟩
  | .hbm, ⟨50, _⟩ => ⟨S100000x128, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .bf16⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x1, .i32⟩
  | .hbm, ⟨66, _⟩ => ⟨S1x1, .f32⟩
  | .hbm, ⟨67, _⟩ => ⟨S1x128, .f32⟩
  | .hbm, ⟨68, _⟩ => ⟨S512x1, .f32⟩
  | .hbm, ⟨69, _⟩ => ⟨S512, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x1, .i32⟩
  | .local _ .vmem, ⟨21, _⟩ => ⟨S5000x1, .i32⟩
  | .local _ .vmem, ⟨22, _⟩ => ⟨S128x1, .f32⟩
  | .local _ .vmem, ⟨23, _⟩ => ⟨S1x1, .f32⟩
  | .local _ .vmem, ⟨24, _⟩ => ⟨S512x1, .f32⟩
  | .local _ .vmem, ⟨25, _⟩ => ⟨S512x128, .f32⟩
  | .local _ .vmem, ⟨26, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_19 : BitVec 32 := 0#32
  let v40 : BitVec 1 := Scalar.cmpi .ne v39 c0_i32_19
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  broadcasts_S512x1_S512x128 : S512x1.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x512_S5000x128_S512x128_0_0_1_1_n_n_wf : DotDims.WF S5000x512 S5000x128 S512x128 [0] [0] [1] [1] [] []
  dot_S5000x512_S5000x1_S512x1_0_0_1_1_n_n_wf : DotDims.WF S5000x512 S5000x1 S512x1 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .i32 = 32 ∨ (Rect.block (s := S100000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x1.size a ≤ S512x1.size a
  hwx2_6 : ∀ i : grid2.Coords, EltTy.bits .f32 = 32 ∨ (Rect.block (s := S512x1) S512x1.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S5000x512_S5000x1_S512x1_0_0_1_1_n_n : DotDims S5000x512 S5000x1 S512x1 where
  lhsContracting := [0]
  rhsContracting := [0]
  lhsNonContracting := [1]
  rhsNonContracting := [1]
  lhsBatch := []
  rhsBatch := []
  wf := dot_S5000x512_S5000x1_S512x1_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S512x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S100000x128, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S512x128, .f32⟩
  | 119 => ⟨S100000x1, .i32⟩
  | 120 => ⟨S512x128, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x128, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x1, .f32⟩
  | 6 => ⟨S1x1, .f32⟩
  | 7 => ⟨S512x1, .f32⟩
  | 8 => ⟨S512x1, .f32⟩
  | 9 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KI.Reg0.lean ====
/-
  Region 0 of the program (the first dense stage): at every one of its 20 grid points the body reads a block of 5000 rows of
  the node features, the whole weight matrix and the block's 5000 degree factors, and stores into the output block the
  product of the first two with each row scaled by its factor. This module states, for ANY contents `V` of the arrays
  when the region is entered, what each window's staging buffer holds after the body at each point (the input blocks as
  found; the output block as the body's one store of its payload), proves the body's triple on whole staging buffers,
  and from it the obligation the pipeline asks of the body at every point. The region keeps no state between points.
-/
import proofs.«405428_j28441273434160_2_alg».proof.Proof.Gen.KernelIdeal.Launch
import proofs.«405428_j28441273434160_2_alg».proof.Proof.Gen.KernelIdeal.Skeleton
import proofs.«405428_j28441273434160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    left it in place (its block index then has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output block -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

/-- The output block after the body: its one whole-block store of the payload of the three input blocks. -/
def out0_3 (x0 : Vec F S5000x128 .f32) (x1 : Vec F S128x128 .f32) (x2 : Vec F S5000x1 .f32) : Vec F S5000x128 .bf16 :=
  View.canon [⟨r0_0, k0_pay1 (View.ld x0 r0_0) (View.ld x1 r0_1) (View.ld x2 r0_2)⟩]

/-- The one store is of the whole block, so it covers it. -/
theorem cover0_3 (p0 : Vec F S5000x128 .bf16) (y : S5000x128.Idx) :
    ∃ pc ∈ ([⟨r0_0, p0⟩] : List (View.Piece (Elt F) S5000x128 .bf16)), y ∈ pc.1.set :=
  View.cover_of_tiled [⟨r0_0, p0⟩] S5000x128.size (by rfl) y

/-! ## The body's triple -/

set_option maxHeartbeats 1000000 in
/-- On whole staging buffers, the inputs' at contents `x0 x1 x2` and the output's at anything, the body runs to the
    continuation with the inputs' buffers as they were and the output's at `out0_3` of them. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x1 .f32) (harg3 : arg3.IsWhole)
    (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__prescale_matmul_kernel i arg1 harg1 arg2 harg2 arg3 harg3 arg4 harg4) K := by
  simp only [cc0__prescale_matmul_kernel_eq_skeleton]; unfold cc0__prescale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  Region 1 of the program (the second dense stage): at every one of its 20 grid points the body reads a block of 5000 rows of
  the first layer's aggregated messages, the block's degree factors, the bias row and the second weight matrix; it
  scales each row by its factor, adds the bias, clamps at zero, multiplies by the weights and scales each row again,
  and stores the result into the output block. As for region 0: for ANY entry contents `V`, what each staging buffer holds
  after the body at each point, the body's triple, and the pipeline's obligation at every point. No state between points.
-/
import proofs.«405428_j28441273434160_2_alg».proof.Proof.Gen.KernelIdeal.Launch
import proofs.«405428_j28441273434160_2_alg».proof.Proof.Gen.KernelIdeal.Skeleton
import proofs.«405428_j28441273434160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or left in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output block -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-- The output block after the body: its one whole-block store of the payload of the four input blocks (the factors'
    block is read twice). -/
def out1_4 (x0 : Vec F S5000x128 .f32) (x1 : Vec F S5000x1 .f32) (x2 : Vec F S1x128 .f32) (x3 : Vec F S128x128 .f32) : Vec F S5000x128 .bf16 :=
  View.canon [⟨r1_0, k1_pay1 (View.ld x0 r1_0) (View.ld x1 r1_1) (View.ld x2 r1_2) (View.ld x3 r1_3) (View.ld x1 r1_1)⟩]

theorem cover1_4 (p0 : Vec F S5000x128 .bf16) (y : S5000x128.Idx) :
    ∃ pc ∈ ([⟨r1_0, p0⟩] : List (View.Piece (Elt F) S5000x128 .bf16)), y ∈ pc.1.set :=
  View.cover_of_tiled [⟨r1_0, p0⟩] S5000x128.size (by rfl) y

/-! ## The body's triple -/

set_option maxHeartbeats 1000000 in
/-- On whole staging buffers, the inputs' at contents `x0 … x3` and the output's at anything, the body runs to the
    continuation with the inputs' buffers as they were and the output's at `out1_4` of them. -/
theorem sound_kernel1 (c : Dev nD) (E : Set ℕ) (i : grid1.Coords) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S5000x128 .bf16) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E
          (cc1__fused_postscale_bias_relu_matmul_prescale_kernel i arg1 harg1 arg2 harg2 arg3 harg3 arg4 harg4 arg5 harg5) K := by
  simp only [cc1__fused_postscale_bias_relu_matmul_prescale_kernel_eq_skeleton]; unfold cc1__fused_postscale_bias_relu_matmul_prescale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`: the arrays as the region finds them; after the body at point `t` each
    input's buffer at its block and the output's at `out1_4` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2Runs.lean ====
/-
  Region 2 of the program (pooling over graphs and the linear head). Over a grid of 20 points the body reads a block
  of 5000 nodes — their aggregated messages, degree factors and graph ids — with the bias row; it scales each message
  row by its factor, adds the bias, rectifies and rounds, and adds to two accumulators it keeps between points the
  per-graph sums of those rows (512 × 128) and the per-graph node counts (512 × 1), each as a product with the one-hot
  matrix of the graph ids. The accumulators are reset to zero at the first point. At the last point the sums are
  divided by the counts (at least one), multiplied by the head weights and shifted by the head bias into the output
  block, which is stored there and nowhere else. This module holds what the three control cases share: the two
  conditions in closed form over the grid, where the output window is idle, the buffers the body is called with, and
  the region's invariant with the two accumulators set apart.
-/
import proofs.«405428_j28441273434160_2_alg».proof.Proof.Gen.KernelIdeal.Launch
import proofs.«405428_j28441273434160_2_alg».proof.Proof.Gen.KernelIdeal.Skeleton
import proofs.«405428_j28441273434160_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- The first conditional's condition (the accumulators are reset), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional's condition (the head is applied and the output stored), from the grid coordinate. -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Where the second condition fails the output window is idle and its block is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- Where it holds the output window is live. -/
theorem liveAt2_6 : ∀ t : Fin cfg2.N, cond2_1 (grid2.coords t) → cfg2.idle 6 (grid2.coords t) = false := by decide +kernel

/-! ## The memrefs the body is called with -/

abbrev VO2_6 : View sig .tc .vmem S512x1 .f32 := (Memref.whole cc2_stg6_0 : Memref sig .tc .vmem S512x1 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1 .f32 := win2_6.stage (cfg2.slots t 6)
abbrev hs2_6 (t : Fin cfg2.N) : (ms2_6 t).IsWhole := hstage2_6 ((cfg2.slots t 6).cast nbuf2_6)
/-- The two accumulators: whole scoped buffers of the kernel's own, passed beside the windows. -/
abbrev scM2_0 : Memref sig .tc .vmem S512x128 .f32 := Memref.whole cc2_scratch0
abbrev scM2_1 : Memref sig .tc .vmem S512x1 .f32 := Memref.whole cc2_scratch1
abbrev VS2_0 : View sig .tc .vmem S512x128 .f32 := scM2_0.view
abbrev VS2_1 : View sig .tc .vmem S512x1 .f32 := scM2_1.view

/-- Every scoped buffer of the core that is neither a staging buffer of this region nor one of its two
    accumulators, at some contents each: it rides through the region unopened. -/
def rest2 (c : Dev nD) : sProp 𝕄 :=
  Pipeline.scopedRestBut (Ix := Unit) (Name := ℕ) (U := UR sig nD τ) (Lvl := ℕ) (Val := Elt F) spec2 c [cc2_scratch0, cc2_scratch1]

/-- The region's invariant with the two accumulators exposed as memrefs owned at some contents. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d)) ∗ rest2 c) ∗ (∃ r, prngReg c r)) := by
  unfold Pipeline.ΦA rest2
  rw [Pipeline.scopedRest_split_of_list spec2 c [cc2_scratch0, cc2_scratch1] (by decide) (by decide)]
  simp only [scM2_0, scM2_1, owns_whole]; try rfl

end Cert.KernelIdeal.Fr

end
-- ==== Proof.KI.Reg2RunA.lean ====
/-
  Region 2, the first grid point (the accumulators are reset, then updated): the body run as a whole on whole buffers, and the lists of stored pieces it leaves in the output
  block and in the two accumulators.
-/
import proofs.«405428_j28441273434160_2_alg».proof.Proof.KI.Reg2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: both accumulators are reset to zero and then updated from the point's blocks; the output is not touched.
    What the body's stores leave in the output's buffer and in the two accumulators, as lists of stored pieces (last
    first), with the proof that on whole buffers — the inputs' at their contents, the output's at contents handed back untouched, the
    accumulators' at anything — the body runs to the continuation holding the inputs' as they were and each stored
    buffer with its pieces written. -/
noncomputable def kernelRun2_A (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) :
    Σ' (L6 : List (View.Piece (Elt F) S512x1 .f32)) (LS0 : List (View.Piece (Elt F) S512x128 .f32)), { LS1 : List (View.Piece (Elt F) S512x1 .f32) //
      ∀ (xi6 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc2__pool_head_kernel_eq_skeleton]; unfold cc2__pool_head_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Fr

end
-- ==== Proof.KI.Reg2RunB.lean ====
/-
  Region 2, a grid point that is neither first nor last (the accumulators are updated): the body run as a whole on whole buffers, and the lists of stored pieces it leaves in the output
  block and in the two accumulators.
-/
import proofs.«405428_j28441273434160_2_alg».proof.Proof.KI.Reg2RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point that is neither first nor last: both accumulators are updated from the point's blocks; the output is not touched.
    What the body's stores leave in the output's buffer and in the two accumulators, as lists of stored pieces (last
    first), with the proof that on whole buffers — the inputs' at their contents, the output's at contents handed back untouched, the
    accumulators' at what the point before left — the body runs to the continuation holding the inputs' as they were and each stored
    buffer with its pieces written. -/
noncomputable def kernelRun2_B (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) :
    Σ' (L6 : List (View.Piece (Elt F) S512x1 .f32)) (LS0 : List (View.Piece (Elt F) S512x128 .f32)), { LS1 : List (View.Piece (Elt F) S512x1 .f32) //
      ∀ (xi6 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc2__pool_head_kernel_eq_skeleton]; unfold cc2__pool_head_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Fr

end
-- ==== Proof.KI.Reg2RunC.lean ====
/-
  Region 2, the last grid point (the accumulators are updated, then the head is applied and the output stored): the body run as a whole on whole buffers, and the lists of stored pieces it leaves in the output
  block and in the two accumulators.
-/
import proofs.«405428_j28441273434160_2_alg».proof.Proof.KI.Reg2RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: both accumulators are updated from the point's blocks, then the head is applied to them and its result stored into the output.
    What the body's stores leave in the output's buffer and in the two accumulators, as lists of stored pieces (last
    first), with the proof that on whole buffers — the inputs' at their contents, the output's at anything, the
    accumulators' at what the point before left — the body runs to the continuation holding the inputs' as they were and each stored
    buffer with its pieces written. -/
noncomputable def kernelRun2_C (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) :
    Σ' (L6 : List (View.Piece (Elt F) S512x1 .f32)) (LS0 : List (View.Piece (Elt F) S512x128 .f32)), { LS1 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__pool_head_kernel_eq_skeleton]; unfold cc2__pool_head_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Cert.KernelIdeal.Fr

end
-- ==== Proof.KI.Reg2.lean ====
/-
  Region 2 of the program (pooling over graphs and the linear head), the frame side. For ANY contents `V` of the arrays
  when the region is entered this module states what the output's staging buffer and the two accumulators the body keeps
  between grid points hold after the body at each point — by recursion on the point, each point's control case run over
  what the point before left in the accumulators —, the invariant that carries the accumulators from point to point,
  the pipeline's proof data, and the obligation the pipeline asks of the body at every point.
-/
import proofs.«405428_j28441273434160_2_alg».proof.Proof.KI.Reg2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    left it in place (its block index then has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What each control case leaves in the output block and in the accumulators -/

/-- The pieces the first point stores into the accumulator of sums cover it (the last is a store of the whole). -/
theorem scover2_A_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (y : S512x128.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.1 S512x128.size (by sl_kernel_rfl) y

/-- What the first point leaves in the accumulator of sums: its stored pieces read back. -/
def sout2_A_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) : Vec F S512x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3 x4 x5).2.1)

/-- The pieces the first point stores into the accumulator of counts cover it (the last is a store of the whole). -/
theorem scover2_A_1 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (y : S512x1.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.2.1 S512x1.size (by sl_kernel_rfl) y

/-- What the first point leaves in the accumulator of counts: its stored pieces read back. -/
def sout2_A_1 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) : Vec F S512x1 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3 x4 x5).2.2.1)

/-- The pieces a middle point stores into the accumulator of sums cover it (the last is a store of the whole). -/
theorem scover2_B_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) (y : S512x128.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.1 S512x128.size (by sl_kernel_rfl) y

/-- What a middle point leaves in the accumulator of sums: its stored pieces read back. -/
def sout2_B_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) : Vec F S512x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 x4 x5 xs0 xs1).2.1)

/-- The pieces a middle point stores into the accumulator of counts cover it (the last is a store of the whole). -/
theorem scover2_B_1 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) (y : S512x1.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.2.1 S512x1.size (by sl_kernel_rfl) y

/-- What a middle point leaves in the accumulator of counts: its stored pieces read back. -/
def sout2_B_1 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) : Vec F S512x1 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 x4 x5 xs0 xs1).2.2.1)

/-- At the last point the one store into the output block is of the whole block, so the stored pieces cover it. -/
theorem cover2_C_6 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) (y : S512x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).1 S512x1.size (by sl_kernel_rfl) y

/-- What the last point leaves in the output block: its stored pieces read back. -/
def out2_C_6 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) : Vec F S512x1 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 x4 x5 xs0 xs1).1)

/-- The pieces the last point stores into the accumulator of sums cover it (the last is a store of the whole). -/
theorem scover2_C_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) (y : S512x128.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.1 S512x128.size (by sl_kernel_rfl) y

/-- What the last point leaves in the accumulator of sums: its stored pieces read back. -/
def sout2_C_0 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) : Vec F S512x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 x4 x5 xs0 xs1).2.1)

/-- The pieces the last point stores into the accumulator of counts cover it (the last is a store of the whole). -/
theorem scover2_C_1 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) (y : S512x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.2.1 S512x1.size (by sl_kernel_rfl) y

/-- What the last point leaves in the accumulator of counts: its stored pieces read back. -/
def sout2_C_1 (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) : Vec F S512x1 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 x4 x5 xs0 xs1).2.2.1)

/-! ## What the output block and the accumulators hold after each point -/

/-- The grid has 20 points, so a point after the first is not one where the first condition holds. -/
theorem ncond2_0_succ (n : ℕ) (hn : n + 1 < cfg2.N) : ¬cond2_0 (grid2.coords ⟨n + 1, hn⟩) := fun h => by
  have h' := (hcond2_0 ⟨n + 1, hn⟩).mp h
  have hN : n + 1 < 20 := lt_of_lt_of_eq hn (show cfg2.N = 20 from N_2)
  (try dsimp only at h'); omega

/-- The first point is one where the first condition holds and the second does not. -/
theorem cond2_0_zero (hn : 0 < cfg2.N) : cond2_0 (grid2.coords ⟨0, hn⟩) := (hcond2_0 ⟨0, hn⟩).mpr (Nat.zero_mod _)
theorem ncond2_1_zero (hn : 0 < cfg2.N) : ¬cond2_1 (grid2.coords ⟨0, hn⟩) := fun h => by
  have h' := (hcond2_1 ⟨0, hn⟩).mp h
  (try dsimp only at h'); omega

/-- A placeholder for the output block at the points that do not store into it: there the window is idle and not
    written back, and nothing consults this value. -/
def outIdle2 : Vec F S512x1 .f32 := VO2_6.read (Elt F) VO2_6.junk

/-- THE ACCUMULATION. What the output's staging buffer and the two accumulators hold after the body at position `n`
    (the output, the sums, the counts): the first point's case at 0; afterwards the last point's case or the middle
    one, run at the point's input blocks over what the point before left in the accumulators. -/
def outsAt2 (c : Dev nD) : (n : ℕ) → n < cfg2.N → Vec F S512x1 .f32 × Vec F S512x128 .f32 × Vec F S512x1 .f32
  | 0, hn => (outIdle2,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) (cond2_0_zero hn) (ncond2_1_zero hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) scM2_1 (Memref.isWhole_whole _) (cond2_0_zero hn) (ncond2_1_zero hn) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : (n + 1) % 20 = 19 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)
    else
      (outIdle2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) scM2_1 (Memref.isWhole_whole _) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)

/-- `outsAt2` at the first point. -/
theorem outsAt2_A (c : Dev nD) (t : Fin cfg2.N) (h0 : t.val % 20 = 0) (h1 : ¬t.val % 20 = 19) :
    outsAt2 V c t.val t.isLt = (outIdle2,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (by exfalso; have hN : n + 1 < 20 := lt_of_lt_of_eq hn (show cfg2.N = 20 from N_2); (try dsimp only at h0); omega)

/-- `outsAt2` at a middle point: that case's contents, over what the point before left. -/
theorem outsAt2_B (c : Dev nD) (t : Fin cfg2.N) (h0 : ¬t.val % 20 = 0) (h1 : ¬t.val % 20 = 19) :
    outsAt2 V c t.val t.isLt = (outIdle2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `outsAt2` at the last point: that case's contents, over what the point before left. -/
theorem outsAt2_C (c : Dev nD) (t : Fin cfg2.N) (h0 : ¬t.val % 20 = 0) (h1 : t.val % 20 = 19) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The region's invariant -/

/-- The invariant before position `n`: before the first point every scoped buffer outside the staging buffers at some
    contents and the generator register at some state; afterwards the same with the two accumulators at what the point
    before left in them. -/
def PhiS2 (c : Dev nD) : (n : ℕ) → n ≤ cfg2.N → sProp 𝕄
  | 0, _ => Pipeline.ΦA spec2 c
  | n + 1, hn => iprop(((owns (c : Thread nD τ) scM2_0 fullShare (outsAt2 V c n hn).2.1 ∗ owns (c : Thread nD τ) scM2_1 fullShare (outsAt2 V c n hn).2.2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(((owns (c : Thread nD τ) scM2_0 fullShare (outsAt2 V c n hn).2.1 ∗ owns (c : Thread nD τ) scM2_1 fullShare (outsAt2 V c n hn).2.2) ∗ rest2 c) ∗ (∃ r, prngReg c r)) := rfl

theorem PhiS2_pos (c : Dev nD) (n : ℕ) (h : n ≤ cfg2.N) (hz : n ≠ 0) :
    PhiS2 V c n h = iprop(((owns (c : Thread nD τ) scM2_0 fullShare (outsAt2 V c (n - 1) (by omega)).2.1 ∗ owns (c : Thread nD τ) scM2_1 fullShare (outsAt2 V c (n - 1) (by omega)).2.2) ∗ rest2 c) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point. The inputs' buffers hold their blocks; the closed forms of the two conditions say which
    control case the point is in; the invariant hands the body the two accumulators — at anything at the first point,
    afterwards at what the point before left — and takes them back at this point's contents; where the output window is
    idle its buffer is handed back as found, at the last point it holds the stored pieces read back. The rest of the
    scoped buffers, the generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h1 : t.val % 20 = 19
  · have h0 : ¬t.val % 20 = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [show (dat2 V c).leavesExact 6 t = owns (c : Thread nD τ) (ms2_6 t) fullShare ((dat2 V c).after 6 t) from by
      unfold Dat.leavesExact; rw [liveAt2_6 t ((hcond2_1 t).mpr h1)], after2_6]
    rw [outsAt2_C V c t h0 h1]
    unfold out2_C_6 sout2_C_0 sout2_C_1; (try dsimp only)
    have hz : t.val ≠ 0 := by omega
    rw [PhiS2_castSucc V c t, PhiS2_pos V c _ _ hz]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _)
          · unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover2_C_6 c _ _ _ _ _ _ _ _ _ _ _ _ _ _ _ _ _ _ _ _ _ _ _ _ _ _ _ _ _)
  · by_cases h0 : t.val % 20 = 0
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_A V c t h0 h1]
      unfold sout2_A_0 sout2_A_1; (try dsimp only)
      have hz : t.val = 0 := by omega
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B_0 sout2_B_1; (try dsimp only)
      have hz : t.val ≠ 0 := by omega
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's back: what the accumulators hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Fr

end
-- ==== Proof.KI.Run.lean ====
/-
  The whole program as a chain of nine segments — host operations, region 0, host operations, region 1, host operations,
  region 2, one last host operation — and its run: from any memory with zero counters every weakly fair execution
  terminates, and every unscoped buffer then holds the contents this module computes by folding through the segments
  (`W0 … W9`: a stretch of host operations applies them; a region leaves its input arrays as they were and its output
  array at what the write-backs of its blocks leave). Both the frame claim (the arguments end unchanged) and the value of
  the result are read off `W9`.
-/
import proofs.«405428_j28441273434160_2_alg».proof.Proof.KI.Reg0
import proofs.«405428_j28441273434160_2_alg».proof.Proof.KI.Reg1
import proofs.«405428_j28441273434160_2_alg».proof.Proof.KI.Reg2
import proofs.«405428_j28441273434160_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- Region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves (the inputs as entered, the output's write-backs folded),
    every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input window's array leaves the region as it entered it. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))

/-- Region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves (the inputs as entered, the output's write-backs folded),
    every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves the region as it entered it. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

/-- Region 2's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its arrays at what the pipeline leaves (the inputs as entered, the output's write-backs folded),
    every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input window's array leaves the region as it entered it. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))

/-- The end. -/
abbrev W9 : Dev nD → Valuation τ sig (Elt F) := fun c => StableHlo.after hostOps3 (W8 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold plain
-- definitions in a metavariable's type
set_option backward.isDefEq.respectTransparency.types false in
/-- REGION 0 over the thread state: entered from every unscoped buffer at `W3`, left at `W4`. Its arrays are
    split out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 1 over the thread state: entered from every unscoped buffer at `W5`, left at `W6`. Its arrays are
    split out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- REGION 2 over the thread state: entered from every unscoped buffer at `W7`, left at `W8`. Its arrays are
    split out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (iprop((∃ r, prngReg c r) ∗ Pipeline.prefHeld (pcfgs (F := F) 2).pre c (fun _ => fullShare) (adm (F := F) 2).1
          ∗ Pipeline.scopedRest spec2 c) : sProp 𝕄) ⊢ (Pipeline.ΦA spec2 c : sProp 𝕄) := by
      unfold Pipeline.ΦA
      iintro ⟨Hp, -, Hr⟩
      isplitl [Hr]; · iexact Hr
      iexact Hp
    exact h0.trans (hin2 (V7 m ρ) c)
  hout c := by
    rw [Pipeline.ownSems0_none]
    have h0 : (Pipeline.ΦA spec2 c : sProp 𝕄) ⊢ (iprop((∃ r, prngReg c r) ∗ BI.emp ∗ Pipeline.scopedRest spec2 c) : sProp 𝕄) := by
      unfold Pipeline.ΦA
      iintro ⟨Hr, Hp⟩
      isplitl [Hp]; · iexact Hp
      isplitr; · iempintro
      iexact Hr
    exact (hout2 (V7 m ρ) c).trans h0
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every unscoped buffer of every core then holds `W9`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W9 m ρ c))
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨Hh, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Fr

end
-- ==== Proof.KI.Ends.lean ====
/-
  What the run's final contents `W9` say about the buffers the claims speak of: a stretch of host operations leaves every
  buffer it does not write, a region leaves every buffer that is not its output array, so each of the nine argument
  arrays ends as launched (the frame), and the result buffer ends at `W9`'s value for it.
-/
import proofs.«405428_j28441273434160_2_alg».proof.Proof.KI.Run

set_option maxRecDepth 16384

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## A stretch leaves what it does not write -/

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ c r = W4 m ρ c r :=
  StableHlo.after_of_writes_sub hostOps1 _ hostOps1_writes h
theorem W7_of (c : Dev nD) (r : Ref sig .tc) (h : r ∉ hostOps2_W) : W7 m ρ c r = W6 m ρ c r :=
  StableHlo.after_of_writes_sub hostOps2 _ hostOps2_writes h
theorem W9_of (c : Dev nD) (r : Ref sig .tc) (h : r ∉ hostOps3_W) : W9 m ρ c r = W8 m ρ c r :=
  StableHlo.after_of_writes_sub hostOps3 _ hostOps3_writes h

/-! ## The arguments end as launched -/

theorem W9_main_arg0 (c : Dev nD) : W9 m ρ c (Proc.devRef .tc main_arg0) = m ((c : Thread nD τ).loc main_arg0) :=
  (W9_of m ρ c main_arg0 (by decide)).trans <| (W8_of_ne m ρ c main_arg0 (by decide)).trans <| (W7_of m ρ c main_arg0 (by decide)).trans <| (W6_of_ne m ρ c main_arg0 (by decide)).trans <|
    (W5_of m ρ c main_arg0 (by decide)).trans <| (W4_in m ρ c 0 rfl).trans <| (W3_of m ρ c main_arg0 (by decide)).trans <|
    (W2_of m ρ c main_arg0 (by decide)).trans <| (W1_of m ρ c main_arg0 (by decide)).trans rfl
theorem W9_main_arg1 (c : Dev nD) : W9 m ρ c (Proc.devRef .tc main_arg1) = m ((c : Thread nD τ).loc main_arg1) :=
  (W9_of m ρ c main_arg1 (by decide)).trans <| (W8_of_ne m ρ c main_arg1 (by decide)).trans <| (W7_of m ρ c main_arg1 (by decide)).trans <| (W6_of_ne m ρ c main_arg1 (by decide)).trans <|
    (W5_of m ρ c main_arg1 (by decide)).trans <| (W4_of_ne m ρ c main_arg1 (by decide)).trans <| (W3_of m ρ c main_arg1 (by decide)).trans <|
    (W2_of m ρ c main_arg1 (by decide)).trans <| (W1_of m ρ c main_arg1 (by decide)).trans rfl
theorem W9_main_arg2 (c : Dev nD) : W9 m ρ c (Proc.devRef .tc main_arg2) = m ((c : Thread nD τ).loc main_arg2) :=
  (W9_of m ρ c main_arg2 (by decide)).trans <| (W8_of_ne m ρ c main_arg2 (by decide)).trans <| (W7_of m ρ c main_arg2 (by decide)).trans <| (W6_of_ne m ρ c main_arg2 (by decide)).trans <|
    (W5_of m ρ c main_arg2 (by decide)).trans <| (W4_of_ne m ρ c main_arg2 (by decide)).trans <| (W3_of m ρ c main_arg2 (by decide)).trans <|
    (W2_of m ρ c main_arg2 (by decide)).trans <| (W1_of m ρ c main_arg2 (by decide)).trans rfl
theorem W9_main_arg3 (c : Dev nD) : W9 m ρ c (Proc.devRef .tc main_arg3) = m ((c : Thread nD τ).loc main_arg3) :=
  (W9_of m ρ c main_arg3 (by decide)).trans <| (W8_of_ne m ρ c main_arg3 (by decide)).trans <| (W7_of m ρ c main_arg3 (by decide)).trans <| (W6_of_ne m ρ c main_arg3 (by decide)).trans <|
    (W5_of m ρ c main_arg3 (by decide)).trans <| (W4_in m ρ c 1 rfl).trans <| (W3_of m ρ c main_arg3 (by decide)).trans <|
    (W2_of m ρ c main_arg3 (by decide)).trans <| (W1_of m ρ c main_arg3 (by decide)).trans rfl
theorem W9_main_arg4 (c : Dev nD) : W9 m ρ c (Proc.devRef .tc main_arg4) = m ((c : Thread nD τ).loc main_arg4) :=
  (W9_of m ρ c main_arg4 (by decide)).trans <| (W8_of_ne m ρ c main_arg4 (by decide)).trans <| (W7_of m ρ c main_arg4 (by decide)).trans <| (W6_of_ne m ρ c main_arg4 (by decide)).trans <|
    (W5_of m ρ c main_arg4 (by decide)).trans <| (W4_of_ne m ρ c main_arg4 (by decide)).trans <| (W3_of m ρ c main_arg4 (by decide)).trans <|
    (W2_of m ρ c main_arg4 (by decide)).trans <| (W1_of m ρ c main_arg4 (by decide)).trans rfl
theorem W9_main_arg5 (c : Dev nD) : W9 m ρ c (Proc.devRef .tc main_arg5) = m ((c : Thread nD τ).loc main_arg5) :=
  (W9_of m ρ c main_arg5 (by decide)).trans <| (W8_of_ne m ρ c main_arg5 (by decide)).trans <| (W7_of m ρ c main_arg5 (by decide)).trans <| (W6_in m ρ c 3 rfl).trans <|
    (W5_of m ρ c main_arg5 (by decide)).trans <| (W4_of_ne m ρ c main_arg5 (by decide)).trans <| (W3_of m ρ c main_arg5 (by decide)).trans <|
    (W2_of m ρ c main_arg5 (by decide)).trans <| (W1_of m ρ c main_arg5 (by decide)).trans rfl
theorem W9_main_arg6 (c : Dev nD) : W9 m ρ c (Proc.devRef .tc main_arg6) = m ((c : Thread nD τ).loc main_arg6) :=
  (W9_of m ρ c main_arg6 (by decide)).trans <| (W8_of_ne m ρ c main_arg6 (by decide)).trans <| (W7_of m ρ c main_arg6 (by decide)).trans <| (W6_of_ne m ρ c main_arg6 (by decide)).trans <|
    (W5_of m ρ c main_arg6 (by decide)).trans <| (W4_of_ne m ρ c main_arg6 (by decide)).trans <| (W3_of m ρ c main_arg6 (by decide)).trans <|
    (W2_of m ρ c main_arg6 (by decide)).trans <| (W1_of m ρ c main_arg6 (by decide)).trans rfl
theorem W9_main_arg7 (c : Dev nD) : W9 m ρ c (Proc.devRef .tc main_arg7) = m ((c : Thread nD τ).loc main_arg7) :=
  (W9_of m ρ c main_arg7 (by decide)).trans <| (W8_in m ρ c 4 rfl).trans <| (W7_of m ρ c main_arg7 (by decide)).trans <| (W6_of_ne m ρ c main_arg7 (by decide)).trans <|
    (W5_of m ρ c main_arg7 (by decide)).trans <| (W4_of_ne m ρ c main_arg7 (by decide)).trans <| (W3_of m ρ c main_arg7 (by decide)).trans <|
    (W2_of m ρ c main_arg7 (by decide)).trans <| (W1_of m ρ c main_arg7 (by decide)).trans rfl
theorem W9_main_arg8 (c : Dev nD) : W9 m ρ c (Proc.devRef .tc main_arg8) = m ((c : Thread nD τ).loc main_arg8) :=
  (W9_of m ρ c main_arg8 (by decide)).trans <| (W8_of_ne m ρ c main_arg8 (by decide)).trans <| (W7_of m ρ c main_arg8 (by decide)).trans <| (W6_of_ne m ρ c main_arg8 (by decide)).trans <|
    (W5_of m ρ c main_arg8 (by decide)).trans <| (W4_of_ne m ρ c main_arg8 (by decide)).trans <| (W3_of m ρ c main_arg8 (by decide)).trans <|
    (W2_of m ρ c main_arg8 (by decide)).trans <| (W1_of m ρ c main_arg8 (by decide)).trans rfl

/-! ## The frame, and the result's value -/

/-- Every weakly fair execution terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c)⟩) (run_all m ρ)

/-- The same run with the result buffer's final contents named. -/
theorem run_result : θ_run defs (onTc (τ := τ) (main (F := F))) ⟨m, fun _ => 0, ρ⟩ (fun r => ∀ c : Dev nD,
      r.2.mem ((c.tc : Thread nD τ).loc main_v47) = W9 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v47 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c)⟩) (run_all m ρ)

end Cert.KernelIdeal.Fr

end
-- ==== Proof.KI.Host.lean ====
/-
  What each stretch of host operations writes, as a term of the contents before it (for any float values): the edge
  arrays with the self-loops appended; the degree factor as a column; the segment sum of the gathered rows of a dense
  stage's table; the bias rows, the graph-id column and the head bias as the regions take them; the result as the
  last region's column flattened. Each is the stretch's operations read back in order.
-/
import proofs.«405428_j28441273434160_2_alg».proof.Proof.KI.Run
import Idealize.ShloMosaic.Lib.StableHlo.Run

set_option maxRecDepth 16384
set_option maxHeartbeats 4000000

noncomputable section

namespace Cert.KernelIdeal.Fr

open Cert.KernelIdeal Cert.KernelIdeal.Gen
open Idealize.ShloMosaic Idealize.ShloMosaic.TcCoe Idealize.SL.Sem Idealize.ShloMosaic.StableHlo

variable {F : FTy → Type} [FloatOps F]

/-- The edge ids of one row of the edge list, then one self-loop per node. -/
abbrev edgesOf (off : Fin 2 → Nat) (h : S2x1600000.Slices off S1x1600000) (ei : (⟨S2x1600000, .i32⟩ : BufTy).Contents (Elt F)) :
    (⟨S1700000, .i32⟩ : BufTy).Contents (Elt F) :=
  concatenate S1700000 0 [⟨S1600000, shapeCast S1600000 (extractStridedSlice S1x1600000 off ei h) shapeCasts_S1x1600000_S1600000⟩,
    ⟨S100000, iotaInDim S100000 32 0⟩] concatenates_S1600000_S100000_S1700000_d0

/-- The degree count: ones summed per target id, from zero. -/
abbrev degOf (dstv : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dstv)
    (broadcastInDim S1700000 ![] bcast_S_S1700000 (constant S_ .f32 0x3F800000#32))

/-- The degree factor: where the count is positive its inverse square root (of the count clamped below at 1), else 0. -/
abbrev disOf (dstv : (⟨S1700000, .i32⟩ : BufTy).Contents (Elt F)) : (⟨S100000, .f32⟩ : BufTy).Contents (Elt F) :=
  select (cmpf .ogt (degOf dstv) (broadcastInDim S100000 ![] bcast_S_S100000 (constant S_ .f32 0x00000000#32)))
    (Host.rsqrt (maximumf (degOf dstv) (broadcastInDim S100000 ![] bcast_S_S100000 (constant S_ .f32 0x3F800000#32))))
    (broadcastInDim S100000 ![] bcast_S_S100000 (id (constant S_ .f32 0x00000000#32)))

/-- The segment sum, per target id, of the rows of the table `tbl` gathered at the (sign-normalised) source ids. -/
abbrev aggOf (tbl : (⟨S100000x128, .bf16⟩ : BufTy).Contents (Elt F)) (srcv dstv : (⟨S1700000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dstv)
    (extf .f32 (Host.gather gather_S100000x128_S1700000x1_S1700000x128_1_0_n_n_0_1_1128 tbl
      (broadcastInDim S1700000x1 ![0] bcast_S1700000_S1700000x1_0
        (select (cmpi .slt srcv (broadcastInDim S1700000 ![] bcast_S_S1700000 (constantI S_ 32 0#32)))
          (addi srcv (broadcastInDim S1700000 ![] bcast_S_S1700000 (constantI S_ 32 100000#32))) srcv))) bitsLt_bf16_f32)

variable (m : (ℓ : Loc nD τ sig) → Buf (Elt F) ℓ) (ρ : Dev nD → PrngReg)

/-! ## Before region 0 -/

/-- The edges' source ids. -/
theorem W1_v3 (c : Dev nD) : W1 m ρ c (Proc.devRef .tc main_v3) =
    edgesOf ![0, 0] slices_S2x1600000_S1x1600000_0_0 (W0 m ρ c (Proc.devRef .tc main_arg1)) := by
  show StableHlo.after hostOps0 (W0 m ρ c) (Proc.devRef .tc main_v3) = _
  generalize W0 m ρ c = W
  after_results <;> (try simp only [TRef.ofBuf, TRef.toBuf, cast_eq]) <;> rfl

/-- The edges' target ids. -/
theorem W1_v6 (c : Dev nD) : W1 m ρ c (Proc.devRef .tc main_v6) =
    edgesOf ![1, 0] slices_S2x1600000_S1x1600000_1_0 (W0 m ρ c (Proc.devRef .tc main_arg1)) := by
  show StableHlo.after hostOps0 (W0 m ρ c) (Proc.devRef .tc main_v6) = _
  generalize W0 m ρ c = W
  after_results <;> (try simp only [TRef.ofBuf, TRef.toBuf, cast_eq]) <;> rfl

theorem W1_v12 (c : Dev nD) : W1 m ρ c (Proc.devRef .tc main_v12) =
    cmpf .ogt (degOf (edgesOf ![1, 0] slices_S2x1600000_S1x1600000_1_0 (W0 m ρ c (Proc.devRef .tc main_arg1)))) (broadcastInDim S100000 ![] bcast_S_S100000 (constant S_ .f32 0x00000000#32)) := by
  show StableHlo.after hostOps0 (W0 m ρ c) (Proc.devRef .tc main_v12) = _
  generalize W0 m ρ c = W
  after_results <;> (try simp only [TRef.ofBuf, TRef.toBuf, cast_eq]) <;> rfl

theorem W1_v15 (c : Dev nD) : W1 m ρ c (Proc.devRef .tc main_v15) =
    Host.rsqrt (maximumf (degOf (edgesOf ![1, 0] slices_S2x1600000_S1x1600000_1_0 (W0 m ρ c (Proc.devRef .tc main_arg1)))) (broadcastInDim S100000 ![] bcast_S_S100000 (constant S_ .f32 0x3F800000#32))) := by
  show StableHlo.after hostOps0 (W0 m ρ c) (Proc.devRef .tc main_v15) = _
  generalize W0 m ρ c = W
  after_results <;> (try simp only [TRef.ofBuf, TRef.toBuf, cast_eq]) <;> rfl

theorem W1_cst_3 (c : Dev nD) : W1 m ρ c (Proc.devRef .tc main_cst_3) =
    constant S_ .f32 0x00000000#32 := by
  show StableHlo.after hostOps0 (W0 m ρ c) (Proc.devRef .tc main_cst_3) = _
  generalize W0 m ρ c = W
  after_results <;> (try simp only [TRef.ofBuf, TRef.toBuf, cast_eq]) <;> rfl

theorem W2_v16_raw (c : Dev nD) : W2 m ρ c (Proc.devRef .tc main_v16) =
    select (W1 m ρ c (Proc.devRef .tc main_v12)) (W1 m ρ c (Proc.devRef .tc main_v15)) (broadcastInDim S100000 ![] bcast_S_S100000 (id (W1 m ρ c (Proc.devRef .tc main_cst_3)))) := by
  show StableHlo.after hostOps0_1 (W1 m ρ c) (Proc.devRef .tc main_v16) = _
  generalize W1 m ρ c = W
  after_results <;> (try simp only [TRef.ofBuf, TRef.toBuf, cast_eq]) <;> rfl

/-- The degree factor the regions take, per node. -/
theorem W2_v16 (c : Dev nD) : W2 m ρ c (Proc.devRef .tc main_v16) =
    disOf (edgesOf ![1, 0] slices_S2x1600000_S1x1600000_1_0 (W0 m ρ c (Proc.devRef .tc main_arg1))) := by
  rw [W2_v16_raw, W1_v12, W1_v15, W1_cst_3]

/-- … as a column. -/
theorem W3_v17 (c : Dev nD) : W3 m ρ c (Proc.devRef .tc main_v17) =
    shapeCast S100000x1 (W2 m ρ c (Proc.devRef .tc main_v16)) shapeCasts_S100000_S100000x1 := by
  show StableHlo.after hostOps0_2 (W2 m ρ c) (Proc.devRef .tc main_v17) = _
  generalize W2 m ρ c = W
  after_results <;> (try simp only [TRef.ofBuf, TRef.toBuf, cast_eq]) <;> rfl

/-! ## Between the regions -/

theorem W5_v29 (c : Dev nD) : W5 m ρ c (Proc.devRef .tc main_v29) =
    aggOf (W4 m ρ c (Proc.devRef .tc main_v18)) (W4 m ρ c (Proc.devRef .tc main_v3)) (W4 m ρ c (Proc.devRef .tc main_v6)) := by
  show StableHlo.after hostOps1 (W4 m ρ c) (Proc.devRef .tc main_v29) = _
  generalize W4 m ρ c = W
  after_results <;> (try simp only [TRef.ofBuf, TRef.toBuf, cast_eq]) <;> rfl

theorem W5_v30 (c : Dev nD) : W5 m ρ c (Proc.devRef .tc main_v30) =
    shapeCast S1x128 (W4 m ρ c (Proc.devRef .tc main_arg4)) shapeCasts_S128_S1x128 := by
  show StableHlo.after hostOps1 (W4 m ρ c) (Proc.devRef .tc main_v30) = _
  generalize W4 m ρ c = W
  after_results <;> (try simp only [TRef.ofBuf, TRef.toBuf, cast_eq]) <;> rfl

theorem W7_v42 (c : Dev nD) : W7 m ρ c (Proc.devRef .tc main_v42) =
    aggOf (W6 m ρ c (Proc.devRef .tc main_v31)) (W6 m ρ c (Proc.devRef .tc main_v3)) (W6 m ρ c (Proc.devRef .tc main_v6)) := by
  show StableHlo.after hostOps2 (W6 m ρ c) (Proc.devRef .tc main_v42) = _
  generalize W6 m ρ c = W
  after_results <;> (try simp only [TRef.ofBuf, TRef.toBuf, cast_eq]) <;> rfl

theorem W7_v43 (c : Dev nD) : W7 m ρ c (Proc.devRef .tc main_v43) =
    shapeCast S100000x1 (W6 m ρ c (Proc.devRef .tc main_arg2)) shapeCasts_S100000_S100000x1 := by
  show StableHlo.after hostOps2 (W6 m ρ c) (Proc.devRef .tc main_v43) = _
  generalize W6 m ρ c = W
  after_results <;> (try simp only [TRef.ofBuf, TRef.toBuf, cast_eq]) <;> rfl

theorem W7_v44 (c : Dev nD) : W7 m ρ c (Proc.devRef .tc main_v44) =
    shapeCast S1x1 (W6 m ρ c (Proc.devRef .tc main_arg8)) shapeCasts_S1_S1x1 := by
  show StableHlo.after hostOps2 (W6 m ρ c) (Proc.devRef .tc main_v44) = _
  generalize W6 m ρ c = W
  after_results <;> (try simp only [TRef.ofBuf, TRef.toBuf, cast_eq]) <;> rfl

theorem W7_v45 (c : Dev nD) : W7 m ρ c (Proc.devRef .tc main_v45) =
    shapeCast S1x128 (W6 m ρ c (Proc.devRef .tc main_arg6)) shapeCasts_S128_S1x128 := by
  show StableHlo.after hostOps2 (W6 m ρ c) (Proc.devRef .tc main_v45) = _
  generalize W6 m ρ c = W
  after_results <;> (try simp only [TRef.ofBuf, TRef.toBuf, cast_eq]) <;> rfl

/-! ## After region 2 -/

theorem W9_v47 (c : Dev nD) : W9 m ρ c (Proc.devRef .tc main_v47) =
    shapeCast S512 (W8 m ρ c (Proc.devRef .tc main_v46)) shapeCasts_S512x1_S512 := by
  show StableHlo.after hostOps3 (W8 m ρ c) (Proc.devRef .tc main_v47) = _
  generalize W8 m ρ c = W
  after_results <;> (try simp only [TRef.ofBuf, TRef.toBuf, cast_eq]) <;> rfl

end Cert.KernelIdeal.Fr

end
-- ==== Proof.Spec.lean ====
/-
  The mathematics both programs are read against, with no program in sight: a two-layer graph convolution with
  symmetric degree normalisation, mean pooling per graph and a linear head, over the extended reals.

  * how a host gather and an accumulating host scatter with the dimension numbers of row lookups and of
    segment sums read at an index;
  * the one algebraic law that joins the two programs: a NONNEGATIVE REAL factor `c` distributes over any sum of
    extended reals, so scaling every gathered row by the source's factor before the segment sum and the sum by the
    target's factor after it equals scaling every message by the product of the two factors (the extended reals are
    not a semiring; the law holds because `c` is a nonnegative real);
  * a segment sum over row ids equals the accumulation, over consecutive tiles of rows, of one-hot matrix products.
-/
import Idealize.ShloMosaic.PureOps.Ideal
import Idealize.ShloMosaic.PureOps.Ideal.Laws
import Idealize.ShloMosaic.Lib.ValueIdx
import Mathlib.Data.EReal.Operations
import Mathlib.Logic.Equiv.Fin.Basic
import Mathlib.Algebra.BigOperators.Fin

noncomputable section

open scoped BigOperators

namespace Cert.Spec

open Idealize.ShloMosaic Idealize.ShloMosaic.ValueIdx

/-! ## Start indices -/

/-- The row a gather reads for a start-index word: the word read signed, negative to 0, clamped to the last row. -/
def clampRow (N : Nat) (hN : 0 < N) (w : BitVec 32) : Fin N := ⟨min w.toInt.toNat (N - 1), by omega⟩

/-- A word that, read signed, IS the row `n`, is clamped to that row. -/
theorem clampRow_of_toInt {N : Nat} (hN : 0 < N) (w : BitVec 32) (n : Fin N) (h : w.toInt = (n.val : ℤ)) :
    clampRow N hN w = n := by
  apply Fin.ext
  have hn := n.isLt
  simp only [clampRow, h, Int.toNat_natCast]
  omega

/-! ## A gather of whole rows, a gather of scalars, the accumulating scatters, read at an index

Stated for any dimension-number record with these (literal) fields, so that each program's own record instantiates
them (its fields by `rfl`). -/

/-- `x[idx]` of a matrix: row `e` of the result is the operand's row at the clamped start index. -/
theorem gatherRows_apply {N E D : Nat} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    {α : Type} (x : (⟨2, ![N, D]⟩ : Shape).Idx → α) (idx : IVec ⟨2, ![E, 1]⟩ 32) (e : Fin E) (j : Fin D) :
    Host.gather d x idx (ix2 e j) = x (ix2 (clampRow N hN (idx (ix2 e 0))) j) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (hlt : List.idxOf (0 : Fin 2) [0] < [(0 : Fin 2)].length),
        GatherDims.siIdx (⟨[1], [0], [], [], [0], 1, ![1, D], wf⟩ :
          GatherDims ⟨2, ![N, D]⟩ ⟨2, ![E, 1]⟩ ⟨2, ![E, D]⟩) (ix2 e j) ⟨List.idxOf (0 : Fin 2) [0], hlt⟩ = ix2 e 0 := by
      intro hlt
      funext b; refine Fin.ext ?_
      match b with
      | ⟨0, _⟩ => rfl
      | ⟨1, _⟩ => rfl
    rw [hsi]
    rfl
  | ⟨1, _⟩ =>
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start
    rw [dif_neg (show (1 : Fin 2) ∉ [0] by decide)]
    unfold GatherDims.offCoord
    rw [dif_pos ((GatherDims.mem_sKept _ _).mpr ⟨show (1 : Fin 2) ∉ [0] by decide, List.not_mem_nil⟩)]
    simp only [Nat.add_zero, Nat.zero_add]
    rfl

/-- `x[idx]` of a vector. -/
theorem gatherVec_apply {N E : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    {α : Type} (x : (⟨1, ![N]⟩ : Shape).Idx → α) (idx : IVec ⟨2, ![E, 1]⟩ 32) (e : Fin E) :
    Host.gather d x idx (ix1 e) = x (ix1 (clampRow N hN (idx (ix2 e 0)))) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (hlt : List.idxOf (0 : Fin 1) [0] < [(0 : Fin 1)].length),
        GatherDims.siIdx (⟨[], [0], [], [], [0], 1, ![1], wf⟩ :
          GatherDims ⟨1, ![N]⟩ ⟨2, ![E, 1]⟩ ⟨1, ![E]⟩) (ix1 e) ⟨List.idxOf (0 : Fin 1) [0], hlt⟩ = ix2 e 0 := by
      intro hlt
      funext b; refine Fin.ext ?_
      match b with
      | ⟨0, _⟩ => rfl
      | ⟨1, _⟩ => rfl
    rw [hsi]
    rfl

/-- A segment sum of rows: entry `(n, j)` is the operand's plus the sum of column `j` of the update rows whose id, read
    signed, is `n` (an id outside the operand contributes nothing). -/
theorem scatterRows_apply {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ 32) (upd : (⟨2, ![E, D]⟩ : Shape).Idx → EReal)
    (n : Fin N) (j : Fin D) :
    Ideal.hostScatterAdd d x idx upd (ix2 n j)
      = x (ix2 n j) + ∑ e ∈ Finset.univ.filter (fun e : Fin E => (idx (ix2 e 0)).toInt = (n.val : ℤ)), upd (ix2 e j) := by
  obtain ⟨uw, iw, sd, iv, wf⟩ := d
  simp only at h1 h2 h3 h4
  subst h1 h2 h3 h4
  unfold Ideal.hostScatterAdd
  congr 1
  have hs0 : ∀ u, ScatterDims.start (⟨[1], [0], [0], 1, wf⟩ :
      ScatterDims ⟨2, ![N, D]⟩ ⟨2, ![E, 1]⟩ ⟨2, ![E, D]⟩) u idx 0 = (idx (ix2 (u 0) 0)).toInt := by
    intro u
    unfold ScatterDims.start
    rw [dif_pos (List.mem_singleton.mpr rfl)]
    congr 2
    funext b; refine Fin.ext ?_
    match b with
    | ⟨0, _⟩ => rfl
    | ⟨1, _⟩ => rfl
  have hw0 : ∀ u, ScatterDims.window (⟨[1], [0], [0], 1, wf⟩ :
      ScatterDims ⟨2, ![N, D]⟩ ⟨2, ![E, 1]⟩ ⟨2, ![E, D]⟩) u 0 = 0 := by
    intro u
    unfold ScatterDims.window
    rw [dif_neg]
    simp [ScatterDims.sKept, Shape.kept]
  have hs1 : ∀ u, ScatterDims.start (⟨[1], [0], [0], 1, wf⟩ :
      ScatterDims ⟨2, ![N, D]⟩ ⟨2, ![E, 1]⟩ ⟨2, ![E, D]⟩) u idx 1 = 0 := by
    intro u
    unfold ScatterDims.start
    rw [dif_neg (show (1 : Fin 2) ∉ [0] by decide)]
  have hw1 : ∀ u, ScatterDims.window (⟨[1], [0], [0], 1, wf⟩ :
      ScatterDims ⟨2, ![N, D]⟩ ⟨2, ![E, 1]⟩ ⟨2, ![E, D]⟩) u 1 = (u 1).val := by
    intro u
    unfold ScatterDims.window
    rw [dif_pos (by simp [ScatterDims.sKept, Shape.kept])]
    rfl
  generalize (⟨[1], [0], [0], 1, wf⟩ : ScatterDims ⟨2, ![N, D]⟩ ⟨2, ![E, 1]⟩ ⟨2, ![E, D]⟩) = dd at hs0 hw0 hs1 hw1 ⊢
  have key : ∀ u, (dd.resultIdx? u idx = some (ix2 n j))
        ↔ ((idx (ix2 (u 0) 0)).toInt = (n.val : ℤ) ∧ u 1 = j) := by
    intro u
    unfold ScatterDims.resultIdx?
    constructor
    · intro h
      split at h
      · rename_i hall
        have hf := Option.some.inj h
        have e0 : (dd.start u idx 0 + (dd.window u 0 : ℤ)).toNat = n.val := congrArg (fun f => (f 0).val) hf
        have e1 : (dd.start u idx 1 + (dd.window u 1 : ℤ)).toNat = j.val := congrArg (fun f => (f 1).val) hf
        have a0 := (hall 0).1
        rw [hs0, hw0] at e0 a0
        rw [hs1, hw1] at e1
        refine ⟨by omega, Fin.ext (by omega)⟩
      · exact absurd h (by simp)
    · rintro ⟨hq, hj⟩
      have hn := n.isLt
      have hu : ((u 1).val : ℕ) < D := (u 1).isLt
      have hall : ∀ a, 0 ≤ dd.start u idx a + (dd.window u a : ℤ)
          ∧ dd.start u idx a + (dd.window u a : ℤ) < (((⟨2, ![N, D]⟩ : Shape).size a : ℕ) : ℤ) := by
        intro a
        match a with
        | ⟨0, _⟩ =>
          show 0 ≤ dd.start u idx 0 + (dd.window u 0 : ℤ) ∧ dd.start u idx 0 + (dd.window u 0 : ℤ) < ((N : ℕ) : ℤ)
          rw [hs0, hw0, hq]
          constructor <;> omega
        | ⟨1, _⟩ =>
          show 0 ≤ dd.start u idx 1 + (dd.window u 1 : ℤ) ∧ dd.start u idx 1 + (dd.window u 1 : ℤ) < ((D : ℕ) : ℤ)
          rw [hs1, hw1]
          constructor <;> omega
      rw [dif_pos hall]
      congr 1
      funext a
      refine Fin.ext ?_
      match a with
      | ⟨0, _⟩ =>
        show (dd.start u idx 0 + (dd.window u 0 : ℤ)).toNat = n.val
        rw [hs0, hw0, hq]; omega
      | ⟨1, _⟩ =>
        show (dd.start u idx 1 + (dd.window u 1 : ℤ)).toNat = j.val
        rw [hs1, hw1, hj]; omega
  rw [Finset.sum_filter, Finset.sum_filter, sum_idx2]
  refine Finset.sum_congr rfl fun a _ => ?_
  by_cases hq : (idx (ix2 a 0)).toInt = (n.val : ℤ)
  · rw [if_pos hq, Finset.sum_eq_single j]
    · rw [if_pos ((key (ix2 a j)).2 ⟨hq, rfl⟩)]
    · intro b _ hb
      rw [if_neg (fun h => hb ((key (ix2 a b)).1 h).2)]
    · intro h; exact absurd (Finset.mem_univ _) h
  · rw [if_neg hq]
    apply Finset.sum_eq_zero
    intro b _
    rw [if_neg (fun h => hq ((key (ix2 a b)).1 h).1)]

/-- A rank-1 index set is its one coordinate's range, so a sum over it is the sum over the coordinate. -/
theorem sum_idx1 {M : Type} [AddCommMonoid M] {n : Nat} (f : (⟨1, ![n]⟩ : Shape).Idx → M) :
    ∑ i, f i = ∑ a : Fin n, f (ix1 a) := by
  let eqv : (⟨1, ![n]⟩ : Shape).Idx ≃ Fin n :=
    ⟨fun i => i 0, fun a => ix1 a, fun i => (eq_ix1 i).symm, fun _ => rfl⟩
  rw [← Equiv.sum_comp eqv.symm f]
  rfl

/-- A segment sum of scalars. -/
theorem scatterVec_apply {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ 32) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  obtain ⟨uw, iw, sd, iv, wf⟩ := d
  simp only at h1 h2 h3 h4
  subst h1 h2 h3 h4
  unfold Ideal.hostScatterAdd
  congr 1
  have hs0 : ∀ u, ScatterDims.start (⟨[], [0], [0], 1, wf⟩ :
      ScatterDims ⟨1, ![N]⟩ ⟨2, ![E, 1]⟩ ⟨1, ![E]⟩) u idx 0 = (idx (ix2 (u 0) 0)).toInt := by
    intro u
    unfold ScatterDims.start
    rw [dif_pos (List.mem_singleton.mpr rfl)]
    congr 2
    funext b; refine Fin.ext ?_
    match b with
    | ⟨0, _⟩ => rfl
    | ⟨1, _⟩ => rfl
  have hw0 : ∀ u, ScatterDims.window (⟨[], [0], [0], 1, wf⟩ :
      ScatterDims ⟨1, ![N]⟩ ⟨2, ![E, 1]⟩ ⟨1, ![E]⟩) u 0 = 0 := by
    intro u
    unfold ScatterDims.window
    rw [dif_neg]
    simp [ScatterDims.sKept, Shape.kept]
  generalize (⟨[], [0], [0], 1, wf⟩ : ScatterDims ⟨1, ![N]⟩ ⟨2, ![E, 1]⟩ ⟨1, ![E]⟩) = dd at hs0 hw0 ⊢
  have key : ∀ u, (dd.resultIdx? u idx = some (ix1 n)) ↔ (idx (ix2 (u 0) 0)).toInt = (n.val : ℤ) := by
    intro u
    unfold ScatterDims.resultIdx?
    constructor
    · intro h
      split at h
      · rename_i hall
        have hf := Option.some.inj h
        have e0 : (dd.start u idx 0 + (dd.window u 0 : ℤ)).toNat = n.val := congrArg (fun f => (f 0).val) hf
        have a0 := (hall 0).1
        rw [hs0, hw0] at e0 a0
        omega
      · exact absurd h (by simp)
    · intro hq
      have hn := n.isLt
      have hall : ∀ a, 0 ≤ dd.start u idx a + (dd.window u a : ℤ)
          ∧ dd.start u idx a + (dd.window u a : ℤ) < (((⟨1, ![N]⟩ : Shape).size a : ℕ) : ℤ) := by
        intro a
        match a with
        | ⟨0, _⟩ =>
          show 0 ≤ dd.start u idx 0 + (dd.window u 0 : ℤ) ∧ dd.start u idx 0 + (dd.window u 0 : ℤ) < ((N : ℕ) : ℤ)
          rw [hs0, hw0, hq]
          constructor <;> omega
      rw [dif_pos hall]
      congr 1
      funext a
      refine Fin.ext ?_
      match a with
      | ⟨0, _⟩ =>
        show (dd.start u idx 0 + (dd.window u 0 : ℤ)).toNat = n.val
        rw [hs0, hw0, hq]; omega
  rw [Finset.sum_filter, Finset.sum_filter, sum_idx1]
  refine Finset.sum_congr rfl fun a _ => ?_
  by_cases hq : (idx (ix2 a 0)).toInt = (n.val : ℤ)
  · rw [if_pos hq, if_pos ((key (ix1 a)).2 hq)]
  · rw [if_neg hq, if_neg (fun h => hq ((key (ix1 a)).1 h))]

/-! ## The law: a nonnegative real factor and a sum of extended reals -/

/-- A nonnegative real (an extended real that is `≥ 0` and not `⊤`) distributes over any finite sum of extended reals. -/
theorem sum_mul_of_nonneg {ι : Type} (s : Finset ι) (a : ι → EReal) (c : EReal) (h0 : 0 ≤ c) (ht : c ≠ ⊤) :
    (∑ e ∈ s, a e) * c = ∑ e ∈ s, a e * c := by
  classical
  induction s using Finset.induction_on with
  | empty => simp
  | insert i s hi ih =>
    rw [Finset.sum_insert hi, Finset.sum_insert hi, EReal.right_distrib_of_nonneg_of_ne_top h0 ht, ih]

/-- THE LAYER LAW. Messages `h[src] · (dis[src] · dis[dst'])` summed per target equal the pre-scaled rows
    `(h · dis)[src]` summed per target and scaled by the target's factor — where `dst'` names the target's row whenever
    the target id is a row at all (`hrow`), and every factor is a nonnegative real. -/
theorem layer_law {N E : Nat} (h : Fin N → EReal) (dis : Fin N → EReal)
    (hdis : ∀ n, 0 ≤ dis n ∧ dis n ≠ ⊤)
    (srcRow dstRow : Fin E → Fin N) (dst : Fin E → BitVec 32)
    (hrow : ∀ (e : Fin E) (n : Fin N), (dst e).toInt = (n.val : ℤ) → dstRow e = n) (n : Fin N) :
    (0 : EReal) + ∑ e ∈ Finset.univ.filter (fun e : Fin E => (dst e).toInt = (n.val : ℤ)),
        h (srcRow e) * (dis (srcRow e) * dis (dstRow e))
      = ((0 : EReal) + ∑ e ∈ Finset.univ.filter (fun e : Fin E => (dst e).toInt = (n.val : ℤ)),
          h (srcRow e) * dis (srcRow e)) * dis n := by
  rw [zero_add, zero_add, sum_mul_of_nonneg _ _ _ (hdis n).1 (hdis n).2]
  refine Finset.sum_congr rfl (fun e he => ?_)
  rw [Finset.mem_filter] at he
  rw [hrow e n he.2, mul_assoc]

/-! ## Pooling: a segment sum over rows as an accumulation of one-hot products over tiles -/

/-- Row `r` of tile `t` (tiles of `B` consecutive rows). -/
def tileRow {T B : Nat} (t : Fin T) (r : Fin B) : Fin (T * B) :=
  ⟨t.val * B + r.val, by
    have := t.isLt; have := r.isLt
    calc t.val * B + r.val < t.val * B + B := by omega
      _ = (t.val + 1) * B := by ring
      _ ≤ T * B := Nat.mul_le_mul_right B (by omega)⟩

/-- A sum over all rows is the sum over the tiles of the sums over each tile's rows. -/
theorem sum_tiles {T B : Nat} (f : Fin (T * B) → EReal) :
    ∑ n : Fin (T * B), f n = ∑ t : Fin T, ∑ r : Fin B, f (tileRow t r) := by
  rw [← Equiv.sum_comp finProdFinEquiv f, Fintype.sum_prod_type]
  refine Finset.sum_congr rfl fun t _ => Finset.sum_congr rfl fun r _ => ?_
  congr 1
  apply Fin.ext
  simp only [finProdFinEquiv, Equiv.coe_fn_mk, tileRow]
  rw [Nat.mul_comm, Nat.add_comm]

/-- The same, accumulated tile after tile from `0`: `acc 0 = 0`, `acc (k+1) = acc k + ∑ r, f (tile k, r)`. -/
def accTiles {T B : Nat} (f : Fin (T * B) → EReal) : (k : Nat) → k ≤ T → EReal
  | 0, _ => 0
  | k + 1, hk => accTiles f k (Nat.le_of_succ_le hk) + ∑ r : Fin B, f (tileRow ⟨k, hk⟩ r)

/-- The accumulation after `k` tiles is the sum over the first `k` tiles. -/
theorem accTiles_eq {T B : Nat} (f : Fin (T * B) → EReal) (k : Nat) (hk : k ≤ T) :
    accTiles f k hk = ∑ t : Fin k, ∑ r : Fin B, f (tileRow ⟨t.val, lt_of_lt_of_le t.isLt hk⟩ r) := by
  induction k with
  | zero => simp [accTiles]
  | succ k ih =>
    rw [accTiles, ih (Nat.le_of_succ_le hk), Fin.sum_univ_castSucc]
    rfl

theorem accTiles_all {T B : Nat} (f : Fin (T * B) → EReal) :
    accTiles f T le_rfl = ∑ n : Fin (T * B), f n := by
  rw [accTiles_eq, sum_tiles]

/-- The one-hot entry of a graph id against graph `g` as an extended real: `1` on a match, else `0`. -/
def onehot (w : BitVec 32) (g : Nat) : EReal := if w = BitVec.ofNat 32 g then 1 else 0

/-- The 32-bit word of a natural number below `2^31`, read signed, is that number. -/
theorem toInt_ofNat_small (g : Nat) (hg : g < 2 ^ 31) : (BitVec.ofNat 32 g).toInt = (g : ℤ) := by
  rw [BitVec.toInt_ofNat']
  unfold Int.bmod
  have : ((g : ℤ) % ((2 ^ 32 : ℕ) : ℤ)) = g := by
    apply Int.emod_eq_of_lt <;> omega
  simp only [this]
  split <;> omega

/-- A one-hot weighted sum over ALL rows is the sum over the rows whose id is `g` (for `g` below `2^31`: the id read
    signed is then `g` exactly when the word is `g`'s). -/
theorem sum_onehot {N : Nat} (ids : Fin N → BitVec 32) (v : Fin N → EReal) (g : Nat) (hg : g < 2 ^ 31) :
    ∑ n : Fin N, onehot (ids n) g * v n
      = ∑ n ∈ Finset.univ.filter (fun n : Fin N => (ids n).toInt = (g : ℤ)), v n := by
  rw [Finset.sum_filter]
  refine Finset.sum_congr rfl fun n _ => ?_
  have hiff : (ids n = BitVec.ofNat 32 g) ↔ (ids n).toInt = (g : ℤ) := by
    constructor
    · intro hh; rw [hh]; exact toInt_ofNat_small g hg
    · intro hh; apply BitVec.toInt_inj.1; rw [hh, toInt_ofNat_small g hg]
  unfold onehot
  by_cases hh : ids n = BitVec.ofNat 32 g
  · rw [if_pos hh, if_pos (hiff.1 hh), one_mul]
  · rw [if_neg hh, if_neg (mt hiff.2 hh), zero_mul]

/-! ## The degree factor is a nonnegative real -/

/-- `where(deg > 0, rsqrt(max(deg, 1)), 0)` of a count `deg = 0 + ∑ 1` is `≥ 0` and not `⊤`. -/
theorem dis_nonneg_real {ι : Type} (s : Finset ι) :
    let deg : EReal := (0 : EReal) + ∑ _e ∈ s, (1 : EReal)
    ∀ d : EReal, (d = Ideal.rsqrt (max deg 1) ∨ d = 0) → 0 ≤ d ∧ d ≠ ⊤ := by
  intro deg d hd
  rcases hd with rfl | rfl
  · have hdeg : deg = (((s.card : ℕ) : ℝ) : EReal) := by
      simp only [deg, zero_add, Finset.sum_const]
      rw [← EReal.coe_one, ← EReal.coe_nsmul, nsmul_eq_mul, mul_one]
    have hmax : max deg 1 = ((max ((s.card : ℕ) : ℝ) 1 : ℝ) : EReal) := by
      rw [hdeg, ← EReal.coe_one, ← EReal.coe_strictMono.monotone.map_max]
    rw [hmax, Ideal.rsqrt_coe]
    have hpos : (0 : ℝ) < max ((s.card : ℕ) : ℝ) 1 := lt_of_lt_of_le one_pos (le_max_right _ _)
    rw [if_neg (not_lt.2 hpos.le), if_neg hpos.ne']
    exact ⟨EReal.coe_nonneg.2 (inv_nonneg.2 (Real.sqrt_nonneg _)), EReal.coe_ne_top _⟩
  · exact ⟨le_refl _, EReal.zero_ne_top⟩

end Cert.Spec

end
-- ==== Proof.KI.Pay.lean ====
/-
  Each kernel body's arithmetic, read at one entry, over the extended reals.

  At the ideal values a format change is the identity and a matrix product into a zero accumulator is a plain sum over
  the contracted axis, so every stored value of the three kernels is a closed expression of the loaded blocks' entries:

  * the first kernel stores `(x · W) ⊙ dinv`: entry `(r, j)` is `(∑ k, x (r, k) * W (k, j)) * dinv r`;
  * the second stores `(max (z ⊙ dinv + b) 0 · W) ⊙ dinv`;
  * the third accumulates, tile of rows by tile, `onehotᵀ · max (z ⊙ dinv + b) 0` (the per-graph sums) and
    `onehotᵀ · 1` (the per-graph counts), where `onehot (r, g)` is `1` when row `r`'s graph id is `g` and `0`
    otherwise, starting from zero; its last step divides the sums by `max count 1`, multiplies by the head's weights
    and adds the head's bias.
-/
import proofs.«405428_j28441273434160_2_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«405428_j28441273434160_2_alg».proof.Proof.Spec

noncomputable section

open scoped BigOperators

namespace Cert.KernelIdeal.Pay

open Idealize.ShloMosaic Idealize.ShloMosaic.ValueIdx Cert.KernelIdeal Cert.KernelIdeal.Gen

/-! ## A column broadcast over the lanes -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A `[5000,128]` by `[128,128]` product read at an entry -/

theorem lhs_mm0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(r, j)` of the product into a zero accumulator is `∑ k, A (r, k) * B (k, j)`. -/
theorem mm0_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_mm0_0 _ _
    | ⟨1, _⟩ => exact (lhs_mm0_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_mm0_0 _ _).trans hk
    | ⟨1, _⟩ => exact rhs_mm0_1 _ _)
  rw [el, er]

/-! ## The hidden layer's activation: `max (z ⊙ dinv + b) 0`, read at an entry -/

/-- The scaled, biased and rectified pre-activation at `(r, k)`: the row's factor multiplies, the bias row adds, and
    the result is cut at zero. -/
theorem act_apply (z : Vec Ideal S5000x128 .f32) (dinv : Vec Ideal S5000x1 .f32) (b : Vec Ideal S1x128 .f32)
    (h3 : S5000x1.Broadcasts S5000x128) (h5 : S1x128.Broadcasts S5000x128) (r : Fin 5000) (k : Fin 128) :
    maximumf (F := Ideal) (addf (mulf z (broadcastTo S5000x128 dinv h3)) (broadcastTo S5000x128 b h5))
      (broadcast S5000x128 (Scalar.ofBits (F := Ideal) .f32 0x00000000#32)) (ix2 r k)
      = max (z (ix2 r k) * dinv (ix2 r 0) + b (ix2 0 k)) 0 := by
  rw [maximumf_apply, addf_apply, mulf_apply, broadcast_apply, broadcastTo_a1_ab_apply, broadcastTo_1b_ab_apply]
  exact congrArg (max _) Ideal.ofBits_zero_f32

/-! ## The first kernel: `(x · W) ⊙ dinv` -/

theorem k0_pay1_apply (v0 : Vec Ideal S5000x128 .f32) (v2 : Vec Ideal S128x128 .f32) (v5 : Vec Ideal S5000x1 .f32) (r : Fin 5000) (j : Fin 128) :
    k0_pay1 (F := Ideal) v0 v2 v5 (ix2 r j) = (∑ k : Fin 128, v0 (ix2 r k) * v2 (ix2 k j)) * v5 (ix2 r 0) := by
  unfold k0_pay1
  simp only [shapeCast_self]
  rw [truncf_apply, mulf_apply, mm0_apply, broadcastTo_a1_ab_apply]
  rfl

/-! ## The second kernel: `(max (z ⊙ dinv + b) 0 · W) ⊙ dinv` -/

theorem k1_pay1_apply (v0 : Vec Ideal S5000x128 .f32) (v2 : Vec Ideal S5000x1 .f32) (v6 : Vec Ideal S1x128 .f32) (v13 : Vec Ideal S128x128 .f32) (v16 : Vec Ideal S5000x1 .f32) (r : Fin 5000) (j : Fin 128) :
    k1_pay1 (F := Ideal) v0 v2 v6 v13 v16 (ix2 r j) = (∑ k : Fin 128, max (v0 (ix2 r k) * v2 (ix2 r 0) + v6 (ix2 0 k)) 0 * v13 (ix2 k j)) * v16 (ix2 r 0) := by
  unfold k1_pay1
  simp only [shapeCast_self]
  rw [truncf_apply, mulf_apply, mm0_apply, broadcastTo_a1_ab_apply]
  refine congrArg (· * v16 (ix2 r 0)) (Finset.sum_congr rfl fun k _ => ?_)
  rw [truncf_apply, truncf_apply, act_apply]

/-! ## The accumulators' initial values and the count's copy -/

theorem k2_pay3_apply (i : S512x128.Idx) : k2_pay3 (F := Ideal) i = 0 := by
  unfold k2_pay3
  simp only [shapeCast_self]
  exact Ideal.ofBits_zero_f32

theorem k2_pay4_apply (i : S512x1.Idx) : k2_pay4 (F := Ideal) i = 0 := by
  unfold k2_pay4
  simp only [shapeCast_self]
  exact Ideal.ofBits_zero_f32

theorem k2_pay1_apply (v34 : FVec Ideal S512x1 .f32) (i : S512x1.Idx) : k2_pay1 (F := Ideal) v34 i = v34 i := by
  unfold k2_pay1
  rw [shapeCast_self]

/-! ## The one-hot matrix of the graph ids -/

/-- The comparison word of an id against `g`, widened and read as a number, is the one-hot entry. -/
theorem onehot_word (w : BitVec 32) (g : Nat) :
    ((((IntOp.cmpi .eq w (BitVec.ofNat 32 g)).setWidth 32).toInt : ℝ) : EReal) = Cert.Spec.onehot w g := by
  have hc : IntOp.cmpi .eq w (BitVec.ofNat 32 g) = BitVec.ofBool (w == BitVec.ofNat 32 g) := rfl
  rw [hc]
  unfold Cert.Spec.onehot
  by_cases h : w = BitVec.ofNat 32 g
  · rw [if_pos h, beq_iff_eq.mpr h]
    have e : ((BitVec.ofBool true).setWidth 32).toInt = 1 := by decide
    rw [e]; simp
  · rw [if_neg h, beq_eq_false_iff_ne.mpr h]
    have e : ((BitVec.ofBool false).setWidth 32).toInt = 0 := by decide
    rw [e]; simp

/-- Entry `(r, g)` of the one-hot matrix: `1` when row `r`'s id is `g`, else `0`. -/
theorem k2_pay5_apply (v16 : Vec Ideal S5000x1 .i32) (r : Fin 5000) (g : Fin 512) :
    k2_pay5 (F := Ideal) v16 (ix2 r g) = Cert.Spec.onehot (v16 (ix2 r 0)) g.val := by
  unfold k2_pay5
  simp only [shapeCast_self]
  rw [truncf_apply, sitofp_apply, extui_apply]
  show ((((IntOp.cmpi .eq (broadcastTo S5000x512 v16 broadcasts_S5000x1_S5000x512 (ix2 r g))
    (broadcastTo S5000x512 (iota .tc S1x512 32 [1] iota_S1x512_d1_w32) broadcasts_S1x512_S5000x512 (ix2 r g))).setWidth 32).toInt : ℝ) : EReal) = _
  rw [broadcastTo_a1_ab_apply, broadcastTo_1b_ab_apply, iota_single_apply]
  exact onehot_word _ _

/-! ## The pooling products: a `[5000,512]` matrix, transposed, by a `[5000,128]` matrix and by a `[5000,1]` column -/

theorem lhs_mm6_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem lhs_mm6_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem rhs_mm6_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem rhs_mm6_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- Both operands contract their rows: entry `(g, j)` of the product into a zero accumulator is `∑ r, A (r, g) * B (r, j)`. -/
theorem mm6_apply (A : FVec Ideal S5000x512 .bf16) (B : FVec Ideal S5000x128 .bf16) (g : Fin 512) (j : Fin 128) :
    matmul dot_S5000x512_S5000x128_S512x128_0_0_1_1_n_n none A B (constant (F := Ideal) S512x128 .f32 0x00000000#32) (ix2 g j)
      = ∑ k : Fin 5000, A (ix2 k g) * B (ix2 k j) := by
  simp only [matmul]
  rw [Ideal.matmul_constant_zero_apply, ← Equiv.sum_comp (contrEquiv1 dot_S5000x512_S5000x128_S512x128_0_0_1_1_n_n 5000 rfl rfl).symm]
  refine Finset.sum_congr rfl fun k _ => ?_
  have hk := contrEquiv1_symm_val dot_S5000x512_S5000x128_S512x128_0_0_1_1_n_n 5000 rfl rfl k
  have el : dot_S5000x512_S5000x128_S512x128_0_0_1_1_n_n.lhsIdx (ix2 g j) ((contrEquiv1 dot_S5000x512_S5000x128_S512x128_0_0_1_1_n_n 5000 rfl rfl).symm k) = ix2 k g := funext fun a => Fin.ext (by
    match a with
    | ⟨0, _⟩ => exact (lhs_mm6_0 _ _).trans hk
    | ⟨1, _⟩ => exact lhs_mm6_1 _ _)
  have er : dot_S5000x512_S5000x128_S512x128_0_0_1_1_n_n.rhsIdx (ix2 g j) ((contrEquiv1 dot_S5000x512_S5000x128_S512x128_0_0_1_1_n_n 5000 rfl rfl).symm k) = ix2 k j := funext fun a => Fin.ext (by
    match a with
    | ⟨0, _⟩ => exact (rhs_mm6_0 _ _).trans hk
    | ⟨1, _⟩ => exact rhs_mm6_1 _ _)
  rw [el, er]

theorem lhs_mm7_0 (i : S512x1.Idx) (q : dot_S5000x512_S5000x1_S512x1_0_0_1_1_n_n.contr.Idx) :
    (dot_S5000x512_S5000x1_S512x1_0_0_1_1_n_n.lhsIdx i q 0).val = (q ⟨0, by decide⟩).val :=
  dot_S5000x512_S5000x1_S512x1_0_0_1_1_n_n.lhsIdx_val_of_single rfl i q
theorem lhs_mm7_1 (i : S512x1.Idx) (q : dot_S5000x512_S5000x1_S512x1_0_0_1_1_n_n.contr.Idx) :
    (dot_S5000x512_S5000x1_S512x1_0_0_1_1_n_n.lhsIdx i q 1).val = (i 0).val := by
  unfold DotDims.lhsIdx
  rw [dif_neg (show ¬(1 : Fin S5000x512.rank) ∈ dot_S5000x512_S5000x1_S512x1_0_0_1_1_n_n.lhsBatch by decide), dif_pos (show (1 : Fin S5000x512.rank) ∈ dot_S5000x512_S5000x1_S512x1_0_0_1_1_n_n.lhsNonContracting by decide)]
  rfl
theorem rhs_mm7_0 (i : S512x1.Idx) (q : dot_S5000x512_S5000x1_S512x1_0_0_1_1_n_n.contr.Idx) :
    (dot_S5000x512_S5000x1_S512x1_0_0_1_1_n_n.rhsIdx i q 0).val = (q ⟨0, by decide⟩).val :=
  dot_S5000x512_S5000x1_S512x1_0_0_1_1_n_n.rhsIdx_val_of_single rfl i q
theorem rhs_mm7_1 (i : S512x1.Idx) (q : dot_S5000x512_S5000x1_S512x1_0_0_1_1_n_n.contr.Idx) :
    (dot_S5000x512_S5000x1_S512x1_0_0_1_1_n_n.rhsIdx i q 1).val = (i 1).val := by
  unfold DotDims.rhsIdx
  rw [dif_neg (show ¬(1 : Fin S5000x1.rank) ∈ dot_S5000x512_S5000x1_S512x1_0_0_1_1_n_n.rhsBatch by decide), dif_pos (show (1 : Fin S5000x1.rank) ∈ dot_S5000x512_S5000x1_S512x1_0_0_1_1_n_n.rhsNonContracting by decide)]
  rfl

/-- The same against a column: entry `(g, c)` is `∑ r, A (r, g) * B (r, c)`. -/
theorem mm7_apply (A : FVec Ideal S5000x512 .bf16) (B : FVec Ideal S5000x1 .bf16) (g : Fin 512) (c : Fin 1) :
    matmul dot_S5000x512_S5000x1_S512x1_0_0_1_1_n_n none A B (constant (F := Ideal) S512x1 .f32 0x00000000#32) (ix2 g c)
      = ∑ k : Fin 5000, A (ix2 k g) * B (ix2 k c) := by
  simp only [matmul]
  rw [Ideal.matmul_constant_zero_apply, ← Equiv.sum_comp (contrEquiv1 dot_S5000x512_S5000x1_S512x1_0_0_1_1_n_n 5000 rfl rfl).symm]
  refine Finset.sum_congr rfl fun k _ => ?_
  have hk := contrEquiv1_symm_val dot_S5000x512_S5000x1_S512x1_0_0_1_1_n_n 5000 rfl rfl k
  have el : dot_S5000x512_S5000x1_S512x1_0_0_1_1_n_n.lhsIdx (ix2 g c) ((contrEquiv1 dot_S5000x512_S5000x1_S512x1_0_0_1_1_n_n 5000 rfl rfl).symm k) = ix2 k g := funext fun a => Fin.ext (by
    match a with
    | ⟨0, _⟩ => exact (lhs_mm7_0 _ _).trans hk
    | ⟨1, _⟩ => exact lhs_mm7_1 _ _)
  have er : dot_S5000x512_S5000x1_S512x1_0_0_1_1_n_n.rhsIdx (ix2 g c) ((contrEquiv1 dot_S5000x512_S5000x1_S512x1_0_0_1_1_n_n 5000 rfl rfl).symm k) = ix2 k c := funext fun a => Fin.ext (by
    match a with
    | ⟨0, _⟩ => exact (rhs_mm7_0 _ _).trans hk
    | ⟨1, _⟩ => exact rhs_mm7_1 _ _)
  rw [el, er]

/-! ## The head's product: a `[512,128]` matrix by a `[128,1]` column -/

theorem lhs_mm2_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem lhs_mm2_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem rhs_mm2_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem rhs_mm2_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- Entry `(g, c)` of the product into a zero accumulator is `∑ k, A (g, k) * B (k, c)`. -/
theorem mm2_apply (A : FVec Ideal S512x128 .bf16) (B : FVec Ideal S128x1 .bf16) (g : Fin 512) (c : Fin 1) :
    matmul dot_S512x128_S128x1_S512x1_1_0_0_1_n_n none A B (constant (F := Ideal) S512x1 .f32 0x00000000#32) (ix2 g c)
      = ∑ k : Fin 128, A (ix2 g k) * B (ix2 k c) := by
  simp only [matmul]
  rw [Ideal.matmul_constant_zero_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 g c) ((contrEquiv1 dot_S512x128_S128x1_S512x1_1_0_0_1_n_n 128 rfl rfl).symm k) = ix2 g k := funext fun a => Fin.ext (by
    match a with
    | ⟨0, _⟩ => exact lhs_mm2_0 _ _
    | ⟨1, _⟩ => exact (lhs_mm2_1 _ _).trans hk)
  have er : dot_S512x128_S128x1_S512x1_1_0_0_1_n_n.rhsIdx (ix2 g c) ((contrEquiv1 dot_S512x128_S128x1_S512x1_1_0_0_1_n_n 128 rfl rfl).symm k) = ix2 k c := funext fun a => Fin.ext (by
    match a with
    | ⟨0, _⟩ => exact (rhs_mm2_0 _ _).trans hk
    | ⟨1, _⟩ => exact rhs_mm2_1 _ _)
  rw [el, er]

/-! ## The pooling step: sums and counts per graph -/

theorem k2_pay6_apply (v3 : Vec Ideal S5000x128 .f32) (v5 : Vec Ideal S5000x1 .f32) (v9 : Vec Ideal S1x128 .f32) (v16 : Vec Ideal S5000x1 .i32) (v25 : Vec Ideal S512x128 .f32) (g : Fin 512) (j : Fin 128) :
    k2_pay6 (F := Ideal) v3 v5 v9 v16 v25 (ix2 g j) = v25 (ix2 g j) + ∑ r : Fin 5000, Cert.Spec.onehot (v16 (ix2 r 0)) g.val * max (v3 (ix2 r j) * v5 (ix2 r 0) + v9 (ix2 0 j)) 0 := by
  unfold k2_pay6
  simp only [shapeCast_self]
  rw [addf_apply, mm6_apply]
  refine congrArg (v25 (ix2 g j) + ·) (Finset.sum_congr rfl fun r _ => ?_)
  rw [k2_pay5_apply, truncf_apply, act_apply]

theorem k2_pay7_apply (v16 : Vec Ideal S5000x1 .i32) (v32 : Vec Ideal S512x1 .f32) (g : Fin 512) :
    k2_pay7 (F := Ideal) v16 v32 (ix2 g 0) = v32 (ix2 g 0) + ∑ r : Fin 5000, Cert.Spec.onehot (v16 (ix2 r 0)) g.val * 1 := by
  unfold k2_pay7
  rw [addf_apply, mm7_apply]
  refine congrArg (v32 (ix2 g 0) + ·) (Finset.sum_congr rfl fun r _ => ?_)
  rw [k2_pay5_apply, broadcast_apply]
  exact congrArg (_ * ·) Ideal.ofBits_one_bf16

/-! ## The head: the mean per graph, times the weights, plus the bias -/

theorem k2_pay2_apply (v41 : Vec Ideal S512x128 .f32) (v42 : Vec Ideal S512x1 .f32) (v48 : Vec Ideal S128x1 .f32) (v51 : Vec Ideal S1x1 .f32) (g : Fin 512) :
    k2_pay2 (F := Ideal) v41 v42 v48 v51 (ix2 g 0) = (∑ k : Fin 128, Ideal.div (v41 (ix2 g k)) (max (v42 (ix2 g 0)) 1) * v48 (ix2 k 0)) + v51 (ix2 0 0) := by
  unfold k2_pay2
  simp only [shapeCast_self]
  rw [addf_apply, mm2_apply, broadcastTo_1b_ab_apply]
  refine congrArg (· + v51 (ix2 0 0)) (Finset.sum_congr rfl fun k _ => ?_)
  rw [truncf_apply, truncf_apply, divf_apply, broadcastTo_a1_ab_apply, maximumf_apply, broadcast_apply]
  exact congrArg (fun t => Ideal.div (v41 (ix2 g k)) (max (v42 (ix2 g 0)) t) * v48 (ix2 k 0)) Ideal.ofBits_one_f32

end Cert.KernelIdeal.Pay
-- ==== Proof.KI.Val0.lean ====
/-
  Region 0's output array, entry by entry.

  The region walks 20 grid points; at point t it reads rows 5000 t … 5000 t + 4999 of the node features x, the whole
  weight matrix W and the same rows of the column of degree factors d, and writes back rows 5000 t … 5000 t + 4999 of
  the output. Entry (r, j) of the block it writes is (∑ k, xblk (r, k) * W (k, j)) * dblk r, and row r of a block at
  point t is row 5000 t + r of its array, so every point writes its block of ONE whole-array function

      G (n, j) = (∑ k, x (n, k) * W (k, j)) * d n.

  The 20 blocks tile the 100000 rows (row n lies in the block of point n / 5000), so the array ends holding G.
-/
import proofs.«405428_j28441273434160_2_alg».proof.Proof.KI.Reg0
import proofs.«405428_j28441273434160_2_alg».proof.Proof.KI.Pay
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-! ## The arrays the region reads, by their literal types -/

/-- The node features as the region finds them. -/
abbrev feat0 (c : Dev nD) : S100000x128.Idx → Elt Ideal .f32 := V c main_arg0
/-- The first layer's weights. -/
abbrev wgt0 (c : Dev nD) : S128x128.Idx → Elt Ideal .f32 := V c main_arg3
/-- The column of degree factors. -/
abbrev deg0 (c : Dev nD) : S100000x1.Idx → Elt Ideal .f32 := V c main_v17

/-- The whole output as one function of the three arrays: the product's row scaled by the row's factor. -/
abbrev G0 (a0 : S100000x128.Idx → Elt Ideal .f32) (a1 : S128x128.Idx → Elt Ideal .f32) (a2 : S100000x1.Idx → Elt Ideal .f32) :
    S100000x128.Idx → Elt Ideal .bf16 :=
  fun i => (∑ k : Fin 128, a0 (ix2 (i 0) k) * a1 (ix2 k (i 1))) * a2 (ix2 (i 0) 0)

/-! ## The block indices, decided over the grid -/

/-- Windows 0, 2 and 3 move down the rows with the point; window 1 stays on the one block of the weights. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## Each input block as entries of its array -/

/-- Row r of the features' block at point t is row 5000 t + r of the features. -/
theorem feat_blk_apply (c : Dev nD) (t : Fin cfg0.N) (y : S5000x128.Idx) (i : S100000x128.Idx)
    (h0 : (i 0).val = t.val * 5000 + (y 0).val) (h1 : (i 1).val = (y 1).val) :
    (Fr.iblk0 V c 0 t : Vec Ideal S5000x128 .f32) y = feat0 V c i := by
  obtain ⟨e0, e1, -⟩ := idx_facts0 t
  unfold Fr.iblk0
  rw [View.read_apply]
  show V c main_arg0 _ = V c main_arg0 _
  congr 1
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weights' block at any point is the weights. -/
theorem wgt_blk_apply (c : Dev nD) (t : Fin cfg0.N) (y : S128x128.Idx) :
    (Fr.iblk0 V c 1 t : Vec Ideal S128x128 .f32) y = wgt0 V c y := by
  obtain ⟨-, -, e0, e1, -⟩ := idx_facts0 t
  unfold Fr.iblk0
  rw [View.read_apply]
  show V c main_arg3 _ = V c main_arg3 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Row r of the factors' block at point t is row 5000 t + r of the factors. -/
theorem deg_blk_apply (c : Dev nD) (t : Fin cfg0.N) (y : S5000x1.Idx) (i : S100000x1.Idx)
    (h0 : (i 0).val = t.val * 5000 + (y 0).val) (h1 : (i 1).val = (y 1).val) :
    (Fr.iblk0 V c 2 t : Vec Ideal S5000x1 .f32) y = deg0 V c i := by
  obtain ⟨-, -, -, -, e0, e1, -⟩ := idx_facts0 t
  unfold Fr.iblk0
  rw [View.read_apply]
  show V c main_v17 _ = V c main_v17 _
  congr 1
  funext a
  apply Fin.ext
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- Where entry y of the output's block at point t lies in the output. -/
theorem out_blk_emb (t : Fin cfg0.N) (y : S5000x128.Idx) :
    ((((cfg0.win 3).blk t).view.emb y) 0).val = t.val * 5000 + (y 0).val
      ∧ ((((cfg0.win 3).blk t).view.emb y) 1).val = (y 1).val := by
  obtain ⟨-, -, -, -, -, -, e0, e1⟩ := idx_facts0 t
  constructor
  · show win0_3.index t (0 : Fin 2) * 5000 + 1 * (y 0).val = _; omega
  · show win0_3.index t (1 : Fin 2) * 128 + 1 * (y 1).val = _; omega

/-! ## The payload at an entry, against the whole-array function -/

/-- If the three blocks agree with the arrays along the row and the column the entry uses, the payload at entry y is
    the whole-array function at i. -/
theorem pay0_at (x0 : Vec Ideal S5000x128 .f32) (x1 : Vec Ideal S128x128 .f32) (x2 : Vec Ideal S5000x1 .f32)
    (a0 : S100000x128.Idx → Elt Ideal .f32) (a1 : S128x128.Idx → Elt Ideal .f32) (a2 : S100000x1.Idx → Elt Ideal .f32)
    (y : S5000x128.Idx) (i : S100000x128.Idx)
    (h0 : ∀ k : Fin 128, x0 (ix2 (y 0) k) = a0 (ix2 (i 0) k))
    (h1 : ∀ k : Fin 128, x1 (ix2 k (y 1)) = a1 (ix2 k (i 1)))
    (h2 : x2 (ix2 (y 0) 0) = a2 (ix2 (i 0) 0)) :
    k0_pay1 (F := Ideal) x0 x1 x2 y = G0 a0 a1 a2 i := by
  obtain ⟨r, q, rfl⟩ : ∃ (r : Fin 5000) (q : Fin 128), y = ix2 r q := ⟨y 0, y 1, eq_ix2 y⟩
  have g0 : ∀ k : Fin 128, x0 (ix2 r k) = a0 (ix2 (i 0) k) := h0
  have g1 : ∀ k : Fin 128, x1 (ix2 k q) = a1 (ix2 k (i 1)) := h1
  have g2 : x2 (ix2 r 0) = a2 (ix2 (i 0) 0) := h2
  rw [Pay.k0_pay1_apply]
  show (∑ k : Fin 128, x0 (ix2 r k) * x1 (ix2 k q)) * x2 (ix2 r 0)
    = (∑ k : Fin 128, a0 (ix2 (i 0) k) * a1 (ix2 k (i 1))) * a2 (ix2 (i 0) 0)
  rw [g2]
  refine congrArg (· * a2 (ix2 (i 0) 0)) (Finset.sum_congr rfl fun k _ => ?_)
  rw [g0, g1]

/-! ## What each point writes back -/

/-- Point t writes back block t of the whole-array function of the arrays as the region finds them. -/
theorem flushed0_eq (c : Dev nD) (t : Fin cfg0.N) :
    (Fr.dat0 V c).flushed 3 t = ((cfg0.win 3).blk t).view.read (Elt Ideal) (G0 (feat0 V c) (wgt0 V c) (deg0 V c)) := by
  show (cfg0.win 3).cut (grid0.coords t) ((Fr.dat0 V c).after 3 t) = _
  rw [Fr.after0_3]
  unfold Fr.out0_3
  rw [View.canon_unit_zero zero_off]
  simp only [View.ld_unit_zero (S := S5000x128) zero_off, View.ld_unit_zero (S := S128x128) zero_off, View.ld_unit_zero (S := S5000x1) zero_off]
  funext y
  obtain ⟨o0, o1⟩ := out_blk_emb t y
  show k0_pay1 (F := Ideal) (Fr.iblk0 V c 0 t) (Fr.iblk0 V c 1 t) (Fr.iblk0 V c 2 t) y
    = G0 (feat0 V c) (wgt0 V c) (deg0 V c) (((cfg0.win 3).blk t).view.emb y)
  refine pay0_at (Fr.iblk0 V c 0 t) (Fr.iblk0 V c 1 t) (Fr.iblk0 V c 2 t) (feat0 V c) (wgt0 V c) (deg0 V c) y
    (((cfg0.win 3).blk t).view.emb y) (fun k => ?_) (fun k => ?_) ?_
  · exact feat_blk_apply V c t (ix2 (y 0) k) (ix2 ((((cfg0.win 3).blk t).view.emb y) 0) k) o0 rfl
  · exact wgt_blk_apply V c t (ix2 k (y 1)) |>.trans (congrArg (wgt0 V c) (funext fun a => Fin.ext (by
      match a with
      | ⟨0, _⟩ => rfl
      | ⟨1, _⟩ => exact o1.symm)))
  · exact deg_blk_apply V c t (ix2 (y 0) 0) (ix2 ((((cfg0.win 3).blk t).view.emb y) 0) 0) o0 rfl

/-! ## The blocks tile the rows -/

/-- An entry of the output is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Row n lies in the block of point n / 5000, and every point writes back. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by show _ < 20; omega
  obtain ⟨-, -, -, -, -, -, e0, e1⟩ := idx_facts0 ⟨(i 0).val / 5000, hN⟩
  refine ⟨⟨(i 0).val / 5000, hN⟩, flush0_3 _, ?_⟩
  rw [mem_blk0]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e1]; omega

/-! ## The array after the region -/

/-- The output array after the last point is the whole-array function of the arrays as the region finds them. -/
theorem final0 (c : Dev nD) : (Fr.dat0 V c).arrAt 3 cfg0.N = G0 (feat0 V c) (wgt0 V c) (deg0 V c) :=
  (Fr.dat0 V c).arrAt_eq_of_cover 3 (G0 (feat0 V c) (wgt0 V c) (deg0 V c)) (fun t _ => flushed0_eq V c t) cover0

/-- Entry (n, j) of the output array after the region. -/
theorem arr0 (c : Dev nD) (n : Fin 100000) (j : Fin 128) :
    (Fr.dat0 V c).arrAt 3 cfg0.N (ix2 n j)
      = (∑ k : Fin 128, feat0 V c (ix2 n k) * wgt0 V c (ix2 k j)) * deg0 V c (ix2 n 0) := by
  rw [final0 V c]

end Cert.KernelIdeal.Val

end
-- ==== Proof.KI.Val1.lean ====
/-
  Region 1's output array, entry by entry.

  The region walks 20 grid points; at point t it reads rows 5000 t … 5000 t + 4999 of the aggregated messages z and of
  the column of degree factors d, the whole bias row b and the whole weight matrix W, and writes back rows
  5000 t … 5000 t + 4999 of the output. Entry (r, j) of the block it writes is
  (∑ k, max (zblk (r, k) * dblk r + b k) 0 * W (k, j)) * dblk r, and row r of a block at point t is row 5000 t + r of
  its array, so every point writes its block of ONE whole-array function

      G (n, j) = (∑ k, max (z (n, k) * d n + b k) 0 * W (k, j)) * d n.

  The 20 blocks tile the 100000 rows (row n lies in the block of point n / 5000), so the array ends holding G.
-/
import proofs.«405428_j28441273434160_2_alg».proof.Proof.KI.Reg1
import proofs.«405428_j28441273434160_2_alg».proof.Proof.KI.Pay
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-! ## The arrays the region reads, by their literal types -/

/-- The aggregated messages as the region finds them. -/
abbrev msg1 (c : Dev nD) : S100000x128.Idx → Elt Ideal .f32 := V c main_v29
/-- The column of degree factors. -/
abbrev deg1 (c : Dev nD) : S100000x1.Idx → Elt Ideal .f32 := V c main_v17
/-- The first layer's bias, as a row. -/
abbrev bias1 (c : Dev nD) : S1x128.Idx → Elt Ideal .f32 := V c main_v30
/-- The second layer's weights. -/
abbrev wgt1 (c : Dev nD) : S128x128.Idx → Elt Ideal .f32 := V c main_arg5

/-- The whole output as one function of the four arrays: each row scaled, biased and cut at zero, multiplied by the
    weights, and scaled by the row's factor again. -/
abbrev G1 (a0 : S100000x128.Idx → Elt Ideal .f32) (a1 : S100000x1.Idx → Elt Ideal .f32) (a2 : S1x128.Idx → Elt Ideal .f32)
    (a3 : S128x128.Idx → Elt Ideal .f32) : S100000x128.Idx → Elt Ideal .bf16 :=
  fun i => (∑ k : Fin 128, max (a0 (ix2 (i 0) k) * a1 (ix2 (i 0) 0) + a2 (ix2 0 k)) 0 * a3 (ix2 k (i 1))) * a1 (ix2 (i 0) 0)

/-! ## The block indices, decided over the grid -/

/-- Windows 0, 1 and 4 move down the rows with the point; windows 2 and 3 stay on the one block of their arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Each input block as entries of its array -/

/-- Row r of the messages' block at point t is row 5000 t + r of the messages. -/
theorem msg_blk_apply (c : Dev nD) (t : Fin cfg1.N) (y : S5000x128.Idx) (i : S100000x128.Idx)
    (h0 : (i 0).val = t.val * 5000 + (y 0).val) (h1 : (i 1).val = (y 1).val) :
    (Fr.iblk1 V c 0 t : Vec Ideal S5000x128 .f32) y = msg1 V c i := by
  obtain ⟨e0, e1, -⟩ := idx_facts1 t
  unfold Fr.iblk1
  rw [View.read_apply]
  show V c main_v29 _ = V c main_v29 _
  congr 1
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Row r of the factors' block at point t is row 5000 t + r of the factors. -/
theorem deg_blk_apply1 (c : Dev nD) (t : Fin cfg1.N) (y : S5000x1.Idx) (i : S100000x1.Idx)
    (h0 : (i 0).val = t.val * 5000 + (y 0).val) (h1 : (i 1).val = (y 1).val) :
    (Fr.iblk1 V c 1 t : Vec Ideal S5000x1 .f32) y = deg1 V c i := by
  obtain ⟨-, -, e0, e1, -⟩ := idx_facts1 t
  unfold Fr.iblk1
  rw [View.read_apply]
  show V c main_v17 _ = V c main_v17 _
  congr 1
  funext a
  apply Fin.ext
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The bias row's block at any point is the bias row. -/
theorem bias_blk_apply (c : Dev nD) (t : Fin cfg1.N) (y : S1x128.Idx) :
    (Fr.iblk1 V c 2 t : Vec Ideal S1x128 .f32) y = bias1 V c y := by
  obtain ⟨-, -, -, -, e0, e1, -⟩ := idx_facts1 t
  unfold Fr.iblk1
  rw [View.read_apply]
  show V c main_v30 _ = V c main_v30 _
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The weights' block at any point is the weights. -/
theorem wgt_blk_apply1 (c : Dev nD) (t : Fin cfg1.N) (y : S128x128.Idx) :
    (Fr.iblk1 V c 3 t : Vec Ideal S128x128 .f32) y = wgt1 V c y := by
  obtain ⟨-, -, -, -, -, -, e0, e1, -⟩ := idx_facts1 t
  unfold Fr.iblk1
  rw [View.read_apply]
  show V c main_arg5 _ = V c main_arg5 _
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Where entry y of the output's block at point t lies in the output. -/
theorem out_blk_emb1 (t : Fin cfg1.N) (y : S5000x128.Idx) :
    ((((cfg1.win 4).blk t).view.emb y) 0).val = t.val * 5000 + (y 0).val
      ∧ ((((cfg1.win 4).blk t).view.emb y) 1).val = (y 1).val := by
  obtain ⟨-, -, -, -, -, -, -, -, e0, e1⟩ := idx_facts1 t
  constructor
  · show win1_4.index t (0 : Fin 2) * 5000 + 1 * (y 0).val = _; omega
  · show win1_4.index t (1 : Fin 2) * 128 + 1 * (y 1).val = _; omega

/-! ## The payload at an entry, against the whole-array function -/

/-- If the four blocks agree with the arrays along the row and the column the entry uses, the payload at entry y is
    the whole-array function at i. -/
theorem pay1_at (x0 : Vec Ideal S5000x128 .f32) (x1 : Vec Ideal S5000x1 .f32) (x2 : Vec Ideal S1x128 .f32) (x3 : Vec Ideal S128x128 .f32)
    (a0 : S100000x128.Idx → Elt Ideal .f32) (a1 : S100000x1.Idx → Elt Ideal .f32) (a2 : S1x128.Idx → Elt Ideal .f32)
    (a3 : S128x128.Idx → Elt Ideal .f32) (y : S5000x128.Idx) (i : S100000x128.Idx)
    (h0 : ∀ k : Fin 128, x0 (ix2 (y 0) k) = a0 (ix2 (i 0) k))
    (h1 : x1 (ix2 (y 0) 0) = a1 (ix2 (i 0) 0))
    (h2 : ∀ k : Fin 128, x2 (ix2 0 k) = a2 (ix2 0 k))
    (h3 : ∀ k : Fin 128, x3 (ix2 k (y 1)) = a3 (ix2 k (i 1))) :
    k1_pay1 (F := Ideal) x0 x1 x2 x3 x1 y = G1 a0 a1 a2 a3 i := by
  obtain ⟨r, q, rfl⟩ : ∃ (r : Fin 5000) (q : Fin 128), y = ix2 r q := ⟨y 0, y 1, eq_ix2 y⟩
  have g0 : ∀ k : Fin 128, x0 (ix2 r k) = a0 (ix2 (i 0) k) := h0
  have g1 : x1 (ix2 r 0) = a1 (ix2 (i 0) 0) := h1
  have g3 : ∀ k : Fin 128, x3 (ix2 k q) = a3 (ix2 k (i 1)) := h3
  rw [Pay.k1_pay1_apply]
  show (∑ k : Fin 128, max (x0 (ix2 r k) * x1 (ix2 r 0) + x2 (ix2 0 k)) 0 * x3 (ix2 k q)) * x1 (ix2 r 0)
    = (∑ k : Fin 128, max (a0 (ix2 (i 0) k) * a1 (ix2 (i 0) 0) + a2 (ix2 0 k)) 0 * a3 (ix2 k (i 1))) * a1 (ix2 (i 0) 0)
  rw [g1]
  refine congrArg (· * a1 (ix2 (i 0) 0)) (Finset.sum_congr rfl fun k _ => ?_)
  rw [g0, h2, g3]

/-! ## What each point writes back -/

/-- Point t writes back block t of the whole-array function of the arrays as the region finds them. -/
theorem flushed1_eq (c : Dev nD) (t : Fin cfg1.N) :
    (Fr.dat1 V c).flushed 4 t
      = ((cfg1.win 4).blk t).view.read (Elt Ideal) (G1 (msg1 V c) (deg1 V c) (bias1 V c) (wgt1 V c)) := by
  show (cfg1.win 4).cut (grid1.coords t) ((Fr.dat1 V c).after 4 t) = _
  rw [Fr.after1_4]
  unfold Fr.out1_4
  rw [View.canon_unit_zero zero_off1]
  simp only [View.ld_unit_zero (S := S5000x128) zero_off1, View.ld_unit_zero (S := S5000x1) zero_off1,
    View.ld_unit_zero (S := S1x128) zero_off1, View.ld_unit_zero (S := S128x128) zero_off1]
  funext y
  obtain ⟨o0, o1⟩ := out_blk_emb1 t y
  show k1_pay1 (F := Ideal) (Fr.iblk1 V c 0 t) (Fr.iblk1 V c 1 t) (Fr.iblk1 V c 2 t) (Fr.iblk1 V c 3 t) (Fr.iblk1 V c 1 t) y
    = G1 (msg1 V c) (deg1 V c) (bias1 V c) (wgt1 V c) (((cfg1.win 4).blk t).view.emb y)
  refine pay1_at (Fr.iblk1 V c 0 t) (Fr.iblk1 V c 1 t) (Fr.iblk1 V c 2 t) (Fr.iblk1 V c 3 t)
    (msg1 V c) (deg1 V c) (bias1 V c) (wgt1 V c) y (((cfg1.win 4).blk t).view.emb y) (fun k => ?_) ?_ (fun k => ?_) (fun k => ?_)
  · exact msg_blk_apply V c t (ix2 (y 0) k) (ix2 ((((cfg1.win 4).blk t).view.emb y) 0) k) o0 rfl
  · exact deg_blk_apply1 V c t (ix2 (y 0) 0) (ix2 ((((cfg1.win 4).blk t).view.emb y) 0) 0) o0 rfl
  · exact bias_blk_apply V c t (ix2 0 k)
  · exact wgt_blk_apply1 V c t (ix2 k (y 1)) |>.trans (congrArg (wgt1 V c) (funext fun a => Fin.ext (by
      match a with
      | ⟨0, _⟩ => rfl
      | ⟨1, _⟩ => exact o1.symm)))

/-! ## The blocks tile the rows -/

/-- An entry of the output is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

/-- Row n lies in the block of point n / 5000, and every point writes back. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := by show _ < 20; omega
  obtain ⟨-, -, -, -, -, -, -, -, e0, e1⟩ := idx_facts1 ⟨(i 0).val / 5000, hN⟩
  refine ⟨⟨(i 0).val / 5000, hN⟩, flush1_4 _, ?_⟩
  rw [mem_blk1]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val ∧ (i 1).val < win1_4.index ⟨(i 0).val / 5000, hN⟩ (1 : Fin 2) * 128 + 128
    rw [e1]; omega

/-! ## The array after the region -/

/-- The output array after the last point is the whole-array function of the arrays as the region finds them. -/
theorem final1 (c : Dev nD) : (Fr.dat1 V c).arrAt 4 cfg1.N = G1 (msg1 V c) (deg1 V c) (bias1 V c) (wgt1 V c) :=
  (Fr.dat1 V c).arrAt_eq_of_cover 4 (G1 (msg1 V c) (deg1 V c) (bias1 V c) (wgt1 V c)) (fun t _ => flushed1_eq V c t) cover1

/-- Entry (n, j) of the output array after the region. -/
theorem arr1 (c : Dev nD) (n : Fin 100000) (j : Fin 128) :
    (Fr.dat1 V c).arrAt 4 cfg1.N (ix2 n j)
      = (∑ k : Fin 128, max (msg1 V c (ix2 n k) * deg1 V c (ix2 n 0) + bias1 V c (ix2 0 k)) 0 * wgt1 V c (ix2 k j)) * deg1 V c (ix2 n 0) := by
  rw [final1 V c]

end Cert.KernelIdeal.Val

end
-- ==== Proof.KI.Reg2Val.lean ====
/-
  Region 2 of the program (pooling over graphs and the linear head), the value side. Each control case's stored pieces
  read back are the body's payloads of the buffers' contents: an accumulator stored once, whole, holds that store's
  payload; reset and then updated, the update's payload over the reset value read back. From these, by the recursion
  on the grid point, what the accumulators and the output block hold after each point in closed form over the payloads:
  the update of zeros at the first point, the update of the previous contents afterwards, and at the last point the
  head applied to the accumulators.
-/
import proofs.«405428_j28441273434160_2_alg».proof.Proof.KI.Reg2
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case's stored pieces read back as -/

theorem hz2 : (![0, 0] : Fin 2 → Nat) = fun _ => 0 := funext fun a => by fin_cases a <;> rfl

theorem sout2_A_0_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) :
    sout2_A_0 c i arg1 harg1 arg2 harg2 arg3 harg3 arg4 harg4 arg5 harg5 arg6 harg6 arg7 harg7 arg8 harg8 arg9 harg9 hc0 hc1 x0 x1 x2 x3 x4 x5 = k2_pay6 x0 x1 x2 x3 (k2_pay3 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 hc0 hc1 x0 x1 x2 x3 x4 x5)]
  unfold kernelRun2_A
  dsimp only
  sl_unfold_words
  rw [View.canon_cons_unit_zero (S := S512x128) hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S1x128) hz2, View.ld_unit_zero (S := S128x1) hz2, View.ld_unit_zero (S := S1x1) hz2, View.ld_unit_zero (S := S512x128) hz2, View.ld_unit_zero (S := S512x1) hz2, View.readCov_unit_zero (S := S512x128) _ hz2, View.readCov_unit_zero (S := S512x1) _ hz2]

theorem sout2_A_1_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) :
    sout2_A_1 c i arg1 harg1 arg2 harg2 arg3 harg3 arg4 harg4 arg5 harg5 arg6 harg6 arg7 harg7 arg8 harg8 arg9 harg9 hc0 hc1 x0 x1 x2 x3 x4 x5 = k2_pay1 (k2_pay7 x3 (k2_pay4 (F := F))) := by
  unfold sout2_A_1
  rw [View.read_writes_eq_canon _ _ _ (scover2_A_1 c i arg1 harg1 arg2 harg2 arg3 harg3 arg4 harg4 arg5 harg5 arg6 harg6 arg7 harg7 arg8 harg8 arg9 harg9 hc0 hc1 x0 x1 x2 x3 x4 x5)]
  unfold kernelRun2_A
  dsimp only
  sl_unfold_words
  rw [View.canon_cons_unit_zero (S := S512x1) hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S1x128) hz2, View.ld_unit_zero (S := S128x1) hz2, View.ld_unit_zero (S := S1x1) hz2, View.ld_unit_zero (S := S512x128) hz2, View.ld_unit_zero (S := S512x1) hz2, View.readCov_unit_zero (S := S512x128) _ hz2, View.readCov_unit_zero (S := S512x1) _ hz2]

theorem sout2_B_0_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) :
    sout2_B_0 c i arg1 harg1 arg2 harg2 arg3 harg3 arg4 harg4 arg5 harg5 arg6 harg6 arg7 harg7 arg8 harg8 arg9 harg9 hc0 hc1 x0 x1 x2 x3 x4 x5 xs0 xs1 = k2_pay6 x0 x1 x2 x3 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 hc0 hc1 x0 x1 x2 x3 x4 x5 xs0 xs1)]
  unfold kernelRun2_B
  dsimp only
  sl_unfold_words
  rw [View.canon_unit_zero (S := S512x128) hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S1x128) hz2, View.ld_unit_zero (S := S128x1) hz2, View.ld_unit_zero (S := S1x1) hz2, View.ld_unit_zero (S := S512x128) hz2, View.ld_unit_zero (S := S512x1) hz2, View.readCov_unit_zero (S := S512x128) _ hz2, View.readCov_unit_zero (S := S512x1) _ hz2]

theorem sout2_B_1_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : ¬cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) :
    sout2_B_1 c i arg1 harg1 arg2 harg2 arg3 harg3 arg4 harg4 arg5 harg5 arg6 harg6 arg7 harg7 arg8 harg8 arg9 harg9 hc0 hc1 x0 x1 x2 x3 x4 x5 xs0 xs1 = k2_pay1 (k2_pay7 x3 xs1) := by
  unfold sout2_B_1
  rw [View.read_writes_eq_canon _ _ _ (scover2_B_1 c i arg1 harg1 arg2 harg2 arg3 harg3 arg4 harg4 arg5 harg5 arg6 harg6 arg7 harg7 arg8 harg8 arg9 harg9 hc0 hc1 x0 x1 x2 x3 x4 x5 xs0 xs1)]
  unfold kernelRun2_B
  dsimp only
  sl_unfold_words
  rw [View.canon_unit_zero (S := S512x1) hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S1x128) hz2, View.ld_unit_zero (S := S128x1) hz2, View.ld_unit_zero (S := S1x1) hz2, View.ld_unit_zero (S := S512x128) hz2, View.ld_unit_zero (S := S512x1) hz2, View.readCov_unit_zero (S := S512x128) _ hz2, View.readCov_unit_zero (S := S512x1) _ hz2]

theorem sout2_C_0_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) :
    sout2_C_0 c i arg1 harg1 arg2 harg2 arg3 harg3 arg4 harg4 arg5 harg5 arg6 harg6 arg7 harg7 arg8 harg8 arg9 harg9 hc0 hc1 x0 x1 x2 x3 x4 x5 xs0 xs1 = k2_pay6 x0 x1 x2 x3 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 hc0 hc1 x0 x1 x2 x3 x4 x5 xs0 xs1)]
  unfold kernelRun2_C
  dsimp only
  sl_unfold_words
  rw [View.canon_unit_zero (S := S512x128) hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S1x128) hz2, View.ld_unit_zero (S := S128x1) hz2, View.ld_unit_zero (S := S1x1) hz2, View.ld_unit_zero (S := S512x128) hz2, View.ld_unit_zero (S := S512x1) hz2, View.readCov_unit_zero (S := S512x128) _ hz2, View.readCov_unit_zero (S := S512x1) _ hz2]

theorem sout2_C_1_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) :
    sout2_C_1 c i arg1 harg1 arg2 harg2 arg3 harg3 arg4 harg4 arg5 harg5 arg6 harg6 arg7 harg7 arg8 harg8 arg9 harg9 hc0 hc1 x0 x1 x2 x3 x4 x5 xs0 xs1 = k2_pay1 (k2_pay7 x3 xs1) := by
  unfold sout2_C_1
  rw [View.read_writes_eq_canon _ _ _ (scover2_C_1 c i arg1 harg1 arg2 harg2 arg3 harg3 arg4 harg4 arg5 harg5 arg6 harg6 arg7 harg7 arg8 harg8 arg9 harg9 hc0 hc1 x0 x1 x2 x3 x4 x5 xs0 xs1)]
  unfold kernelRun2_C
  dsimp only
  sl_unfold_words
  rw [View.canon_unit_zero (S := S512x1) hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S1x128) hz2, View.ld_unit_zero (S := S128x1) hz2, View.ld_unit_zero (S := S1x1) hz2, View.ld_unit_zero (S := S512x128) hz2, View.ld_unit_zero (S := S512x1) hz2, View.readCov_unit_zero (S := S512x128) _ hz2, View.readCov_unit_zero (S := S512x1) _ hz2]

theorem out2_C_6_eq (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S128x1 .f32) (harg5 : arg5.IsWhole) (arg6 : Memref sig .tc .vmem S1x1 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond2_0 i) (hc1 : cond2_1 i)
    (x0 : Vec F S5000x128 .f32) (x1 : Vec F S5000x1 .f32) (x2 : Vec F S1x128 .f32) (x3 : Vec F S5000x1 .i32) (x4 : Vec F S128x1 .f32) (x5 : Vec F S1x1 .f32) (xs0 : Vec F S512x128 .f32) (xs1 : Vec F S512x1 .f32) :
    out2_C_6 c i arg1 harg1 arg2 harg2 arg3 harg3 arg4 harg4 arg5 harg5 arg6 harg6 arg7 harg7 arg8 harg8 arg9 harg9 hc0 hc1 x0 x1 x2 x3 x4 x5 xs0 xs1 = k2_pay2 (k2_pay6 x0 x1 x2 x3 xs0) (k2_pay1 (k2_pay7 x3 xs1)) x4 x5 := by
  unfold out2_C_6
  rw [View.read_writes_eq_canon _ _ _ (cover2_C_6 c i arg1 harg1 arg2 harg2 arg3 harg3 arg4 harg4 arg5 harg5 arg6 harg6 arg7 harg7 arg8 harg8 arg9 harg9 hc0 hc1 x0 x1 x2 x3 x4 x5 xs0 xs1)]
  unfold kernelRun2_C
  dsimp only
  sl_unfold_words
  rw [View.canon_unit_zero (S := S512x1) hz2]
  simp only [View.readAt_eq_ld, harg1.read_unread, harg2.read_unread, harg3.read_unread, harg4.read_unread, harg5.read_unread, harg6.read_unread, harg7.read_unread, harg8.read_unread, harg9.read_unread, View.ld_unit_zero (S := S5000x128) hz2, View.ld_unit_zero (S := S5000x1) hz2, View.ld_unit_zero (S := S1x128) hz2, View.ld_unit_zero (S := S128x1) hz2, View.ld_unit_zero (S := S1x1) hz2, View.ld_unit_zero (S := S512x128) hz2, View.ld_unit_zero (S := S512x1) hz2, View.readCov_unit_zero (S := S512x128) _ hz2, View.readCov_unit_zero (S := S512x1) _ hz2]

/-! ## The per-point contents in closed form -/

/-- After the first point the accumulators hold the point's update of zero sums and zero counts. -/
theorem outsAt2_zero (c : Dev nD) (h0 : 0 < cfg2.N) :
    (outsAt2 V c 0 h0).2 = (k2_pay6 (iblk2 V c 0 ⟨0, h0⟩) (iblk2 V c 1 ⟨0, h0⟩) (iblk2 V c 2 ⟨0, h0⟩) (iblk2 V c 3 ⟨0, h0⟩) (k2_pay3 (F := F)),
      k2_pay1 (k2_pay7 (iblk2 V c 3 ⟨0, h0⟩) (k2_pay4 (F := F)))) := by
  have e : outsAt2 V c 0 h0 = (outIdle2,
      sout2_A_0 c (grid2.coords ⟨0, h0⟩) (ms2_0 ⟨0, h0⟩) (hs2_0 ⟨0, h0⟩) (ms2_1 ⟨0, h0⟩) (hs2_1 ⟨0, h0⟩) (ms2_2 ⟨0, h0⟩) (hs2_2 ⟨0, h0⟩) (ms2_3 ⟨0, h0⟩) (hs2_3 ⟨0, h0⟩) (ms2_4 ⟨0, h0⟩) (hs2_4 ⟨0, h0⟩) (ms2_5 ⟨0, h0⟩) (hs2_5 ⟨0, h0⟩) (ms2_6 ⟨0, h0⟩) (hs2_6 ⟨0, h0⟩) scM2_0 (Memref.isWhole_whole cc2_scratch0) scM2_1 (Memref.isWhole_whole cc2_scratch1) (cond2_0_zero h0) (ncond2_1_zero h0) (iblk2 V c 0 ⟨0, h0⟩) (iblk2 V c 1 ⟨0, h0⟩) (iblk2 V c 2 ⟨0, h0⟩) (iblk2 V c 3 ⟨0, h0⟩) (iblk2 V c 4 ⟨0, h0⟩) (iblk2 V c 5 ⟨0, h0⟩),
      sout2_A_1 c (grid2.coords ⟨0, h0⟩) (ms2_0 ⟨0, h0⟩) (hs2_0 ⟨0, h0⟩) (ms2_1 ⟨0, h0⟩) (hs2_1 ⟨0, h0⟩) (ms2_2 ⟨0, h0⟩) (hs2_2 ⟨0, h0⟩) (ms2_3 ⟨0, h0⟩) (hs2_3 ⟨0, h0⟩) (ms2_4 ⟨0, h0⟩) (hs2_4 ⟨0, h0⟩) (ms2_5 ⟨0, h0⟩) (hs2_5 ⟨0, h0⟩) (ms2_6 ⟨0, h0⟩) (hs2_6 ⟨0, h0⟩) scM2_0 (Memref.isWhole_whole cc2_scratch0) scM2_1 (Memref.isWhole_whole cc2_scratch1) (cond2_0_zero h0) (ncond2_1_zero h0) (iblk2 V c 0 ⟨0, h0⟩) (iblk2 V c 1 ⟨0, h0⟩) (iblk2 V c 2 ⟨0, h0⟩) (iblk2 V c 3 ⟨0, h0⟩) (iblk2 V c 4 ⟨0, h0⟩) (iblk2 V c 5 ⟨0, h0⟩)) := rfl
  rw [e]; dsimp only
  rw [sout2_A_0_eq (F := F) c (grid2.coords ⟨0, h0⟩) (ms2_0 ⟨0, h0⟩) (hs2_0 ⟨0, h0⟩) (ms2_1 ⟨0, h0⟩) (hs2_1 ⟨0, h0⟩) (ms2_2 ⟨0, h0⟩) (hs2_2 ⟨0, h0⟩) (ms2_3 ⟨0, h0⟩) (hs2_3 ⟨0, h0⟩) (ms2_4 ⟨0, h0⟩) (hs2_4 ⟨0, h0⟩) (ms2_5 ⟨0, h0⟩) (hs2_5 ⟨0, h0⟩) (ms2_6 ⟨0, h0⟩) (hs2_6 ⟨0, h0⟩) scM2_0 (Memref.isWhole_whole cc2_scratch0) scM2_1 (Memref.isWhole_whole cc2_scratch1) (cond2_0_zero h0) (ncond2_1_zero h0) (iblk2 V c 0 ⟨0, h0⟩) (iblk2 V c 1 ⟨0, h0⟩) (iblk2 V c 2 ⟨0, h0⟩) (iblk2 V c 3 ⟨0, h0⟩) (iblk2 V c 4 ⟨0, h0⟩) (iblk2 V c 5 ⟨0, h0⟩),
    sout2_A_1_eq (F := F) c (grid2.coords ⟨0, h0⟩) (ms2_0 ⟨0, h0⟩) (hs2_0 ⟨0, h0⟩) (ms2_1 ⟨0, h0⟩) (hs2_1 ⟨0, h0⟩) (ms2_2 ⟨0, h0⟩) (hs2_2 ⟨0, h0⟩) (ms2_3 ⟨0, h0⟩) (hs2_3 ⟨0, h0⟩) (ms2_4 ⟨0, h0⟩) (hs2_4 ⟨0, h0⟩) (ms2_5 ⟨0, h0⟩) (hs2_5 ⟨0, h0⟩) (ms2_6 ⟨0, h0⟩) (hs2_6 ⟨0, h0⟩) scM2_0 (Memref.isWhole_whole cc2_scratch0) scM2_1 (Memref.isWhole_whole cc2_scratch1) (cond2_0_zero h0) (ncond2_1_zero h0) (iblk2 V c 0 ⟨0, h0⟩) (iblk2 V c 1 ⟨0, h0⟩) (iblk2 V c 2 ⟨0, h0⟩) (iblk2 V c 3 ⟨0, h0⟩) (iblk2 V c 4 ⟨0, h0⟩) (iblk2 V c 5 ⟨0, h0⟩)]

/-- After any later point the accumulators hold the point's update of what the point before left. -/
theorem outsAt2_succ (c : Dev nD) (n : ℕ) (hn : n + 1 < cfg2.N) :
    (outsAt2 V c (n + 1) hn).2 = (k2_pay6 (iblk2 V c 0 ⟨n + 1, hn⟩) (iblk2 V c 1 ⟨n + 1, hn⟩) (iblk2 V c 2 ⟨n + 1, hn⟩) (iblk2 V c 3 ⟨n + 1, hn⟩) (outsAt2 V c n (Nat.lt_of_succ_lt hn)).2.1,
      k2_pay1 (k2_pay7 (iblk2 V c 3 ⟨n + 1, hn⟩) (outsAt2 V c n (Nat.lt_of_succ_lt hn)).2.2)) := by
  by_cases h1 : (n + 1) % 20 = 19
  · have e : outsAt2 V c (n + 1) hn = (
        out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
        sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2) :=
      (dif_pos h1).trans rfl
    rw [e]; dsimp only
    rw [sout2_C_0_eq (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
      sout2_C_1_eq (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2]
  · have e : outsAt2 V c (n + 1) hn = (outIdle2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
        sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2) :=
      (dif_neg h1).trans rfl
    rw [e]; dsimp only
    rw [sout2_B_0_eq (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
      sout2_B_1_eq (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2]

/-- At a point where the second condition holds the output block is left holding the head applied to the accumulators
    as that point leaves them. -/
theorem outsAt2_succ_out (c : Dev nD) (n : ℕ) (hn : n + 1 < cfg2.N) (h1 : (n + 1) % 20 = 19) :
    (outsAt2 V c (n + 1) hn).1 = k2_pay2 (outsAt2 V c (n + 1) hn).2.1 (outsAt2 V c (n + 1) hn).2.2 (iblk2 V c 4 ⟨n + 1, hn⟩) (iblk2 V c 5 ⟨n + 1, hn⟩) := by
  have e : outsAt2 V c (n + 1) hn = (
      out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
      sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2) :=
    (dif_pos h1).trans rfl
  rw [e]; dsimp only
  rw [out2_C_6_eq (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
    sout2_C_0_eq (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2,
    sout2_C_1_eq (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole cc2_scratch0) scM2_1 (Memref.isWhole_whole cc2_scratch1) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c n (Nat.lt_of_succ_lt hn)).2.1 (outsAt2 V c n (Nat.lt_of_succ_lt hn)).2.2]

/-- After the last point the output block holds the head applied to the accumulators as that point leaves them. -/
theorem outsAt2_last (c : Dev nD) (h : 19 < cfg2.N) :
    (outsAt2 V c 19 h).1 = k2_pay2 (outsAt2 V c 19 h).2.1 (outsAt2 V c 19 h).2.2 (iblk2 V c 4 ⟨19, h⟩) (iblk2 V c 5 ⟨19, h⟩) :=
  outsAt2_succ_out V c 18 h (by decide)

end Cert.KernelIdeal.Fr

end
-- ==== Proof.Model.lean ====
/-
  The network both programs compute, as functions of the node features `x`, the weights and biases, the edges' source rows,
  target rows and raw target ids, the nodes' graph ids and the degree factors `dis`, over the extended reals:

      layer(h)[n, j] = relu( ∑_{e : target id of e is n}  (h·W)[src e, j] · (dis[src e] · dis[dst e])  +  b[j] )
      y[g]           = ∑_k ( ∑_{n : graph id of n is g} h₂[n, k]  /  max(#{n : graph id of n is g}, 1) ) · Wp[k]  +  bp

  `ref` is that arrangement (the reference's). `ker` is the kernel's: each dense stage scales its rows by `dis` on the way
  out, the segment sum adds the gathered pre-scaled rows, the next stage scales by the target's `dis` on the way in; the
  pooled sums and counts are accumulated tile after tile (20 tiles of 5000 nodes) as one-hot products. `ker_eq_ref`: the
  two agree, because every `dis[n]` is a nonnegative real (a nonnegative real distributes over any sum of extended reals,
  and products of extended reals commute and associate) and a one-hot weighted sum over all nodes is the sum over the
  graph's nodes.
-/
import proofs.«405428_j28441273434160_2_alg».proof.Proof.Spec

noncomputable section

open scoped BigOperators

namespace Cert.Model

open Idealize.ShloMosaic Cert.Spec

abbrev NN : Nat := 100000
abbrev NE : Nat := 1700000
abbrev ND : Nat := 128
abbrev NG : Nat := 512

/-- A dense product `a · w`. -/
def mm {A : Nat} (a : Fin A → Fin ND → EReal) (w : Fin ND → Fin ND → EReal) (n : Fin A) (j : Fin ND) : EReal :=
  ∑ k : Fin ND, a n k * w k j

section
variable (W1 : Fin ND → Fin ND → EReal) (b1 : Fin ND → EReal) (W2 : Fin ND → Fin ND → EReal) (b2 : Fin ND → EReal)
  (Wp : Fin ND → EReal) (bp : EReal)
  (srcRow dstRow : Fin NE → Fin NN) (dst : Fin NE → BitVec 32) (batch : Fin NN → BitVec 32) (dis : Fin NN → EReal)

/-- The edges whose target id, read signed, is node `n`. -/
def into (n : Fin NN) : Finset (Fin NE) := Finset.univ.filter fun e => (dst e).toInt = (n.val : ℤ)
/-- The nodes whose graph id, read signed, is graph `g`. -/
def ofGraph (g : Fin NG) : Finset (Fin NN) := Finset.univ.filter fun n => (batch n).toInt = (g.val : ℤ)

/-! ### The reference's arrangement -/

/-- One convolution: normalised messages summed per target, plus bias, clamped at zero. -/
def refLayer (h : Fin NN → Fin ND → EReal) (w : Fin ND → Fin ND → EReal) (b : Fin ND → EReal) (n : Fin NN) (j : Fin ND) : EReal :=
  max (((0 : EReal) + ∑ e ∈ into dst n, mm h w (srcRow e) j * (dis (srcRow e) * dis (dstRow e))) + b j) 0

/-- Mean pooling per graph and the linear head, of node features `h`. -/
def head (h : Fin NN → Fin ND → EReal) (g : Fin NG) : EReal :=
  (∑ k : Fin ND, Ideal.div ((0 : EReal) + ∑ n ∈ ofGraph batch g, h n k) (max ((0 : EReal) + ∑ _n ∈ ofGraph batch g, (1 : EReal)) 1) * Wp k) + bp

def ref (x : Fin NN → Fin ND → EReal) (g : Fin NG) : EReal :=
  head Wp bp batch (refLayer srcRow dstRow dst dis (refLayer srcRow dstRow dst dis x W1 b1) W2 b2) g

/-! ### The kernel's arrangement -/

/-- A dense stage's output table: the product with each row scaled by its factor. -/
def kerTable (h : Fin NN → Fin ND → EReal) (w : Fin ND → Fin ND → EReal) (n : Fin NN) (j : Fin ND) : EReal :=
  mm h w n j * dis n
/-- The segment sum of the gathered table rows. -/
def kerAgg (tbl : Fin NN → Fin ND → EReal) (n : Fin NN) (j : Fin ND) : EReal :=
  (0 : EReal) + ∑ e ∈ into dst n, tbl (srcRow e) j
/-- The next stage's prologue: scale by the target's factor, add the bias, clamp at zero. -/
def kerPost (agg : Fin NN → Fin ND → EReal) (b : Fin ND → EReal) (n : Fin NN) (j : Fin ND) : EReal :=
  max (agg n j * dis n + b j) 0

/-- The pooled sums after `k` tiles of 5000 nodes: zero, then tile after tile the one-hot product added. -/
def kerSums (h : Fin NN → Fin ND → EReal) (g : Fin NG) (j : Fin ND) : (k : Nat) → k ≤ 20 → EReal
  | 0, _ => 0
  | k + 1, hk => kerSums h g j k (Nat.le_of_succ_le hk)
      + ∑ r : Fin 5000, onehot (batch (tileRow (T := 20) (B := 5000) ⟨k, hk⟩ r)) g.val * h (tileRow (T := 20) (B := 5000) ⟨k, hk⟩ r) j
/-- The pooled counts after `k` tiles. -/
def kerCnts (g : Fin NG) : (k : Nat) → k ≤ 20 → EReal
  | 0, _ => 0
  | k + 1, hk => kerCnts g k (Nat.le_of_succ_le hk)
      + ∑ r : Fin 5000, onehot (batch (tileRow (T := 20) (B := 5000) ⟨k, hk⟩ r)) g.val * 1

def kerHead (h : Fin NN → Fin ND → EReal) (g : Fin NG) : EReal :=
  (∑ k : Fin ND, Ideal.div (kerSums batch h g k 20 le_rfl) (max (kerCnts batch g 20 le_rfl) 1) * Wp k) + bp

def ker (x : Fin NN → Fin ND → EReal) (g : Fin NG) : EReal :=
  kerHead Wp bp batch
    (kerPost dis (kerAgg srcRow dst (kerTable dis (kerPost dis (kerAgg srcRow dst (kerTable dis x W1)) b1) W2)) b2) g

/-! ### The two agree -/

/-- One layer: the kernel's table, segment sum and prologue are the reference's convolution. -/
theorem kerLayer_eq (hdis : ∀ n, 0 ≤ dis n ∧ dis n ≠ ⊤)
    (hrow : ∀ (e : Fin NE) (n : Fin NN), (dst e).toInt = (n.val : ℤ) → dstRow e = n)
    (h : Fin NN → Fin ND → EReal) (w : Fin ND → Fin ND → EReal) (b : Fin ND → EReal) (n : Fin NN) (j : Fin ND) :
    kerPost dis (kerAgg srcRow dst (kerTable dis h w)) b n j = refLayer srcRow dstRow dst dis h w b n j := by
  unfold kerPost kerAgg kerTable refLayer into
  exact congrArg (fun z => max (z + b j) 0)
    (Spec.layer_law (fun r => mm h w r j) dis hdis srcRow dstRow dst hrow n).symm

/-- The pooled sums after `k` tiles are the tile-by-tile accumulation of the one-hot weighted rows. -/
theorem kerSums_eq (h : Fin NN → Fin ND → EReal) (g : Fin NG) (j : Fin ND) (k : Nat) (hk : k ≤ 20) :
    kerSums batch h g j k hk
      = Spec.accTiles (T := 20) (B := 5000) (fun n => onehot (batch n) g.val * h n j) k hk := by
  induction k with
  | zero => rfl
  | succ k ih =>
    rw [kerSums, Spec.accTiles, ih (Nat.le_of_succ_le hk)]

/-- The pooled counts after `k` tiles, likewise. -/
theorem kerCnts_eq (g : Fin NG) (k : Nat) (hk : k ≤ 20) :
    kerCnts batch g k hk
      = Spec.accTiles (T := 20) (B := 5000) (fun n => onehot (batch n) g.val * (1 : EReal)) k hk := by
  induction k with
  | zero => rfl
  | succ k ih =>
    rw [kerCnts, Spec.accTiles, ih (Nat.le_of_succ_le hk)]

/-- After all 20 tiles the pooled sums are the sum over the graph's nodes. -/
theorem kerSums_all (h : Fin NN → Fin ND → EReal) (g : Fin NG) (j : Fin ND) :
    kerSums batch h g j 20 le_rfl = (0 : EReal) + ∑ n ∈ ofGraph batch g, h n j := by
  have hg : g.val < 2 ^ 31 := lt_of_lt_of_le g.isLt (by norm_num)
  rw [kerSums_eq, zero_add]
  exact (Spec.accTiles_all (T := 20) (B := 5000) _).trans
    (Spec.sum_onehot (N := NN) batch (fun n => h n j) g.val hg)

/-- After all 20 tiles the pooled counts are the number of the graph's nodes. -/
theorem kerCnts_all (g : Fin NG) :
    kerCnts batch g 20 le_rfl = (0 : EReal) + ∑ _n ∈ ofGraph batch g, (1 : EReal) := by
  have hg : g.val < 2 ^ 31 := lt_of_lt_of_le g.isLt (by norm_num)
  rw [kerCnts_eq, zero_add]
  exact (Spec.accTiles_all (T := 20) (B := 5000) _).trans
    (Spec.sum_onehot (N := NN) batch (fun _ => (1 : EReal)) g.val hg)

/-- The head: the tile-by-tile one-hot accumulation is the per-graph sum. -/
theorem kerHead_eq (h : Fin NN → Fin ND → EReal) (g : Fin NG) : kerHead Wp bp batch h g = head Wp bp batch h g := by
  unfold kerHead head
  simp only [kerSums_all, kerCnts_all]

theorem ker_eq_ref (hdis : ∀ n, 0 ≤ dis n ∧ dis n ≠ ⊤)
    (hrow : ∀ (e : Fin NE) (n : Fin NN), (dst e).toInt = (n.val : ℤ) → dstRow e = n)
    (x : Fin NN → Fin ND → EReal) (g : Fin NG) :
    ker W1 b1 W2 b2 Wp bp srcRow dst batch dis x g = ref W1 b1 W2 b2 Wp bp srcRow dstRow dst batch dis x g := by
  unfold ker ref
  rw [kerHead_eq]
  have l1 : kerPost dis (kerAgg srcRow dst (kerTable dis x W1)) b1 = refLayer srcRow dstRow dst dis x W1 b1 := by
    funext n j
    exact kerLayer_eq srcRow dstRow dst dis hdis hrow x W1 b1 n j
  rw [l1]
  have l2 : kerPost dis (kerAgg srcRow dst (kerTable dis (refLayer srcRow dstRow dst dis x W1 b1) W2)) b2
      = refLayer srcRow dstRow dst dis (refLayer srcRow dstRow dst dis x W1 b1) W2 b2 := by
    funext n j
    exact kerLayer_eq srcRow dstRow dst dis hdis hrow _ W2 b2 n j
  rw [l2]

end

end Cert.Model

end
-- ==== Proof.KI.Val2.lean ====
/-
  Region 2's output array, entry by entry.

  The region walks 20 grid points and keeps two accumulators between them: the pooled sums [512,128] and the pooled
  counts [512,1]. At point t it reads rows 5000 t … 5000 t + 4999 of the aggregated messages z, of the degree factors d
  and of the graph ids, and the whole bias row b; with a (n, k) = max (z (n, k) * d n + b k) 0 it adds to the sums, for
  every graph g and column k, ∑ r, onehot (id (5000 t + r)) g * a (5000 t + r, k), and to the counts
  ∑ r, onehot (id (5000 t + r)) g * 1; the first point starts both from zero. So after point n the accumulators hold the
  tile-by-tile accumulations over the first n + 1 tiles (by induction on the point). The last point stores into the
  one output block, for every graph g, (∑ k, sums (g, k) / max (counts g) 1 * w k) + bias of the head, and that block is
  the whole output array, written back once, after the last point.
-/
import proofs.«405428_j28441273434160_2_alg».proof.Proof.KI.Reg2Val
import proofs.«405428_j28441273434160_2_alg».proof.Proof.KI.Pay
import proofs.«405428_j28441273434160_2_alg».proof.Proof.Model
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (onehot tileRow)

variable (V : (c : Dev nD) → (b : Ref sig .tc) → Buf (Elt Ideal) ((c : Thread nD τ).loc b))

/-! ## The arrays the region reads, and the blocks of a point, by their literal types -/

/-- The aggregated messages of the second layer as the region finds them. -/
abbrev agg2 (c : Dev nD) : S100000x128.Idx → Elt Ideal .f32 := V c main_v42
/-- The column of degree factors. -/
abbrev deg2 (c : Dev nD) : S100000x1.Idx → Elt Ideal .f32 := V c main_v17
/-- The second layer's bias, as a row. -/
abbrev bias2 (c : Dev nD) : S1x128.Idx → Elt Ideal .f32 := V c main_v45
/-- The column of graph ids. -/
abbrev gid2 (c : Dev nD) : S100000x1.Idx → Elt Ideal .i32 := V c main_v43
/-- The head's weights, as a column. -/
abbrev hw2 (c : Dev nD) : S128x1.Idx → Elt Ideal .f32 := V c main_arg7
/-- The head's bias. -/
abbrev hb2 (c : Dev nD) : S1x1.Idx → Elt Ideal .f32 := V c main_v44

/-- The second layer's activation: each row of the messages scaled by its factor, the bias added, cut at zero. -/
abbrev act2 (c : Dev nD) : Fin 100000 → Fin 128 → EReal :=
  fun n j => max (agg2 V c (ix2 n j) * deg2 V c (ix2 n 0) + bias2 V c (ix2 0 j)) 0
/-- Row n's graph id. -/
abbrev gidOf (c : Dev nD) : Fin 100000 → BitVec 32 := fun n => gid2 V c (ix2 n 0)

abbrev aggB (c : Dev nD) (t : Fin cfg2.N) : Vec Ideal S5000x128 .f32 := Fr.iblk2 V c 0 t
abbrev degB (c : Dev nD) (t : Fin cfg2.N) : Vec Ideal S5000x1 .f32 := Fr.iblk2 V c 1 t
abbrev biasB (c : Dev nD) (t : Fin cfg2.N) : Vec Ideal S1x128 .f32 := Fr.iblk2 V c 2 t
abbrev gidB (c : Dev nD) (t : Fin cfg2.N) : Vec Ideal S5000x1 .i32 := Fr.iblk2 V c 3 t
abbrev hwB (c : Dev nD) (t : Fin cfg2.N) : Vec Ideal S128x1 .f32 := Fr.iblk2 V c 4 t
abbrev hbB (c : Dev nD) (t : Fin cfg2.N) : Vec Ideal S1x1 .f32 := Fr.iblk2 V c 5 t

/-! ## The block indices, decided over the grid -/

/-- Windows 0, 1 and 3 move down the rows with the point; the others stay on the one block of their arrays. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-! ## Each input block as entries of its array -/

/-- Row r of the messages' block at point t is row 5000 t + r of the messages. -/
theorem agg_blk_apply (c : Dev nD) (t : Fin cfg2.N) (y : S5000x128.Idx) (i : S100000x128.Idx)
    (h0 : (i 0).val = t.val * 5000 + (y 0).val) (h1 : (i 1).val = (y 1).val) :
    aggB V c t y = agg2 V c i := by
  obtain ⟨e0, e1, -⟩ := idx_facts2 t
  unfold aggB Fr.iblk2
  rw [View.read_apply]
  show V c main_v42 _ = V c main_v42 _
  congr 1
  funext a
  apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- Row r of the factors' block at point t is row 5000 t + r of the factors. -/
theorem deg_blk_apply2 (c : Dev nD) (t : Fin cfg2.N) (y : S5000x1.Idx) (i : S100000x1.Idx)
    (h0 : (i 0).val = t.val * 5000 + (y 0).val) (h1 : (i 1).val = (y 1).val) :
    degB V c t y = deg2 V c i := by
  obtain ⟨-, -, e0, e1, -⟩ := idx_facts2 t
  unfold degB Fr.iblk2
  rw [View.read_apply]
  show V c main_v17 _ = V c main_v17 _
  congr 1
  funext a
  apply Fin.ext
  match a with
  | ⟨0, _⟩ => show win2_1.index t (0 : Fin 2) * 5000 + 1 * (y 0).val = (i 0).val; omega
  | ⟨1, _⟩ => show win2_1.index t (1 : Fin 2) * 1 + 1 * (y 1).val = (i 1).val; omega

/-- The bias row's block at any point is the bias row. -/
theorem bias_blk_apply2 (c : Dev nD) (t : Fin cfg2.N) (y : S1x128.Idx) :
    biasB V c t y = bias2 V c y := by
  obtain ⟨-, -, -, -, e0, e1, -⟩ := idx_facts2 t
  unfold biasB Fr.iblk2
  rw [View.read_apply]
  show V c main_v45 _ = V c main_v45 _
  congr 1
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Row r of the ids' block at point t is row 5000 t + r of the ids. -/
theorem gid_blk_apply (c : Dev nD) (t : Fin cfg2.N) (y : S5000x1.Idx) (i : S100000x1.Idx)
    (h0 : (i 0).val = t.val * 5000 + (y 0).val) (h1 : (i 1).val = (y 1).val) :
    gidB V c t y = gid2 V c i := by
  obtain ⟨-, -, -, -, -, -, e0, e1, -⟩ := idx_facts2 t
  unfold gidB Fr.iblk2
  rw [View.read_apply]
  show V c main_v43 _ = V c main_v43 _
  congr 1
  funext a
  apply Fin.ext
  match a with
  | ⟨0, _⟩ => show win2_3.index t (0 : Fin 2) * 5000 + 1 * (y 0).val = (i 0).val; omega
  | ⟨1, _⟩ => show win2_3.index t (1 : Fin 2) * 1 + 1 * (y 1).val = (i 1).val; omega

/-- The head's weights' block at any point is the head's weights. -/
theorem hw_blk_apply (c : Dev nD) (t : Fin cfg2.N) (y : S128x1.Idx) :
    hwB V c t y = hw2 V c y := by
  obtain ⟨-, -, -, -, -, -, -, -, e0, e1, -⟩ := idx_facts2 t
  unfold hwB Fr.iblk2
  rw [View.read_apply]
  show V c main_arg7 _ = V c main_arg7 _
  congr 1
  funext a
  apply Fin.ext
  match a with
  | ⟨0, _⟩ => show win2_4.index t (0 : Fin 2) * 128 + 1 * (y 0).val = (y 0).val; omega
  | ⟨1, _⟩ => show win2_4.index t (1 : Fin 2) * 1 + 1 * (y 1).val = (y 1).val; omega

/-- The head's bias' block at any point is the head's bias. -/
theorem hb_blk_apply (c : Dev nD) (t : Fin cfg2.N) (y : S1x1.Idx) :
    hbB V c t y = hb2 V c y := by
  obtain ⟨-, -, -, -, -, -, -, -, -, -, e0, e1, -⟩ := idx_facts2 t
  unfold hbB Fr.iblk2
  rw [View.read_apply]
  show V c main_v44 _ = V c main_v44 _
  congr 1
  funext a
  apply Fin.ext
  match a with
  | ⟨0, _⟩ => show win2_5.index t (0 : Fin 2) * 1 + 1 * (y 0).val = (y 0).val; omega
  | ⟨1, _⟩ => show win2_5.index t (1 : Fin 2) * 1 + 1 * (y 1).val = (y 1).val; omega

/-- The ids of the block at point t are the ids of tile t's rows. -/
theorem gid_tile (c : Dev nD) (t : Fin cfg2.N) (r : Fin 5000) :
    gidB V c t (ix2 r 0) = gidOf V c (tileRow (T := 20) (B := 5000) t r) :=
  gid_blk_apply V c t (ix2 r 0) (ix2 (tileRow (T := 20) (B := 5000) t r) 0) rfl rfl

/-- The activation of the blocks at point t is the activation of tile t's rows. -/
theorem act_tile (c : Dev nD) (t : Fin cfg2.N) (r : Fin 5000) (j : Fin 128) :
    max (aggB V c t (ix2 r j) * degB V c t (ix2 r 0) + biasB V c t (ix2 0 j)) 0
      = act2 V c (tileRow (T := 20) (B := 5000) t r) j := by
  show max (aggB V c t (ix2 r j) * degB V c t (ix2 r 0) + biasB V c t (ix2 0 j)) 0
    = max (agg2 V c (ix2 (tileRow (T := 20) (B := 5000) t r) j) * deg2 V c (ix2 (tileRow (T := 20) (B := 5000) t r) 0) + bias2 V c (ix2 0 j)) 0
  rw [agg_blk_apply V c t (ix2 r j) (ix2 (tileRow (T := 20) (B := 5000) t r) j) rfl rfl,
    deg_blk_apply2 V c t (ix2 r 0) (ix2 (tileRow (T := 20) (B := 5000) t r) 0) rfl rfl,
    bias_blk_apply2 V c t (ix2 0 j)]

/-! ## One point's update of the accumulators, at an entry -/

/-- The sums' update: the one-hot product of the tile's ids with the tile's activation, added. -/
theorem sums_step (x0 : Vec Ideal S5000x128 .f32) (x1 : Vec Ideal S5000x1 .f32) (x2 : Vec Ideal S1x128 .f32)
    (x3 : Vec Ideal S5000x1 .i32) (acc : Vec Ideal S512x128 .f32)
    (batch : Fin 100000 → BitVec 32) (h : Fin 100000 → Fin 128 → EReal) (t : Fin 20)
    (hid : ∀ r : Fin 5000, x3 (ix2 r 0) = batch (tileRow (T := 20) (B := 5000) t r))
    (hact : ∀ (r : Fin 5000) (j : Fin 128), max (x0 (ix2 r j) * x1 (ix2 r 0) + x2 (ix2 0 j)) 0 = h (tileRow (T := 20) (B := 5000) t r) j)
    (g : Fin 512) (j : Fin 128) :
    k2_pay6 (F := Ideal) x0 x1 x2 x3 acc (ix2 g j)
      = acc (ix2 g j) + ∑ r : Fin 5000, onehot (batch (tileRow (T := 20) (B := 5000) t r)) g.val * h (tileRow (T := 20) (B := 5000) t r) j := by
  rw [Pay.k2_pay6_apply]
  refine congrArg (acc (ix2 g j) + ·) (Finset.sum_congr rfl fun r _ => ?_)
  rw [hid, hact]

/-- The counts' update: the tile's one-hot column sums, added. -/
theorem cnts_step (x3 : Vec Ideal S5000x1 .i32) (acc : Vec Ideal S512x1 .f32)
    (batch : Fin 100000 → BitVec 32) (t : Fin 20)
    (hid : ∀ r : Fin 5000, x3 (ix2 r 0) = batch (tileRow (T := 20) (B := 5000) t r)) (g : Fin 512) :
    k2_pay1 (F := Ideal) (k2_pay7 (F := Ideal) x3 acc) (ix2 g 0)
      = acc (ix2 g 0) + ∑ r : Fin 5000, onehot (batch (tileRow (T := 20) (B := 5000) t r)) g.val * 1 := by
  rw [Pay.k2_pay1_apply, Pay.k2_pay7_apply]
  refine congrArg (acc (ix2 g 0) + ·) (Finset.sum_congr rfl fun r _ => ?_)
  rw [hid]

/-! ## The accumulators after every point -/

/-- After point n the sums and the counts are the accumulations over the first n + 1 tiles. -/
theorem inv2 (c : Dev nD) : ∀ (n : ℕ) (hn : n < cfg2.N),
    (∀ (g : Fin 512) (j : Fin 128),
        (Fr.outsAt2 V c n hn).2.1 (ix2 g j) = Cert.Model.kerSums (gidOf V c) (act2 V c) g j (n + 1) hn)
      ∧ (∀ g : Fin 512, (Fr.outsAt2 V c n hn).2.2 (ix2 g 0) = Cert.Model.kerCnts (gidOf V c) g (n + 1) hn) := by
  intro n
  induction n with
  | zero =>
    intro hn
    constructor
    · intro g j
      rw [Fr.outsAt2_zero V c hn]; dsimp only
      refine (sums_step (aggB V c ⟨0, hn⟩) (degB V c ⟨0, hn⟩) (biasB V c ⟨0, hn⟩) (gidB V c ⟨0, hn⟩) (k2_pay3 (F := Ideal))
        (gidOf V c) (act2 V c) ⟨0, hn⟩ (gid_tile V c ⟨0, hn⟩) (act_tile V c ⟨0, hn⟩) g j).trans ?_
      rw [Pay.k2_pay3_apply]
      rfl
    · intro g
      rw [Fr.outsAt2_zero V c hn]; dsimp only
      refine (cnts_step (gidB V c ⟨0, hn⟩) (k2_pay4 (F := Ideal)) (gidOf V c) ⟨0, hn⟩ (gid_tile V c ⟨0, hn⟩) g).trans ?_
      rw [Pay.k2_pay4_apply]
      rfl
  | succ n ih =>
    intro hn
    obtain ⟨ihS, ihC⟩ := ih (Nat.lt_of_succ_lt hn)
    constructor
    · intro g j
      rw [Fr.outsAt2_succ V c n hn]; dsimp only
      refine (sums_step (aggB V c ⟨n + 1, hn⟩) (degB V c ⟨n + 1, hn⟩) (biasB V c ⟨n + 1, hn⟩) (gidB V c ⟨n + 1, hn⟩)
        (Fr.outsAt2 V c n (Nat.lt_of_succ_lt hn)).2.1
        (gidOf V c) (act2 V c) ⟨n + 1, hn⟩ (gid_tile V c ⟨n + 1, hn⟩) (act_tile V c ⟨n + 1, hn⟩) g j).trans ?_
      rw [ihS g j]
      rfl
    · intro g
      rw [Fr.outsAt2_succ V c n hn]; dsimp only
      refine (cnts_step (gidB V c ⟨n + 1, hn⟩) (Fr.outsAt2 V c n (Nat.lt_of_succ_lt hn)).2.2 (gidOf V c) ⟨n + 1, hn⟩
        (gid_tile V c ⟨n + 1, hn⟩) g).trans ?_
      rw [ihC g]
      rfl

/-! ## The head, at an entry -/

/-- If the accumulators hold the accumulations over all 20 tiles and the last two blocks are the head's weights and
    bias, the last point's payload at entry y is the head of graph y 0. -/
theorem head_at (s : Vec Ideal S512x128 .f32) (n : Vec Ideal S512x1 .f32) (x4 : Vec Ideal S128x1 .f32) (x5 : Vec Ideal S1x1 .f32)
    (Wp : Fin 128 → EReal) (bp : EReal) (batch : Fin 100000 → BitVec 32) (h : Fin 100000 → Fin 128 → EReal)
    (hs : ∀ (g : Fin 512) (k : Fin 128), s (ix2 g k) = Cert.Model.kerSums batch h g k 20 le_rfl)
    (hn : ∀ g : Fin 512, n (ix2 g 0) = Cert.Model.kerCnts batch g 20 le_rfl)
    (hw : ∀ k : Fin 128, x4 (ix2 k 0) = Wp k) (hb : x5 (ix2 0 0) = bp) (y : S512x1.Idx) :
    k2_pay2 (F := Ideal) s n x4 x5 y = Cert.Model.kerHead Wp bp batch h (y 0) := by
  obtain ⟨g, z, rfl⟩ : ∃ (g : Fin 512) (z : Fin 1), y = ix2 g z := ⟨y 0, y 1, eq_ix2 y⟩
  obtain rfl : z = 0 := Subsingleton.elim _ _
  show k2_pay2 (F := Ideal) s n x4 x5 (ix2 g 0) = Cert.Model.kerHead Wp bp batch h g
  rw [Pay.k2_pay2_apply]
  unfold Cert.Model.kerHead
  rw [hb, hn]
  refine congrArg (· + bp) (Finset.sum_congr rfl fun k _ => ?_)
  rw [hs, hw]

/-! ## What the one write-back writes -/

/-- The whole output as one function of the arrays: per graph, the head of the pooled activation. -/
abbrev G2 (c : Dev nD) : S512x1.Idx → Elt Ideal .f32 :=
  fun i => Cert.Model.kerHead (fun k => hw2 V c (ix2 k 0)) (hb2 V c (ix2 0 0)) (gidOf V c) (act2 V c) (i 0)

/-- The output block after the last point, at an entry: the head of the entry's graph. -/
theorem out_last_apply (c : Dev nD) (n : ℕ) (hn : n < cfg2.N) (h19 : n = 19) (y : S512x1.Idx) :
    (Fr.outsAt2 V c n hn).1 y
      = Cert.Model.kerHead (fun k => hw2 V c (ix2 k 0)) (hb2 V c (ix2 0 0)) (gidOf V c) (act2 V c) (y 0) := by
  subst h19
  obtain ⟨iS, iC⟩ := inv2 V c 19 hn
  rw [Fr.outsAt2_last V c hn]
  exact head_at (Fr.outsAt2 V c 19 hn).2.1 (Fr.outsAt2 V c 19 hn).2.2 (hwB V c ⟨19, hn⟩) (hbB V c ⟨19, hn⟩)
    (fun k => hw2 V c (ix2 k 0)) (hb2 V c (ix2 0 0)) (gidOf V c) (act2 V c) iS iC
    (fun k => hw_blk_apply V c ⟨19, hn⟩ (ix2 k 0)) (hb_blk_apply V c ⟨19, hn⟩ (ix2 0 0)) y

/-- The output is written back after the last point only, and what is written is the whole-array function. -/
theorem flushed2_eq (c : Dev nD) (t : Fin cfg2.N) (hf : (cfg2.win 6).flush t = true) :
    (Fr.dat2 V c).flushed 6 t = ((cfg2.win 6).blk t).view.read (Elt Ideal) (G2 V c) := by
  have hN : cfg2.N = 20 := N_2
  have h19 : t.val = 19 := by have := (flush2_6 t).mp hf; have := t.isLt; omega
  obtain ⟨-, -, -, -, -, -, -, -, -, -, -, -, e0, e1⟩ := idx_facts2 t
  show (cfg2.win 6).cut (grid2.coords t) ((Fr.dat2 V c).after 6 t) = _
  rw [Fr.after2_6]
  funext y
  have hy : (((cfg2.win 6).blk t).view.emb y) 0 = (y 0 : Fin 512) :=
    Fin.ext (by show win2_6.index t (0 : Fin 2) * 512 + 1 * (y 0).val = (y 0).val; omega)
  show (Fr.outsAt2 V c t.val t.isLt).1 y
    = Cert.Model.kerHead (fun k => hw2 V c (ix2 k 0)) (hb2 V c (ix2 0 0)) (gidOf V c) (act2 V c) ((((cfg2.win 6).blk t).view.emb y) 0)
  rw [hy]
  exact out_last_apply V c t.val t.isLt h19 y

/-! ## The one block is the whole array -/

/-- An entry of the output is in point t's block iff each coordinate is in the block's range on its axis. -/
theorem mem_blk2 (t : Fin cfg2.N) (i : S512x1.Idx) :
    i ∈ ((cfg2.win 6).blk t).view.set ↔ ∀ a : Fin 2, win2_6.index t a * S512x1.size a ≤ (i a).val ∧ (i a).val < win2_6.index t a * S512x1.size a + S512x1.size a := by
  show i ∈ ((View.whole main_v46).slice (win2_6.rect t)).set ↔ _
  rw [View.set_slice_whole, Rect.mem_set_unit]
  exact Iff.rfl

/-- Every entry of the output lies in the last point's block, and the last point writes back. -/
theorem cover2 (i : S512x1.Idx) : ∃ t : Fin cfg2.N, (cfg2.win 6).flush t = true ∧ i ∈ ((cfg2.win 6).blk t).view.set := by
  have hi0 : (i 0).val < 512 := (i 0).isLt
  have hi1 : (i 1).val < 1 := (i 1).isLt
  have hN : 19 < cfg2.N := by show 19 < 20; omega
  obtain ⟨-, -, -, -, -, -, -, -, -, -, -, -, e0, e1⟩ := idx_facts2 ⟨19, hN⟩
  refine ⟨⟨19, hN⟩, (flush2_6 ⟨19, hN⟩).mpr rfl, ?_⟩
  rw [mem_blk2]
  intro a
  match a with
  | ⟨0, _⟩ =>
    show win2_6.index ⟨19, hN⟩ (0 : Fin 2) * 512 ≤ (i 0).val ∧ (i 0).val < win2_6.index ⟨19, hN⟩ (0 : Fin 2) * 512 + 512
    omega
  | ⟨1, _⟩ =>
    show win2_6.index ⟨19, hN⟩ (1 : Fin 2) * 1 ≤ (i 1).val ∧ (i 1).val < win2_6.index ⟨19, hN⟩ (1 : Fin 2) * 1 + 1
    omega

/-! ## The array after the region -/

/-- The output array after the last point is the whole-array function of the arrays as the region finds them. -/
theorem final2 (c : Dev nD) : (Fr.dat2 V c).arrAt 6 cfg2.N = G2 V c :=
  (Fr.dat2 V c).arrAt_eq_of_cover 6 (G2 V c) (fun t hf => flushed2_eq V c t hf) cover2

/-- Entry g of the output array after the region: the head of graph g. -/
theorem arr2 (c : Dev nD) (g : Fin 512) :
    (Fr.dat2 V c).arrAt 6 cfg2.N (ix2 g 0)
      = Cert.Model.kerHead (fun k => hw2 V c (ix2 k 0)) (hb2 V c (ix2 0 0)) (fun n => gid2 V c (ix2 n 0)) (act2 V c) g := by
  rw [final2 V c]

end Cert.KernelIdeal.Val

end
-- ==== Proof.Inputs.lean ====
/-
  What both programs make of the integer inputs before any arithmetic on features — the same host operations in both:
  the edge list with one self-loop per node appended (`edgeW`), an id's sign normalisation before a gather (`normW`:
  a negative id counts from the end) and the row the gather then reads (`rowOf`: clamped), the degree of a node counted
  over target ids (`deg`) and the degree factor `dis = deg^(-1/2)` where the degree is positive, else 0.
  The factor is a nonnegative real, and an edge whose target id IS node `n` has target row `n`.
-/
import proofs.«405428_j28441273434160_2_alg».proof.Proof.Spec
import Idealize.ShloMosaic.Lib.Pipeline.Value
import Idealize.ShloMosaic.Lib.IdealHost

noncomputable section

open scoped BigOperators

namespace Cert.Inputs

open Idealize.ShloMosaic Idealize.ShloMosaic.ValueIdx Cert.Spec

/-- The id word of edge `e` in row `row` of the edge list (0: sources, 1: targets): the first 1,600,000 edges are the
    given ones, edge `1600000 + n` is node `n`'s self-loop. -/
def edgeW (row : Fin 2) (ei : IVec ⟨2, ![2, 1600000]⟩ 32) (e : Fin 1700000) : BitVec 32 :=
  if h : e.val < 1600000 then ei (ix2 row ⟨e.val, h⟩) else BitVec.ofNat 32 (e.val - 1600000)

/-- An id before a gather: a negative id has the number of nodes added. -/
def normW (w : BitVec 32) : BitVec 32 := Scalar.select (IntOp.cmpi .slt w 0#32) (IntOp.addi w 100000#32) w

/-- The row a gather reads for an id: normalised, then clamped. -/
def rowOf (w : BitVec 32) : Fin 100000 := clampRow 100000 (by decide) (normW w)

/-- An id that, read signed, IS node `n` names row `n`. -/
theorem normW_of_nonneg (w : BitVec 32) (h : 0 ≤ w.toInt) : normW w = w := by
  have hs : w.slt 0#32 = false := by
    rw [BitVec.slt, decide_eq_false_iff_not]
    have h0 : (0#32 : BitVec 32).toInt = 0 := by decide
    omega
  have hc : IntOp.cmpi .slt w 0#32 = 0#1 := by
    show BitVec.ofBool (w.slt 0#32) = 0#1
    rw [hs]; rfl
  unfold normW Scalar.select
  rw [hc, if_neg (by decide)]

theorem rowOf_of_toInt (w : BitVec 32) (n : Fin 100000) (h : w.toInt = (n.val : ℤ)) : rowOf w = n := by
  unfold rowOf
  rw [normW_of_nonneg w (by omega)]
  exact clampRow_of_toInt _ w n h

/-- The degree of node `n`: the number of edges whose target id, read signed, is `n` (as the sum of ones from zero). -/
def deg (dst : Fin 1700000 → BitVec 32) (n : Fin 100000) : EReal :=
  (0 : EReal) + ∑ _e ∈ Finset.univ.filter (fun e : Fin 1700000 => (dst e).toInt = (n.val : ℤ)), (1 : EReal)

/-- The degree factor. -/
def dis (dst : Fin 1700000 → BitVec 32) (n : Fin 100000) : EReal :=
  Scalar.select (FloatOps.cmpf (F := Ideal) (φ := .f32) .ogt (deg dst n) 0) (Ideal.rsqrt (max (deg dst n) 1)) 0

theorem dis_nonneg (dst : Fin 1700000 → BitVec 32) (n : Fin 100000) : 0 ≤ dis dst n ∧ dis dst n ≠ ⊤ := by
  refine dis_nonneg_real (Finset.univ.filter (fun e : Fin 1700000 => (dst e).toInt = (n.val : ℤ))) (dis dst n) ?_
  unfold dis Scalar.select
  split
  · exact Or.inl rfl
  · exact Or.inr rfl

/-! ## Reading the host operations both programs run on the integer inputs

Each lemma is stated over the library operations at literal shapes, every shape fact a hypothesis, so that either program's
own facts and records instantiate it. -/

/-- A row of the edge list, flattened, followed by the node ids `0 … 99999`: at edge `e` it is `edgeW row`. -/
theorem edges_apply (row : Fin 2) (ei : IVec ⟨2, ![2, 1600000]⟩ 32)
    (h1 : (⟨2, ![2, 1600000]⟩ : Shape).Slices ![row.val, 0] ⟨2, ![1, 1600000]⟩)
    (h2 : (⟨2, ![1, 1600000]⟩ : Shape).ShapeCasts ⟨1, ![1600000]⟩)
    (h3 : Shape.Concatenates [⟨1, ![1600000]⟩, ⟨1, ![100000]⟩] ⟨1, ![1700000]⟩ 0)
    (e : Fin 1700000) :
    concatenate ⟨1, ![1700000]⟩ 0
        [⟨⟨1, ![1600000]⟩, shapeCast ⟨1, ![1600000]⟩ (extractStridedSlice ⟨2, ![1, 1600000]⟩ ![row.val, 0] ei h1) h2⟩,
         ⟨⟨1, ![100000]⟩, iotaInDim ⟨1, ![100000]⟩ 32 0⟩] h3 (ix1 e)
      = edgeW row ei e := by
  unfold edgeW
  by_cases h : e.val < 1600000
  · rw [dif_pos h]
    refine (concatenate_pair_apply_left 0 _ _ h3 (ix1 e) rfl (ix1 ⟨e.val, h⟩)
      (fun b => match b with | ⟨0, _⟩ => rfl)).trans ?_
    refine (shapeCast_apply _ h2 (ix1 ⟨e.val, h⟩) (ix2 0 ⟨e.val, h⟩) ?_).trans ?_
    · rewrite [Shape.rowMajor_val_two, Shape.rowMajor_val_one]
      show 0 * 1600000 + e.val = e.val
      omega
    · exact extractStridedSlice_apply _ ei h1 (ix2 0 ⟨e.val, h⟩) (ix2 row ⟨e.val, h⟩) (fun a => match a with
        | ⟨0, _⟩ => by show row.val = row.val + 0; omega
        | ⟨1, _⟩ => by show e.val = 0 + e.val; omega)
  · rw [dif_neg h]
    have he := e.isLt
    exact concatenate_pair_apply_right 0 _ _ h3 (ix1 e) rfl rfl (ix1 ⟨e.val - 1600000, by omega⟩)
      (fun b hb => match b, hb with | ⟨0, _⟩, hb => absurd rfl hb)
      (by show e.val - 1600000 + 1600000 = e.val; omega)

/-- The source ids: row 0 of the edge list, then the node ids. -/
theorem edges_src_apply (ei : IVec ⟨2, ![2, 1600000]⟩ 32)
    (h1 : (⟨2, ![2, 1600000]⟩ : Shape).Slices ![0, 0] ⟨2, ![1, 1600000]⟩)
    (h2 : (⟨2, ![1, 1600000]⟩ : Shape).ShapeCasts ⟨1, ![1600000]⟩)
    (h3 : Shape.Concatenates [⟨1, ![1600000]⟩, ⟨1, ![100000]⟩] ⟨1, ![1700000]⟩ 0)
    (e : Fin 1700000) :
    concatenate ⟨1, ![1700000]⟩ 0
        [⟨⟨1, ![1600000]⟩, shapeCast ⟨1, ![1600000]⟩ (extractStridedSlice ⟨2, ![1, 1600000]⟩ ![0, 0] ei h1) h2⟩,
         ⟨⟨1, ![100000]⟩, iotaInDim ⟨1, ![100000]⟩ 32 0⟩] h3 (ix1 e)
      = edgeW 0 ei e :=
  edges_apply 0 ei h1 h2 h3 e

/-- The target ids: row 1 of the edge list, then the node ids. -/
theorem edges_dst_apply (ei : IVec ⟨2, ![2, 1600000]⟩ 32)
    (h1 : (⟨2, ![2, 1600000]⟩ : Shape).Slices ![1, 0] ⟨2, ![1, 1600000]⟩)
    (h2 : (⟨2, ![1, 1600000]⟩ : Shape).ShapeCasts ⟨1, ![1600000]⟩)
    (h3 : Shape.Concatenates [⟨1, ![1600000]⟩, ⟨1, ![100000]⟩] ⟨1, ![1700000]⟩ 0)
    (e : Fin 1700000) :
    concatenate ⟨1, ![1700000]⟩ 0
        [⟨⟨1, ![1600000]⟩, shapeCast ⟨1, ![1600000]⟩ (extractStridedSlice ⟨2, ![1, 1600000]⟩ ![1, 0] ei h1) h2⟩,
         ⟨⟨1, ![100000]⟩, iotaInDim ⟨1, ![100000]⟩ 32 0⟩] h3 (ix1 e)
      = edgeW 1 ei e :=
  edges_apply 1 ei h1 h2 h3 e

/-- The sign normalisation of an id array, elementwise: a negative id has the number of nodes added. -/
theorem norm_apply {s : Shape} (v : IVec s 32) (hb : (⟨0, ![]⟩ : Shape).BroadcastsInDim s ![]) (i : s.Idx) :
    select (cmpi .slt v (broadcastInDim s ![] hb (constantI ⟨0, ![]⟩ 32 0#32)))
        (addi v (broadcastInDim s ![] hb (constantI ⟨0, ![]⟩ 32 100000#32))) v i
      = normW (v i) := rfl

/-- A vector laid out as a one-column matrix reads, in row `e`, the vector's element `e`. -/
theorem bcastCol_apply {N : Nat} {α : Type} (v : (⟨1, ![N]⟩ : Shape).Idx → α)
    (hb : (⟨1, ![N]⟩ : Shape).BroadcastsInDim ⟨2, ![N, 1]⟩ ![0]) (e : Fin N) :
    broadcastInDim ⟨2, ![N, 1]⟩ ![0] hb v (ix2 e 0) = v (ix1 e) :=
  broadcastInDim_apply _ hb v (ix2 e 0) (ix1 e) (fun a => match a with
    | ⟨0, _⟩ => by
      show e.val = if N = 1 then 0 else e.val
      have he := e.isLt
      split <;> omega)

/-- The index array a gather reads — the normalised ids as a one-column matrix — holds `normW` of the id in row `e`. -/
theorem normCol_apply (v : IVec ⟨1, ![1700000]⟩ 32)
    (hbE : (⟨0, ![]⟩ : Shape).BroadcastsInDim ⟨1, ![1700000]⟩ ![])
    (hb : (⟨1, ![1700000]⟩ : Shape).BroadcastsInDim ⟨2, ![1700000, 1]⟩ ![0]) (e : Fin 1700000) :
    broadcastInDim ⟨2, ![1700000, 1]⟩ ![0] hb
        (select (cmpi .slt v (broadcastInDim ⟨1, ![1700000]⟩ ![] hbE (constantI ⟨0, ![]⟩ 32 0#32)))
          (addi v (broadcastInDim ⟨1, ![1700000]⟩ ![] hbE (constantI ⟨0, ![]⟩ 32 100000#32))) v) (ix2 e 0)
      = normW (v (ix1 e)) :=
  (bcastCol_apply _ hb e).trans (norm_apply v hbE (ix1 e))

/-- A segment sum of a vector that is `1` everywhere onto a vector that is `0` everywhere is the degree count. -/
theorem scatter_count (d : ScatterDims ⟨1, ![100000]⟩ ⟨2, ![1700000, 1]⟩ ⟨1, ![1700000]⟩)
    (hd1 : d.updateWindowDims = []) (hd2 : d.insertedWindowDims = [0]) (hd3 : d.scatterDimsToOperandDims = [0])
    (hd4 : d.indexVectorDim = 1)
    (Z : (⟨1, ![100000]⟩ : Shape).Idx → EReal) (O : (⟨1, ![1700000]⟩ : Shape).Idx → EReal)
    (hZ : ∀ j, Z j = 0) (hO : ∀ j, O j = 1)
    (idx : IVec ⟨2, ![1700000, 1]⟩ 32) (n : Fin 100000) :
    Ideal.hostScatterAdd d Z idx O (ix1 n) = deg (fun e => idx (ix2 e 0)) n := by
  rw [scatterVec_apply d hd1 hd2 hd3 hd4, hZ]
  unfold deg
  simp only [hO]

/-- A scalar constant broadcast to any shape reads, everywhere, the extended real its word encodes. -/
theorem bcastConst_apply {s : Shape} (hb : (⟨0, ![]⟩ : Shape).BroadcastsInDim s ![]) (b : BitVec 32) (j : s.Idx) :
    broadcastInDim s ![] hb (constant (F := Ideal) ⟨0, ![]⟩ .f32 b) j = Ideal.ofBits .f32 b := rfl

/-- The accumulating scatter of ones from zero, at any sizes: for node `n` it counts the edges whose target id is `n`. -/
theorem scatter_ones_gen {N E : Nat} (d : ScatterDims ⟨1, ![N]⟩ ⟨2, ![E, 1]⟩ ⟨1, ![E]⟩)
    (hd1 : d.updateWindowDims = []) (hd2 : d.insertedWindowDims = [0]) (hd3 : d.scatterDimsToOperandDims = [0])
    (hd4 : d.indexVectorDim = 1)
    (hbN : (⟨0, ![]⟩ : Shape).BroadcastsInDim ⟨1, ![N]⟩ ![])
    (hbE : (⟨0, ![]⟩ : Shape).BroadcastsInDim ⟨1, ![E]⟩ ![])
    (idx : IVec ⟨2, ![E, 1]⟩ 32) (n : Fin N) :
    Host.scatterAdd (F := Ideal) d
        (broadcastInDim ⟨1, ![N]⟩ ![] hbN (constant (F := Ideal) ⟨0, ![]⟩ .f32 0x00000000#32)) idx
        (broadcastInDim ⟨1, ![E]⟩ ![] hbE (constant (F := Ideal) ⟨0, ![]⟩ .f32 0x3F800000#32)) (ix1 n)
      = (0 : EReal) + ∑ _e ∈ Finset.univ.filter (fun e : Fin E => (idx (ix2 e 0)).toInt = (n.val : ℤ)), (1 : EReal) := by
  unfold Host.scatterAdd
  rw [Ideal.hostScatterAdd_def, scatterVec_apply d hd1 hd2 hd3 hd4]
  have hZ : broadcastInDim ⟨1, ![N]⟩ ![] hbN (constant (F := Ideal) ⟨0, ![]⟩ .f32 0x00000000#32) (ix1 n)
      = (0 : EReal) := Ideal.ofBits_zero_f32
  have hO : ∀ x : Fin E, broadcastInDim ⟨1, ![E]⟩ ![] hbE (constant (F := Ideal) ⟨0, ![]⟩ .f32 0x3F800000#32) (ix1 x)
      = (1 : EReal) := fun _ => Ideal.ofBits_one_f32
  rw [hZ]
  simp only [hO]

/-- `where(D > 0, rsqrt(max(D, 1)), 0)` of that count, at any sizes. -/
theorem where_rsqrt_gen {N E : Nat} (d : ScatterDims ⟨1, ![N]⟩ ⟨2, ![E, 1]⟩ ⟨1, ![E]⟩)
    (hd1 : d.updateWindowDims = []) (hd2 : d.insertedWindowDims = [0]) (hd3 : d.scatterDimsToOperandDims = [0])
    (hd4 : d.indexVectorDim = 1)
    (hbN : (⟨0, ![]⟩ : Shape).BroadcastsInDim ⟨1, ![N]⟩ ![])
    (hbE : (⟨0, ![]⟩ : Shape).BroadcastsInDim ⟨1, ![E]⟩ ![])
    (idx : IVec ⟨2, ![E, 1]⟩ 32) (n : Fin N) :
    select
        (cmpf (F := Ideal) .ogt
          (Host.scatterAdd (F := Ideal) d
            (broadcastInDim ⟨1, ![N]⟩ ![] hbN (constant (F := Ideal) ⟨0, ![]⟩ .f32 0x00000000#32)) idx
            (broadcastInDim ⟨1, ![E]⟩ ![] hbE (constant (F := Ideal) ⟨0, ![]⟩ .f32 0x3F800000#32)))
          (broadcastInDim ⟨1, ![N]⟩ ![] hbN (constant (F := Ideal) ⟨0, ![]⟩ .f32 0x00000000#32)))
        (Host.rsqrt (F := Ideal)
          (maximumf
            (Host.scatterAdd (F := Ideal) d
              (broadcastInDim ⟨1, ![N]⟩ ![] hbN (constant (F := Ideal) ⟨0, ![]⟩ .f32 0x00000000#32)) idx
              (broadcastInDim ⟨1, ![E]⟩ ![] hbE (constant (F := Ideal) ⟨0, ![]⟩ .f32 0x3F800000#32)))
            (broadcastInDim ⟨1, ![N]⟩ ![] hbN (constant (F := Ideal) ⟨0, ![]⟩ .f32 0x3F800000#32))))
        (broadcastInDim ⟨1, ![N]⟩ ![] hbN (id (constant (F := Ideal) ⟨0, ![]⟩ .f32 0x00000000#32)))
        (ix1 n)
      = Scalar.select
          (FloatOps.cmpf (F := Ideal) (φ := .f32) .ogt
            ((0 : EReal) + ∑ _e ∈ Finset.univ.filter (fun e : Fin E => (idx (ix2 e 0)).toInt = (n.val : ℤ)), (1 : EReal)) 0)
          (Ideal.rsqrt (max
            ((0 : EReal) + ∑ _e ∈ Finset.univ.filter (fun e : Fin E => (idx (ix2 e 0)).toInt = (n.val : ℤ)), (1 : EReal)) 1))
          0 := by
  have hD := scatter_ones_gen d hd1 hd2 hd3 hd4 hbN hbE idx n
  show Scalar.select
      (FloatOps.cmpf (F := Ideal) (φ := .f32) .ogt
        (Host.scatterAdd (F := Ideal) d
          (broadcastInDim ⟨1, ![N]⟩ ![] hbN (constant (F := Ideal) ⟨0, ![]⟩ .f32 0x00000000#32)) idx
          (broadcastInDim ⟨1, ![E]⟩ ![] hbE (constant (F := Ideal) ⟨0, ![]⟩ .f32 0x3F800000#32)) (ix1 n))
        (Ideal.ofBits .f32 0x00000000#32))
      (Ideal.rsqrt (max
        (Host.scatterAdd (F := Ideal) d
          (broadcastInDim ⟨1, ![N]⟩ ![] hbN (constant (F := Ideal) ⟨0, ![]⟩ .f32 0x00000000#32)) idx
          (broadcastInDim ⟨1, ![E]⟩ ![] hbE (constant (F := Ideal) ⟨0, ![]⟩ .f32 0x3F800000#32)) (ix1 n))
        (Ideal.ofBits .f32 0x3F800000#32)))
      (Ideal.ofBits .f32 0x00000000#32) = _
  rw [hD, Ideal.ofBits_zero_f32, Ideal.ofBits_one_f32]

/-- The accumulating scatter of ones from zero at the target ids counts, for node `n`, the edges whose target id is `n`. -/
theorem deg_apply (d : ScatterDims ⟨1, ![100000]⟩ ⟨2, ![1700000, 1]⟩ ⟨1, ![1700000]⟩)
    (hd1 : d.updateWindowDims = []) (hd2 : d.insertedWindowDims = [0]) (hd3 : d.scatterDimsToOperandDims = [0])
    (hd4 : d.indexVectorDim = 1)
    (hbN : (⟨0, ![]⟩ : Shape).BroadcastsInDim ⟨1, ![100000]⟩ ![])
    (hbE : (⟨0, ![]⟩ : Shape).BroadcastsInDim ⟨1, ![1700000]⟩ ![])
    (idx : IVec ⟨2, ![1700000, 1]⟩ 32) (n : Fin 100000) :
    Host.scatterAdd (F := Ideal) d
        (broadcastInDim ⟨1, ![100000]⟩ ![] hbN (constant (F := Ideal) ⟨0, ![]⟩ .f32 0x00000000#32)) idx
        (broadcastInDim ⟨1, ![1700000]⟩ ![] hbE (constant (F := Ideal) ⟨0, ![]⟩ .f32 0x3F800000#32)) (ix1 n)
      = deg (fun e => idx (ix2 e 0)) n := by
  refine (scatter_ones_gen d hd1 hd2 hd3 hd4 hbN hbE idx n).trans ?_
  unfold deg
  with_reducible rfl

/-- The degree factor as the programs compute it: `where(deg > 0, rsqrt(max(deg, 1)), 0)` of the scattered count. -/
theorem dis_apply (d : ScatterDims ⟨1, ![100000]⟩ ⟨2, ![1700000, 1]⟩ ⟨1, ![1700000]⟩)
    (hd1 : d.updateWindowDims = []) (hd2 : d.insertedWindowDims = [0]) (hd3 : d.scatterDimsToOperandDims = [0])
    (hd4 : d.indexVectorDim = 1)
    (hbN : (⟨0, ![]⟩ : Shape).BroadcastsInDim ⟨1, ![100000]⟩ ![])
    (hbE : (⟨0, ![]⟩ : Shape).BroadcastsInDim ⟨1, ![1700000]⟩ ![])
    (idx : IVec ⟨2, ![1700000, 1]⟩ 32) (n : Fin 100000) :
    select
        (cmpf (F := Ideal) .ogt
          (Host.scatterAdd (F := Ideal) d
            (broadcastInDim ⟨1, ![100000]⟩ ![] hbN (constant (F := Ideal) ⟨0, ![]⟩ .f32 0x00000000#32)) idx
            (broadcastInDim ⟨1, ![1700000]⟩ ![] hbE (constant (F := Ideal) ⟨0, ![]⟩ .f32 0x3F800000#32)))
          (broadcastInDim ⟨1, ![100000]⟩ ![] hbN (constant (F := Ideal) ⟨0, ![]⟩ .f32 0x00000000#32)))
        (Host.rsqrt (F := Ideal)
          (maximumf
            (Host.scatterAdd (F := Ideal) d
              (broadcastInDim ⟨1, ![100000]⟩ ![] hbN (constant (F := Ideal) ⟨0, ![]⟩ .f32 0x00000000#32)) idx
              (broadcastInDim ⟨1, ![1700000]⟩ ![] hbE (constant (F := Ideal) ⟨0, ![]⟩ .f32 0x3F800000#32)))
            (broadcastInDim ⟨1, ![100000]⟩ ![] hbN (constant (F := Ideal) ⟨0, ![]⟩ .f32 0x3F800000#32))))
        (broadcastInDim ⟨1, ![100000]⟩ ![] hbN (id (constant (F := Ideal) ⟨0, ![]⟩ .f32 0x00000000#32)))
        (ix1 n)
      = dis (fun e => idx (ix2 e 0)) n := by
  refine (where_rsqrt_gen d hd1 hd2 hd3 hd4 hbN hbE idx n).trans ?_
  unfold dis deg
  with_reducible rfl

/-! ## The same readings chained from the edge list -/

/-- The target ids as a one-column matrix — the index array of the degree count — hold `edgeW 1` in row `e`. -/
theorem dstCol_apply (ei : IVec ⟨2, ![2, 1600000]⟩ 32)
    (h1 : (⟨2, ![2, 1600000]⟩ : Shape).Slices ![1, 0] ⟨2, ![1, 1600000]⟩)
    (h2 : (⟨2, ![1, 1600000]⟩ : Shape).ShapeCasts ⟨1, ![1600000]⟩)
    (h3 : Shape.Concatenates [⟨1, ![1600000]⟩, ⟨1, ![100000]⟩] ⟨1, ![1700000]⟩ 0)
    (hb : (⟨1, ![1700000]⟩ : Shape).BroadcastsInDim ⟨2, ![1700000, 1]⟩ ![0]) (e : Fin 1700000) :
    broadcastInDim ⟨2, ![1700000, 1]⟩ ![0] hb
        (concatenate ⟨1, ![1700000]⟩ 0
          [⟨⟨1, ![1600000]⟩, shapeCast ⟨1, ![1600000]⟩ (extractStridedSlice ⟨2, ![1, 1600000]⟩ ![1, 0] ei h1) h2⟩,
           ⟨⟨1, ![100000]⟩, iotaInDim ⟨1, ![100000]⟩ 32 0⟩] h3) (ix2 e 0)
      = edgeW 1 ei e :=
  (bcastCol_apply _ hb e).trans (edges_dst_apply ei h1 h2 h3 e)

/-- The gather index array built from the source ids holds the normalised source id of edge `e`. -/
theorem srcNormCol_apply (ei : IVec ⟨2, ![2, 1600000]⟩ 32)
    (h1 : (⟨2, ![2, 1600000]⟩ : Shape).Slices ![0, 0] ⟨2, ![1, 1600000]⟩)
    (h2 : (⟨2, ![1, 1600000]⟩ : Shape).ShapeCasts ⟨1, ![1600000]⟩)
    (h3 : Shape.Concatenates [⟨1, ![1600000]⟩, ⟨1, ![100000]⟩] ⟨1, ![1700000]⟩ 0)
    (hbE : (⟨0, ![]⟩ : Shape).BroadcastsInDim ⟨1, ![1700000]⟩ ![])
    (hb : (⟨1, ![1700000]⟩ : Shape).BroadcastsInDim ⟨2, ![1700000, 1]⟩ ![0]) (e : Fin 1700000) :
    broadcastInDim ⟨2, ![1700000, 1]⟩ ![0] hb
        (select (cmpi .slt (concatenate ⟨1, ![1700000]⟩ 0
          [⟨⟨1, ![1600000]⟩, shapeCast ⟨1, ![1600000]⟩ (extractStridedSlice ⟨2, ![1, 1600000]⟩ ![0, 0] ei h1) h2⟩,
           ⟨⟨1, ![100000]⟩, iotaInDim ⟨1, ![100000]⟩ 32 0⟩] h3) (broadcastInDim ⟨1, ![1700000]⟩ ![] hbE (constantI ⟨0, ![]⟩ 32 0#32)))
          (addi (concatenate ⟨1, ![1700000]⟩ 0
          [⟨⟨1, ![1600000]⟩, shapeCast ⟨1, ![1600000]⟩ (extractStridedSlice ⟨2, ![1, 1600000]⟩ ![0, 0] ei h1) h2⟩,
           ⟨⟨1, ![100000]⟩, iotaInDim ⟨1, ![100000]⟩ 32 0⟩] h3) (broadcastInDim ⟨1, ![1700000]⟩ ![] hbE (constantI ⟨0, ![]⟩ 32 100000#32)))
          (concatenate ⟨1, ![1700000]⟩ 0
          [⟨⟨1, ![1600000]⟩, shapeCast ⟨1, ![1600000]⟩ (extractStridedSlice ⟨2, ![1, 1600000]⟩ ![0, 0] ei h1) h2⟩,
           ⟨⟨1, ![100000]⟩, iotaInDim ⟨1, ![100000]⟩ 32 0⟩] h3)) (ix2 e 0)
      = normW (edgeW 0 ei e) :=
  (normCol_apply _ hbE hb e).trans (congrArg normW (edges_src_apply ei h1 h2 h3 e))

/-- The gather index array built from the target ids holds the normalised target id of edge `e`. -/
theorem dstNormCol_apply (ei : IVec ⟨2, ![2, 1600000]⟩ 32)
    (h1 : (⟨2, ![2, 1600000]⟩ : Shape).Slices ![1, 0] ⟨2, ![1, 1600000]⟩)
    (h2 : (⟨2, ![1, 1600000]⟩ : Shape).ShapeCasts ⟨1, ![1600000]⟩)
    (h3 : Shape.Concatenates [⟨1, ![1600000]⟩, ⟨1, ![100000]⟩] ⟨1, ![1700000]⟩ 0)
    (hbE : (⟨0, ![]⟩ : Shape).BroadcastsInDim ⟨1, ![1700000]⟩ ![])
    (hb : (⟨1, ![1700000]⟩ : Shape).BroadcastsInDim ⟨2, ![1700000, 1]⟩ ![0]) (e : Fin 1700000) :
    broadcastInDim ⟨2, ![1700000, 1]⟩ ![0] hb
        (select (cmpi .slt (concatenate ⟨1, ![1700000]⟩ 0
          [⟨⟨1, ![1600000]⟩, shapeCast ⟨1, ![1600000]⟩ (extractStridedSlice ⟨2, ![1, 1600000]⟩ ![1, 0] ei h1) h2⟩,
           ⟨⟨1, ![100000]⟩, iotaInDim ⟨1, ![100000]⟩ 32 0⟩] h3) (broadcastInDim ⟨1, ![1700000]⟩ ![] hbE (constantI ⟨0, ![]⟩ 32 0#32)))
          (addi (concatenate ⟨1, ![1700000]⟩ 0
          [⟨⟨1, ![1600000]⟩, shapeCast ⟨1, ![1600000]⟩ (extractStridedSlice ⟨2, ![1, 1600000]⟩ ![1, 0] ei h1) h2⟩,
           ⟨⟨1, ![100000]⟩, iotaInDim ⟨1, ![100000]⟩ 32 0⟩] h3) (broadcastInDim ⟨1, ![1700000]⟩ ![] hbE (constantI ⟨0, ![]⟩ 32 100000#32)))
          (concatenate ⟨1, ![1700000]⟩ 0
          [⟨⟨1, ![1600000]⟩, shapeCast ⟨1, ![1600000]⟩ (extractStridedSlice ⟨2, ![1, 1600000]⟩ ![1, 0] ei h1) h2⟩,
           ⟨⟨1, ![100000]⟩, iotaInDim ⟨1, ![100000]⟩ 32 0⟩] h3)) (ix2 e 0)
      = normW (edgeW 1 ei e) :=
  (normCol_apply _ hbE hb e).trans (congrArg normW (edges_dst_apply ei h1 h2 h3 e))

/-- The degree factor of an index array that holds `edgeW 1` in every row is the degree factor of the target ids. -/
theorem dis_of_col (idx : IVec ⟨2, ![1700000, 1]⟩ 32) (ei : IVec ⟨2, ![2, 1600000]⟩ 32)
    (hidx : ∀ e : Fin 1700000, idx (ix2 e 0) = edgeW 1 ei e) (n : Fin 100000) :
    dis (fun e => idx (ix2 e 0)) n = dis (edgeW 1 ei) n :=
  congrArg (fun f => dis f n) (funext hidx)

end Cert.Inputs

end
-- ==== Proof.Stretch.lean ====
/-
  The kernel program's aggregation stretch read at an entry: gather the table's rows at the sign-normalised source ids,
  widen (the identity over the extended reals), and segment-sum by the raw target ids into zeros. Entry `(n, j)` is the
  sum, over the edges whose target id read signed is `n`, of column `j` of the table's row named by the edge's source id.
-/
import proofs.«405428_j28441273434160_2_alg».proof.Proof.Spec
import proofs.«405428_j28441273434160_2_alg».proof.Proof.Inputs
import Idealize.ShloMosaic.Lib.Pipeline.Value
import Idealize.ShloMosaic.Lib.ValueIdx

noncomputable section

open scoped BigOperators

namespace Cert.Stretch

open Idealize.ShloMosaic Idealize.ShloMosaic.ValueIdx

/-- A vector broadcast to a column (`dims = [0]`) read at `(e, 0)` is the vector at `e`. -/
theorem bcastCol_apply {α : Type} {E : Nat}
    (hbc : (⟨1, ![E]⟩ : Shape).BroadcastsInDim ⟨2, ![E, 1]⟩ ![0])
    (v : (⟨1, ![E]⟩ : Shape).Idx → α) (e : Fin E) :
    broadcastInDim ⟨2, ![E, 1]⟩ ![0] hbc v (ix2 e 0) = v (ix1 e) := by
  apply broadcastInDim_apply
  intro a
  match a with
  | ⟨0, _⟩ =>
    show e.val = if E = 1 then 0 else e.val
    split
    · have := e.isLt; omega
    · rfl

/-- The splat of the zero word, broadcast, is `0` at every index. -/
theorem bcastZero_apply {t : Shape} (hb0 : (⟨0, ![]⟩ : Shape).BroadcastsInDim t ![]) (i : t.Idx) :
    broadcastInDim t ![] hb0 (constant (F := Ideal) ⟨0, ![]⟩ .f32 0x00000000#32) i = (0 : EReal) :=
  Ideal.ofBits_zero_f32

/-- The sign normalisation of an id vector against a broadcast constant `c`, read at an index. -/
theorem norm_apply {E : Nat} (hbE : (⟨0, ![]⟩ : Shape).BroadcastsInDim ⟨1, ![E]⟩ ![]) (c : BitVec 32)
    (srcv : IVec ⟨1, ![E]⟩ 32) (i : (⟨1, ![E]⟩ : Shape).Idx) :
    select (cmpi .slt srcv (broadcastInDim ⟨1, ![E]⟩ ![] hbE (constantI ⟨0, ![]⟩ 32 0#32)))
        (addi srcv (broadcastInDim ⟨1, ![E]⟩ ![] hbE (constantI ⟨0, ![]⟩ 32 c))) srcv i
      = Scalar.select (IntOp.cmpi .slt (srcv i) 0#32) (IntOp.addi (srcv i) c) (srcv i) :=
  rfl

/-- The stretch at any sizes: `row` is any function that sends an id word to the clamped row of its normalisation. -/
theorem agg_apply_gen {N E D : Nat} (hN : 0 < N) (c : BitVec 32) (row : BitVec 32 → Fin N)
    (hrow : ∀ w, row w = Spec.clampRow N hN (Scalar.select (IntOp.cmpi .slt w 0#32) (IntOp.addi w c) w))
    (dS : ScatterDims ⟨2, ![N, D]⟩ ⟨2, ![E, 1]⟩ ⟨2, ![E, D]⟩)
    (hS1 : dS.updateWindowDims = [1]) (hS2 : dS.insertedWindowDims = [0]) (hS3 : dS.scatterDimsToOperandDims = [0])
    (hS4 : dS.indexVectorDim = 1)
    (dG : GatherDims ⟨2, ![N, D]⟩ ⟨2, ![E, 1]⟩ ⟨2, ![E, D]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, D])
    (hb0 : (⟨0, ![]⟩ : Shape).BroadcastsInDim ⟨2, ![N, D]⟩ ![])
    (hbc : (⟨1, ![E]⟩ : Shape).BroadcastsInDim ⟨2, ![E, 1]⟩ ![0])
    (hbE : (⟨0, ![]⟩ : Shape).BroadcastsInDim ⟨1, ![E]⟩ ![])
    (hlt : FTy.bf16.bits < FTy.f32.bits)
    (tbl : FVec Ideal ⟨2, ![N, D]⟩ .bf16) (srcv dstv : IVec ⟨1, ![E]⟩ 32) (n : Fin N) (j : Fin D) :
    Host.scatterAdd (F := Ideal) dS
        (broadcastInDim ⟨2, ![N, D]⟩ ![] hb0 (constant (F := Ideal) ⟨0, ![]⟩ .f32 0x00000000#32))
        (broadcastInDim ⟨2, ![E, 1]⟩ ![0] hbc dstv)
        (extf .f32 (Host.gather dG tbl (broadcastInDim ⟨2, ![E, 1]⟩ ![0] hbc
          (select (cmpi .slt srcv (broadcastInDim ⟨1, ![E]⟩ ![] hbE (constantI ⟨0, ![]⟩ 32 0#32)))
            (addi srcv (broadcastInDim ⟨1, ![E]⟩ ![] hbE (constantI ⟨0, ![]⟩ 32 c))) srcv))) hlt)
        (ix2 n j)
      = (0 : EReal) + ∑ e ∈ Finset.univ.filter (fun e : Fin E => (dstv (ix1 e)).toInt = (n.val : ℤ)),
          tbl (ix2 (row (srcv (ix1 e))) j) := by
  refine (Spec.scatterRows_apply dS hS1 hS2 hS3 hS4 _ _ _ n j).trans ?_
  refine congrArg₂ (fun a b : EReal => a + b) (bcastZero_apply hb0 _) ?_
  simp only [bcastCol_apply hbc]
  refine Finset.sum_congr rfl fun e _ => ?_
  refine (Spec.gatherRows_apply hN dG hG1 hG2 hG3 hG4 hG5 hG6 hG7 tbl _ e j).trans ?_
  rw [bcastCol_apply hbc, norm_apply hbE c srcv (ix1 e), ← hrow]

/-- THE AGGREGATION STRETCH AT AN ENTRY, at the program's sizes. -/
theorem agg_apply
    (dS : ScatterDims ⟨2, ![100000, 128]⟩ ⟨2, ![1700000, 1]⟩ ⟨2, ![1700000, 128]⟩)
    (hS1 : dS.updateWindowDims = [1]) (hS2 : dS.insertedWindowDims = [0]) (hS3 : dS.scatterDimsToOperandDims = [0])
    (hS4 : dS.indexVectorDim = 1)
    (dG : GatherDims ⟨2, ![100000, 128]⟩ ⟨2, ![1700000, 1]⟩ ⟨2, ![1700000, 128]⟩)
    (hG1 : dG.offsetDims = [1]) (hG2 : dG.collapsedSliceDims = [0]) (hG3 : dG.operandBatchingDims = [])
    (hG4 : dG.startIndicesBatchingDims = []) (hG5 : dG.startIndexMap = [0]) (hG6 : dG.indexVectorDim = 1)
    (hG7 : dG.sliceSizes = ![1, 128])
    (hb0 : (⟨0, ![]⟩ : Shape).BroadcastsInDim ⟨2, ![100000, 128]⟩ ![])
    (hbc : (⟨1, ![1700000]⟩ : Shape).BroadcastsInDim ⟨2, ![1700000, 1]⟩ ![0])
    (hbE : (⟨0, ![]⟩ : Shape).BroadcastsInDim ⟨1, ![1700000]⟩ ![])
    (hlt : FTy.bf16.bits < FTy.f32.bits)
    (tbl : FVec Ideal ⟨2, ![100000, 128]⟩ .bf16) (srcv dstv : IVec ⟨1, ![1700000]⟩ 32) (n : Fin 100000) (j : Fin 128) :
    Host.scatterAdd (F := Ideal) dS
        (broadcastInDim ⟨2, ![100000, 128]⟩ ![] hb0 (constant (F := Ideal) ⟨0, ![]⟩ .f32 0x00000000#32))
        (broadcastInDim ⟨2, ![1700000, 1]⟩ ![0] hbc dstv)
        (extf .f32 (Host.gather dG tbl (broadcastInDim ⟨2, ![1700000, 1]⟩ ![0] hbc
          (select (cmpi .slt srcv (broadcastInDim ⟨1, ![1700000]⟩ ![] hbE (constantI ⟨0, ![]⟩ 32 0#32)))
            (addi srcv (broadcastInDim ⟨1, ![1700000]⟩ ![] hbE (constantI ⟨0, ![]⟩ 32 100000#32))) srcv))) hlt)
        (ix2 n j)
      = (0 : EReal) + ∑ e ∈ Finset.univ.filter (fun e : Fin 1700000 => (dstv (ix1 e)).toInt = (n.val : ℤ)),
          tbl (ix2 (Cert.Inputs.rowOf (srcv (ix1 e))) j) :=
  agg_apply_gen (N := 100000) (E := 1700000) (D := 128) (by omega) 100000#32 Cert.Inputs.rowOf (fun _ => rfl)
    dS hS1 hS2 hS3 hS4 dG hG1 hG2 hG3 hG4 hG5 hG6 hG7 hb0 hbc hbE hlt tbl srcv dstv n j

end Cert.Stretch

end
-- ==== Proof.Meet.lean ====
/-
  The two arrangements of the network (Model.lean) as functions of the nine argument ARRAYS as the programs hold them —
  features [100000,128], edge list [2,1600000] of id words, graph ids [100000], weights [128,128], bias [128], weights,
  bias, head weights [128,1], head bias [1] — with the edges' rows, the target ids and the degree factors made from
  the edge list as both programs make them (Inputs.lean). `kerOf_eq_refOf`: the two functions are equal.
-/
import proofs.«405428_j28441273434160_2_alg».proof.Proof.Model
import proofs.«405428_j28441273434160_2_alg».proof.Proof.Inputs

noncomputable section

namespace Cert.Meet

open Idealize.ShloMosaic Idealize.ShloMosaic.ValueIdx Cert.Model Cert.Inputs

section
variable (x0 : (⟨2, ![100000, 128]⟩ : Shape).Idx → EReal) (x1 : IVec ⟨2, ![2, 1600000]⟩ 32) (x2 : IVec ⟨1, ![100000]⟩ 32)
  (x3 : (⟨2, ![128, 128]⟩ : Shape).Idx → EReal) (x4 : (⟨1, ![128]⟩ : Shape).Idx → EReal)
  (x5 : (⟨2, ![128, 128]⟩ : Shape).Idx → EReal) (x6 : (⟨1, ![128]⟩ : Shape).Idx → EReal)
  (x7 : (⟨2, ![128, 1]⟩ : Shape).Idx → EReal) (x8 : (⟨1, ![1]⟩ : Shape).Idx → EReal)

/-- The reference's arrangement of the arrays: entry `g` of the result. -/
def refOf : (⟨1, ![512]⟩ : Shape).Idx → EReal := fun i =>
  Model.ref (fun k j => x3 (ix2 k j)) (fun j => x4 (ix1 j)) (fun k j => x5 (ix2 k j)) (fun j => x6 (ix1 j))
    (fun k => x7 (ix2 k 0)) (x8 (ix1 0))
    (fun e => rowOf (edgeW 0 x1 e)) (fun e => rowOf (edgeW 1 x1 e)) (edgeW 1 x1) (fun n => x2 (ix1 n)) (dis (edgeW 1 x1))
    (fun n k => x0 (ix2 n k)) (i 0)

/-- The kernel's arrangement of the arrays. -/
def kerOf : (⟨1, ![512]⟩ : Shape).Idx → EReal := fun i =>
  Model.ker (fun k j => x3 (ix2 k j)) (fun j => x4 (ix1 j)) (fun k j => x5 (ix2 k j)) (fun j => x6 (ix1 j))
    (fun k => x7 (ix2 k 0)) (x8 (ix1 0))
    (fun e => rowOf (edgeW 0 x1 e)) (edgeW 1 x1) (fun n => x2 (ix1 n)) (dis (edgeW 1 x1))
    (fun n k => x0 (ix2 n k)) (i 0)

theorem kerOf_eq_refOf : kerOf x0 x1 x2 x3 x4 x5 x6 x7 x8 = refOf x0 x1 x2 x3 x4 x5 x6 x7 x8 := by
  funext i
  exact Model.ker_eq_ref _ _ _ _ _ _ _ _ _ _ _ (fun n => dis_nonneg _ n) (fun e n h => rowOf_of_toInt _ n h) _ _

end

end Cert.Meet

end
-- ==== Proof.KI.Chain.lean ====
/-
  The kernel program's result as a function of its nine argument arrays: the boundary contents of the run are followed
  from launch to the end. The id arrays (edge list with self-loops appended) and the degree factors, made before the
  first region, reach every later boundary unchanged, and so do the arguments; region 0 leaves the first dense stage's
  table (the product, each row scaled by its degree factor); the host stretch after it leaves the segment sum of the
  table's gathered rows; region 1 leaves the second stage's table of the first layer's activations; the next stretch its
  segment sum; region 2 leaves, for every graph, the head of the second layer's activations pooled tile after tile; the
  last stretch flattens that column. Composed, the result is the kernel's arrangement of the network (Model.lean).
-/
import proofs.«405428_j28441273434160_2_alg».proof.Proof.KI.Host
import proofs.«405428_j28441273434160_2_alg».proof.Proof.KI.Ends
import proofs.«405428_j28441273434160_2_alg».proof.Proof.KI.Val0
import proofs.«405428_j28441273434160_2_alg».proof.Proof.KI.Val1
import proofs.«405428_j28441273434160_2_alg».proof.Proof.KI.Val2
import proofs.«405428_j28441273434160_2_alg».proof.Proof.Stretch
import proofs.«405428_j28441273434160_2_alg».proof.Proof.Inputs
import proofs.«405428_j28441273434160_2_alg».proof.Proof.Meet
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## The nine argument arrays by their literal types, and the network's ingredients made from them -/

abbrev a0 : S100000x128.Idx → EReal := m ((c.tc : Thread nD τ).loc main_arg0)
abbrev a1 : IVec S2x1600000 32 := m ((c.tc : Thread nD τ).loc main_arg1)
abbrev a2 : IVec S100000 32 := m ((c.tc : Thread nD τ).loc main_arg2)
abbrev a3 : S128x128.Idx → EReal := m ((c.tc : Thread nD τ).loc main_arg3)
abbrev a4 : S128.Idx → EReal := m ((c.tc : Thread nD τ).loc main_arg4)
abbrev a5 : S128x128.Idx → EReal := m ((c.tc : Thread nD τ).loc main_arg5)
abbrev a6 : S128.Idx → EReal := m ((c.tc : Thread nD τ).loc main_arg6)
abbrev a7 : S128x1.Idx → EReal := m ((c.tc : Thread nD τ).loc main_arg7)
abbrev a8 : S1.Idx → EReal := m ((c.tc : Thread nD τ).loc main_arg8)

/-- The source and the target id of every edge (self-loops appended). -/
abbrev srcW : Fin 1700000 → BitVec 32 := Cert.Inputs.edgeW 0 (a1 m c)
abbrev dstW : Fin 1700000 → BitVec 32 := Cert.Inputs.edgeW 1 (a1 m c)
/-- The row of the table an edge's source id names. -/
abbrev srcRowF : Fin 1700000 → Fin 100000 := fun e => Cert.Inputs.rowOf (srcW m c e)
/-- The degree factor of every node. -/
abbrev disF : Fin 100000 → EReal := Cert.Inputs.dis (dstW m c)
abbrev featF : Fin 100000 → Fin 128 → EReal := fun n k => a0 m c (ix2 n k)
abbrev w1F : Fin 128 → Fin 128 → EReal := fun k j => a3 m c (ix2 k j)
abbrev b1F : Fin 128 → EReal := fun j => a4 m c (ix1 j)
abbrev w2F : Fin 128 → Fin 128 → EReal := fun k j => a5 m c (ix2 k j)
abbrev b2F : Fin 128 → EReal := fun j => a6 m c (ix1 j)
abbrev wpF : Fin 128 → EReal := fun k => a7 m c (ix2 k 0)
abbrev bpF : EReal := a8 m c (ix1 0)
abbrev gidF : Fin 100000 → BitVec 32 := fun n => a2 m c (ix1 n)

/-- The first dense stage's table, its segment sum, the second stage's prologue, table and segment sum, the head's prologue. -/
abbrev kTbl1 : Fin 100000 → Fin 128 → EReal := Cert.Model.kerTable (disF m c) (featF m c) (w1F m c)
abbrev kAgg1 : Fin 100000 → Fin 128 → EReal := Cert.Model.kerAgg (srcRowF m c) (dstW m c) (kTbl1 m c)
abbrev kAct1 : Fin 100000 → Fin 128 → EReal := Cert.Model.kerPost (disF m c) (kAgg1 m c) (b1F m c)
abbrev kTbl2 : Fin 100000 → Fin 128 → EReal := Cert.Model.kerTable (disF m c) (kAct1 m c) (w2F m c)
abbrev kAgg2 : Fin 100000 → Fin 128 → EReal := Cert.Model.kerAgg (srcRowF m c) (dstW m c) (kTbl2 m c)
abbrev kAct2 : Fin 100000 → Fin 128 → EReal := Cert.Model.kerPost (disF m c) (kAgg2 m c) (b2F m c)

/-- The id arrays as functions of an index. -/
abbrev srcV : IVec S1700000 32 := fun i => srcW m c (i 0)
abbrev dstV : IVec S1700000 32 := fun i => dstW m c (i 0)

/-! ## The id arrays persist from the first stretch to every later boundary -/

theorem W1_src : Fr.W1 m ρ c (Proc.devRef .tc main_v3) = srcV m c := by
  rw [Fr.W1_v3]
  funext i
  obtain ⟨e, rfl⟩ : ∃ e, i = ix1 e := ⟨i 0, eq_ix1 i⟩
  exact Cert.Inputs.edges_src_apply (a1 m c) _ _ _ e

theorem W1_dst : Fr.W1 m ρ c (Proc.devRef .tc main_v6) = dstV m c := by
  rw [Fr.W1_v6]
  funext i
  obtain ⟨e, rfl⟩ : ∃ e, i = ix1 e := ⟨i 0, eq_ix1 i⟩
  exact Cert.Inputs.edges_dst_apply (a1 m c) _ _ _ e

theorem W4_src : Fr.W4 m ρ c (Proc.devRef .tc main_v3) = srcV m c :=
  (Fr.W4_of_ne m ρ c main_v3 (by decide)).trans <| (Fr.W3_of m ρ c main_v3 (by decide)).trans <|
    (Fr.W2_of m ρ c main_v3 (by decide)).trans (W1_src m ρ c)
theorem W4_dst : Fr.W4 m ρ c (Proc.devRef .tc main_v6) = dstV m c :=
  (Fr.W4_of_ne m ρ c main_v6 (by decide)).trans <| (Fr.W3_of m ρ c main_v6 (by decide)).trans <|
    (Fr.W2_of m ρ c main_v6 (by decide)).trans (W1_dst m ρ c)
theorem W6_src : Fr.W6 m ρ c (Proc.devRef .tc main_v3) = srcV m c :=
  (Fr.W6_of_ne m ρ c main_v3 (by decide)).trans <| (Fr.W5_of m ρ c main_v3 (by decide)).trans (W4_src m ρ c)
theorem W6_dst : Fr.W6 m ρ c (Proc.devRef .tc main_v6) = dstV m c :=
  (Fr.W6_of_ne m ρ c main_v6 (by decide)).trans <| (Fr.W5_of m ρ c main_v6 (by decide)).trans (W4_dst m ρ c)

/-! ## Shape casts between a vector and a one-column / one-row matrix, read at an index -/

theorem shapeCast_col_apply {α : Type} {N : Nat} (x : (⟨1, ![N]⟩ : Shape).Idx → α)
    (h : (⟨1, ![N]⟩ : Shape).ShapeCasts ⟨2, ![N, 1]⟩) (n : Fin N) :
    shapeCast ⟨2, ![N, 1]⟩ x h (ix2 n 0) = x (ix1 n) := by
  refine shapeCast_apply x h (ix2 n 0) (ix1 n) ?_
  rewrite [Shape.rowMajor_val_two, Shape.rowMajor_val_one]
  show n.val = n.val * 1 + 0
  omega

theorem shapeCast_row_apply {α : Type} {N : Nat} (x : (⟨1, ![N]⟩ : Shape).Idx → α)
    (h : (⟨1, ![N]⟩ : Shape).ShapeCasts ⟨2, ![1, N]⟩) (k : Fin N) :
    shapeCast ⟨2, ![1, N]⟩ x h (ix2 0 k) = x (ix1 k) := by
  refine shapeCast_apply x h (ix2 0 k) (ix1 k) ?_
  rewrite [Shape.rowMajor_val_two, Shape.rowMajor_val_one]
  show k.val = 0 * N + k.val
  omega

theorem shapeCast_flat_apply {α : Type} {N : Nat} (x : (⟨2, ![N, 1]⟩ : Shape).Idx → α)
    (h : (⟨2, ![N, 1]⟩ : Shape).ShapeCasts ⟨1, ![N]⟩) (g : Fin N) :
    shapeCast ⟨1, ![N]⟩ x h (ix1 g) = x (ix2 g 0) := by
  refine shapeCast_apply x h (ix1 g) (ix2 g 0) ?_
  rewrite [Shape.rowMajor_val_two, Shape.rowMajor_val_one]
  show g.val * 1 + 0 = g.val
  omega

/-! ## The degree factors as every region finds them -/

theorem W3_dis (n : Fin 100000) :
    (Fr.W3 m ρ c (Proc.devRef .tc main_v17) : S100000x1.Idx → EReal) (ix2 n 0) = disF m c n := by
  rw [Fr.W3_v17, shapeCast_col_apply, Fr.W2_v16]
  refine (Cert.Inputs.dis_apply scatter_S100000_S1700000x1_S1700000_n_0_0_1 rfl rfl rfl rfl _ _ _ n).trans ?_
  exact congrArg (fun d => Cert.Inputs.dis d n) (funext fun e =>
    (Cert.Inputs.bcastCol_apply _ _ e).trans (Cert.Inputs.edges_dst_apply (a1 m c) _ _ _ e))

theorem W5_v17 : Fr.W5 m ρ c (Proc.devRef .tc main_v17) = Fr.W3 m ρ c (Proc.devRef .tc main_v17) :=
  (Fr.W5_of m ρ c main_v17 (by decide)).trans (Fr.W4_in m ρ c 2 rfl)
theorem W7_v17 : Fr.W7 m ρ c (Proc.devRef .tc main_v17) = Fr.W3 m ρ c (Proc.devRef .tc main_v17) :=
  (Fr.W7_of m ρ c main_v17 (by decide)).trans <| (Fr.W6_in m ρ c 1 rfl).trans (W5_v17 m ρ c)

/-! ## The arguments as the regions and the stretches find them -/

theorem W3_arg0 : Fr.W3 m ρ c (Proc.devRef .tc main_arg0) = a0 m c :=
  (Fr.W3_of m ρ c main_arg0 (by decide)).trans <| (Fr.W2_of m ρ c main_arg0 (by decide)).trans <|
    (Fr.W1_of m ρ c main_arg0 (by decide)).trans rfl
theorem W3_arg3 : Fr.W3 m ρ c (Proc.devRef .tc main_arg3) = a3 m c :=
  (Fr.W3_of m ρ c main_arg3 (by decide)).trans <| (Fr.W2_of m ρ c main_arg3 (by decide)).trans <|
    (Fr.W1_of m ρ c main_arg3 (by decide)).trans rfl
theorem W4_arg4 : Fr.W4 m ρ c (Proc.devRef .tc main_arg4) = a4 m c :=
  (Fr.W4_of_ne m ρ c main_arg4 (by decide)).trans <| (Fr.W3_of m ρ c main_arg4 (by decide)).trans <|
    (Fr.W2_of m ρ c main_arg4 (by decide)).trans <| (Fr.W1_of m ρ c main_arg4 (by decide)).trans rfl
theorem W5_arg5 : Fr.W5 m ρ c (Proc.devRef .tc main_arg5) = a5 m c :=
  (Fr.W5_of m ρ c main_arg5 (by decide)).trans <| (Fr.W4_of_ne m ρ c main_arg5 (by decide)).trans <|
    (Fr.W3_of m ρ c main_arg5 (by decide)).trans <| (Fr.W2_of m ρ c main_arg5 (by decide)).trans <|
    (Fr.W1_of m ρ c main_arg5 (by decide)).trans rfl
theorem W6_arg2 : Fr.W6 m ρ c (Proc.devRef .tc main_arg2) = a2 m c :=
  (Fr.W6_of_ne m ρ c main_arg2 (by decide)).trans <| (Fr.W5_of m ρ c main_arg2 (by decide)).trans <|
    (Fr.W4_of_ne m ρ c main_arg2 (by decide)).trans <| (Fr.W3_of m ρ c main_arg2 (by decide)).trans <|
    (Fr.W2_of m ρ c main_arg2 (by decide)).trans <| (Fr.W1_of m ρ c main_arg2 (by decide)).trans rfl
theorem W6_arg6 : Fr.W6 m ρ c (Proc.devRef .tc main_arg6) = a6 m c :=
  (Fr.W6_of_ne m ρ c main_arg6 (by decide)).trans <| (Fr.W5_of m ρ c main_arg6 (by decide)).trans <|
    (Fr.W4_of_ne m ρ c main_arg6 (by decide)).trans <| (Fr.W3_of m ρ c main_arg6 (by decide)).trans <|
    (Fr.W2_of m ρ c main_arg6 (by decide)).trans <| (Fr.W1_of m ρ c main_arg6 (by decide)).trans rfl
theorem W6_arg8 : Fr.W6 m ρ c (Proc.devRef .tc main_arg8) = a8 m c :=
  (Fr.W6_of_ne m ρ c main_arg8 (by decide)).trans <| (Fr.W5_of m ρ c main_arg8 (by decide)).trans <|
    (Fr.W4_of_ne m ρ c main_arg8 (by decide)).trans <| (Fr.W3_of m ρ c main_arg8 (by decide)).trans <|
    (Fr.W2_of m ρ c main_arg8 (by decide)).trans <| (Fr.W1_of m ρ c main_arg8 (by decide)).trans rfl
theorem W7_arg7 : Fr.W7 m ρ c (Proc.devRef .tc main_arg7) = a7 m c :=
  (Fr.W7_of m ρ c main_arg7 (by decide)).trans <| (Fr.W6_of_ne m ρ c main_arg7 (by decide)).trans <|
    (Fr.W5_of m ρ c main_arg7 (by decide)).trans <| (Fr.W4_of_ne m ρ c main_arg7 (by decide)).trans <|
    (Fr.W3_of m ρ c main_arg7 (by decide)).trans <| (Fr.W2_of m ρ c main_arg7 (by decide)).trans <|
    (Fr.W1_of m ρ c main_arg7 (by decide)).trans rfl

/-- The first layer's bias as region 1 finds it: a row. -/
theorem W5_bias (k : Fin 128) : (Fr.W5 m ρ c (Proc.devRef .tc main_v30) : S1x128.Idx → EReal) (ix2 0 k) = b1F m c k := by
  rw [Fr.W5_v30, shapeCast_row_apply, W4_arg4]
/-- The graph ids as region 2 finds them: a column. -/
theorem W7_gid (n : Fin 100000) : (Fr.W7 m ρ c (Proc.devRef .tc main_v43) : S100000x1.Idx → BitVec 32) (ix2 n 0) = gidF m c n := by
  rw [Fr.W7_v43, shapeCast_col_apply, W6_arg2]
/-- The head's bias as region 2 finds it. -/
theorem W7_hb : (Fr.W7 m ρ c (Proc.devRef .tc main_v44) : S1x1.Idx → EReal) (ix2 0 0) = bpF m c := by
  rw [Fr.W7_v44, shapeCast_col_apply, W6_arg8]
/-- The second layer's bias as region 2 finds it: a row. -/
theorem W7_bias (j : Fin 128) : (Fr.W7 m ρ c (Proc.devRef .tc main_v45) : S1x128.Idx → EReal) (ix2 0 j) = b2F m c j := by
  rw [Fr.W7_v45, shapeCast_row_apply, W6_arg6]

/-! ## Region 0's table, the first segment sum, region 1's table, the second segment sum -/

theorem W4_tbl (n : Fin 100000) (j : Fin 128) :
    (Fr.W4 m ρ c (Proc.devRef .tc main_v18) : S100000x128.Idx → EReal) (ix2 n j) = kTbl1 m c n j := by
  rw [show Fr.W4 m ρ c (Proc.devRef .tc main_v18) = (Fr.dat0 (Fr.V3 m ρ) c).arrAt 3 cfg0.N from Fr.W4_arr m ρ c 3]
  rw [arr0 (Fr.V3 m ρ) c n j]
  rw [show feat0 (Fr.V3 m ρ) c = a0 m c from W3_arg0 m ρ c, show wgt0 (Fr.V3 m ρ) c = a3 m c from W3_arg3 m ρ c,
    show deg0 (Fr.V3 m ρ) c (ix2 n 0) = disF m c n from W3_dis m ρ c n]
  rfl

theorem W5_agg (n : Fin 100000) (j : Fin 128) :
    (Fr.W5 m ρ c (Proc.devRef .tc main_v29) : S100000x128.Idx → EReal) (ix2 n j) = kAgg1 m c n j := by
  rw [Fr.W5_v29, W4_src, W4_dst]
  refine (Cert.Stretch.agg_apply _ rfl rfl rfl rfl _ rfl rfl rfl rfl rfl rfl rfl _ _ _ _ _ (srcV m c) (dstV m c) n j).trans ?_
  refine congrArg (fun z : EReal => 0 + z) (Finset.sum_congr rfl fun e _ => ?_)
  exact W4_tbl m ρ c _ j

theorem W6_tbl (n : Fin 100000) (j : Fin 128) :
    (Fr.W6 m ρ c (Proc.devRef .tc main_v31) : S100000x128.Idx → EReal) (ix2 n j) = kTbl2 m c n j := by
  rw [show Fr.W6 m ρ c (Proc.devRef .tc main_v31) = (Fr.dat1 (Fr.V5 m ρ) c).arrAt 4 cfg1.N from Fr.W6_arr m ρ c 4]
  rw [arr1 (Fr.V5 m ρ) c n j]
  rw [show wgt1 (Fr.V5 m ρ) c = a5 m c from W5_arg5 m ρ c,
    show deg1 (Fr.V5 m ρ) c (ix2 n 0) = disF m c n from (congrFun (W5_v17 m ρ c) _).trans (W3_dis m ρ c n)]
  refine congrArg (fun z : EReal => z * disF m c n) (Finset.sum_congr rfl fun k _ => ?_)
  rw [show msg1 (Fr.V5 m ρ) c (ix2 n k) = kAgg1 m c n k from W5_agg m ρ c n k,
    show bias1 (Fr.V5 m ρ) c (ix2 0 k) = b1F m c k from W5_bias m ρ c k]
  rfl

theorem W7_agg (n : Fin 100000) (j : Fin 128) :
    (Fr.W7 m ρ c (Proc.devRef .tc main_v42) : S100000x128.Idx → EReal) (ix2 n j) = kAgg2 m c n j := by
  rw [Fr.W7_v42, W6_src, W6_dst]
  refine (Cert.Stretch.agg_apply _ rfl rfl rfl rfl _ rfl rfl rfl rfl rfl rfl rfl _ _ _ _ _ (srcV m c) (dstV m c) n j).trans ?_
  refine congrArg (fun z : EReal => 0 + z) (Finset.sum_congr rfl fun e _ => ?_)
  exact W6_tbl m ρ c _ j

/-! ## Region 2's output, and the result -/

theorem W8_head (g : Fin 512) :
    (Fr.W8 m ρ c (Proc.devRef .tc main_v46) : S512x1.Idx → EReal) (ix2 g 0)
      = Cert.Model.kerHead (wpF m c) (bpF m c) (gidF m c) (kAct2 m c) g := by
  rw [show Fr.W8 m ρ c (Proc.devRef .tc main_v46) = (Fr.dat2 (Fr.V7 m ρ) c).arrAt 6 cfg2.N from Fr.W8_arr m ρ c 6]
  rw [arr2 (Fr.V7 m ρ) c g]
  have e1 : (fun k => hw2 (Fr.V7 m ρ) c (ix2 k 0)) = wpF m c := funext fun k => congrFun (W7_arg7 m ρ c) _
  have e2 : hb2 (Fr.V7 m ρ) c (ix2 0 0) = bpF m c := W7_hb m ρ c
  have e3 : (fun n => gid2 (Fr.V7 m ρ) c (ix2 n 0)) = gidF m c := funext fun n => W7_gid m ρ c n
  have e4 : act2 (Fr.V7 m ρ) c = kAct2 m c := funext fun n => funext fun j => by
    show max (agg2 (Fr.V7 m ρ) c (ix2 n j) * deg2 (Fr.V7 m ρ) c (ix2 n 0) + bias2 (Fr.V7 m ρ) c (ix2 0 j)) 0 = _
    rw [show agg2 (Fr.V7 m ρ) c (ix2 n j) = kAgg2 m c n j from W7_agg m ρ c n j,
      show deg2 (Fr.V7 m ρ) c (ix2 n 0) = disF m c n from (congrFun (W7_v17 m ρ c) _).trans (W3_dis m ρ c n),
      show bias2 (Fr.V7 m ρ) c (ix2 0 j) = b2F m c j from W7_bias m ρ c j]
    rfl
  rw [e1, e2, e3, e4]

/-- THE RESULT: the result buffer ends at the kernel's arrangement of the nine argument arrays. -/
theorem kernel_result :
    Fr.W9 m ρ c (Proc.devRef .tc main_v47)
      = Cert.Meet.kerOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [Fr.W9_v47]
  funext i
  obtain ⟨g, rfl⟩ : ∃ g, i = ix1 g := ⟨i 0, eq_ix1 i⟩
  rw [shapeCast_flat_apply, W8_head]
  rfl

end Cert.KernelIdeal.Val

end
-- ==== Proof.LibRunConcat.lean ====
import Idealize.ShloMosaic.Lib.StableHlo.Run

/-!
# Reading a line of operations through its concatenations

General facts for reading the result of a straight line of host operations (`StableHlo.after`) as a composed term of
the launch contents when the line holds concatenations of COMPUTED operands.

* `concatenate t a xs h` takes its operands as ONE list `xs`, and the shape condition `h` is stated about the
  shapes in that list. The operation is also a function of the result index, so a congruence stated for the operation
  as a function of all its arguments does not apply to it as a value, and a rewrite of an operand has to be a rewrite
  inside the list. For a list of two or of three operands the condition does not mention the operands at all, and
  the operands may be rewritten one by one: `concatenate_congr_pair`, `concatenate_congr_triple`.
* An operation over a literal FAMILY of references, `nary ![r₀, r₁, …] y f`, has the result
  `f fun k => V ↑(![r₀, r₁, …] k)`; where `f` reads its operands at numerals, operand `k` is the contents at
  `![r₀, r₁, …] k`, which IS the reference `rₖ` by the definition of the family. `read_families` selects these
  entries, so that each operand stands at its own literal reference and the result lemmas of the operations before it
  apply to it. The step is definitional: nothing is assumed, the new goal is the old one with the entries selected.
-/

namespace Idealize.ShloMosaic

/-- The operands of a two-operand concatenation may be rewritten (the shape condition is about the shapes only). -/
theorem concatenate_congr_pair {α : Type} {t : Shape} {a : Fin t.rank} {s0 s1 : Shape}
    {x0 y0 : s0.Idx → α} {x1 y1 : s1.Idx → α} (h : Shape.Concatenates [s0, s1] t a)
    (e0 : x0 = y0) (e1 : x1 = y1) :
    concatenate t a [⟨s0, x0⟩, ⟨s1, x1⟩] h = concatenate t a [⟨s0, y0⟩, ⟨s1, y1⟩] h := by
  subst e0 e1; rfl

/-- The operands of a three-operand concatenation may be rewritten. -/
theorem concatenate_congr_triple {α : Type} {t : Shape} {a : Fin t.rank} {s0 s1 s2 : Shape}
    {x0 y0 : s0.Idx → α} {x1 y1 : s1.Idx → α} {x2 y2 : s2.Idx → α} (h : Shape.Concatenates [s0, s1, s2] t a)
    (e0 : x0 = y0) (e1 : x1 = y1) (e2 : x2 = y2) :
    concatenate t a [⟨s0, x0⟩, ⟨s1, x1⟩, ⟨s2, x2⟩] h = concatenate t a [⟨s0, y0⟩, ⟨s1, y1⟩, ⟨s2, y2⟩] h := by
  subst e0 e1 e2; rfl

namespace StableHlo

section ReadFamilies
open Lean Meta Elab Tactic

/-- The `k`-th entry of a literal family `![r₀, r₁, …]`, read off its spelling. -/
def familyEntry? (v : Expr) : Nat → Option Expr
  | 0 => if v.isAppOfArity ``Matrix.vecCons 4 then some (v.getArg! 2) else none
  | k + 1 => if v.isAppOfArity ``Matrix.vecCons 4 then familyEntry? (v.getArg! 3) k else none

/-- Reads every literal family at a numeral index, `![r₀, r₁, …] k`, as its entry `rₖ`: a definitional step (the new
    goal is the old one with these entries selected), after which each operand of an operation over a family of
    references stands at its own literal reference. -/
elab "read_families" : tactic => do
  let g ← getMainGoal
  let t ← instantiateMVars (← g.getType)
  let t' := t.replace fun e =>
    if e.isAppOfArity ``Matrix.vecCons 5 then
      match e.appArg!.nat? with
      | some k => familyEntry? e.appFn! k
      | none => none
    else none
  replaceMainGoal [← g.replaceTargetDefEq t']

end ReadFamilies

/-- The results of a line of operations through its concatenations: one simplification pass, the literal families of
    references read at their numerals, a second pass for the operands that then stand at literal references, and the
    typed references' transports (the identity at a literal reference) removed. To be run where
    `concatenate_congr_pair` and `concatenate_congr_triple` are congruence rules of the simplifier
    (`attribute [local congr]`). -/
macro "after_results_through_concat" : tactic =>
  `(tactic| (after_results_simp
             try (read_families; after_results_simp)
             try simp only [TRef.ofBuf, TRef.toBuf, cast_eq]))

end StableHlo

end Idealize.ShloMosaic
-- ==== Proof.Ref0.lean ====
/-
  The reference's integer stages and degree factor, read at an index: the edge list with the self-loops appended
  (source ids, target ids), each id's sign normalisation before a lookup, the degree of a node as the sum of ones over
  the edges whose target id is that node, the degree factor `deg^(-1/2)` (0 where the degree is 0), the factor looked
  up at an edge's source row and at its target row, and the product of the two, the edge's weight.
-/
import proofs.«405428_j28441273434160_2_alg».proof.Proof.RefRead
import proofs.«405428_j28441273434160_2_alg».proof.Proof.Inputs
import proofs.«405428_j28441273434160_2_alg».proof.Proof.Spec
import Idealize.ShloMosaic.Lib.IdealHost

set_option pp.maxSteps 5000
set_option pp.deepTerms false

noncomputable section

open scoped BigOperators

namespace Cert.ReferenceIdeal.Ref

open Cert.ReferenceIdeal Cert.ReferenceIdeal.Gen Idealize.ShloMosaic Idealize.ShloMosaic.ValueIdx Cert.Spec Cert.Inputs
open Cert.ReferenceIdeal.ReadP

/-- An index function into a vector that reads coordinate 0 of `ix2 e c` is `ix1 e`. -/
local macro "idx1" : tactic => `(tactic| (funext a; match a with | ⟨0, _⟩ => rfl))

/-! ### Two general facts about a segment sum, at any sizes -/

/-- The host's accumulating scatter of rows, at the ideal instance, read at an index. -/
theorem scatterRows_host {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ 32) (upd : (⟨2, ![E, D]⟩ : Shape).Idx → EReal)
    (n : Fin N) (j : Fin D) :
    Host.scatterAdd (F := Ideal) (φ := .f32) d x idx upd (ix2 n j)
      = x (ix2 n j) + ∑ e ∈ Finset.univ.filter (fun e : Fin E => (idx (ix2 e 0)).toInt = (n.val : ℤ)), upd (ix2 e j) :=
  scatterRows_apply d h1 h2 h3 h4 x idx upd n j

/-- A segment sum's start value, ids and summands may be replaced entry by entry. -/
theorem seg_congr {E : Nat} (a a' : EReal) (idx idx' : Fin E → BitVec 32) (u u' : Fin E → EReal) (z : ℤ)
    (ha : a = a') (hidx : ∀ e, idx e = idx' e) (hu : ∀ e, u e = u' e) :
    a + ∑ e ∈ Finset.univ.filter (fun e : Fin E => (idx e).toInt = z), u e
      = a' + ∑ e ∈ Finset.univ.filter (fun e : Fin E => (idx' e).toInt = z), u' e := by
  obtain rfl : idx = idx' := funext hidx
  obtain rfl : u = u' := funext hu
  rw [ha]

variable (x1 : (⟨S2x1600000, .i32⟩ : BufTy).Contents (Elt Ideal))

/-! ### The edge list with the self-loops appended -/

theorem v3_at (e : Fin 1700000) : val_main_v3 (F := Ideal) x1 (ix1 e) = edgeW 0 x1 e :=
  edges_src_apply x1 slices_S2x1600000_S1x1600000_0_0 shapeCasts_S1x1600000_S1600000
    concatenates_S1600000_S100000_S1700000_d0 e

theorem v6_at (e : Fin 1700000) : val_main_v6 (F := Ideal) x1 (ix1 e) = edgeW 1 x1 e :=
  edges_dst_apply x1 slices_S2x1600000_S1x1600000_1_0 shapeCasts_S1x1600000_S1600000
    concatenates_S1600000_S100000_S1700000_d0 e

/-! ### The raw target ids as a column (the segment sums' ids) -/

theorem v9_at (e : Fin 1700000) : val_main_v9 (F := Ideal) x1 (ix2 e 0) = edgeW 1 x1 e := by
  rw [val_main_v9_apply, show idx_main_v9 (ix2 e 0) = ix1 e from by idx1, v6_at]

theorem v44_at (e : Fin 1700000) : val_main_v44 (F := Ideal) x1 (ix2 e 0) = edgeW 1 x1 e := by
  rw [val_main_v44_apply, show idx_main_v44 (ix2 e 0) = ix1 e from by idx1, v6_at]

theorem v77_at (e : Fin 1700000) : val_main_v77 (F := Ideal) x1 (ix2 e 0) = edgeW 1 x1 e := by
  rw [val_main_v77_apply, show idx_main_v77 (ix2 e 0) = ix1 e from by idx1, v6_at]

/-! ### The normalised ids as a column (the lookups' ids) -/

theorem v23_at (e : Fin 1700000) : val_main_v23 (F := Ideal) x1 (ix2 e 0) = normW (edgeW 0 x1 e) := by
  rw [val_main_v23_apply, show idx_main_v23 (ix2 e 0) = ix1 e from by idx1, val_main_v22_apply,
    val_main_v19_apply, val_main_v21_apply, val_main_v18_apply, val_main_c_apply, val_main_v20_apply,
    val_main_c_4_apply, v3_at]
  unfold normW
  with_reducible rfl

theorem v30_at (e : Fin 1700000) : val_main_v30 (F := Ideal) x1 (ix2 e 0) = normW (edgeW 1 x1 e) := by
  rw [val_main_v30_apply, show idx_main_v30 (ix2 e 0) = ix1 e from by idx1, val_main_v29_apply,
    val_main_v26_apply, val_main_v28_apply, val_main_v25_apply, val_main_c_5_apply, val_main_v27_apply,
    val_main_c_6_apply, v6_at]
  unfold normW
  with_reducible rfl

theorem v38_at (e : Fin 1700000) : val_main_v38 (F := Ideal) x1 (ix2 e 0) = normW (edgeW 0 x1 e) := by
  rw [val_main_v38_apply, show idx_main_v38 (ix2 e 0) = ix1 e from by idx1, val_main_v37_apply,
    val_main_v34_apply, val_main_v36_apply, val_main_v33_apply, val_main_c_7_apply, val_main_v35_apply,
    val_main_c_8_apply, v3_at]
  unfold normW
  with_reducible rfl

theorem v56_at (e : Fin 1700000) : val_main_v56 (F := Ideal) x1 (ix2 e 0) = normW (edgeW 0 x1 e) := by
  rw [val_main_v56_apply, show idx_main_v56 (ix2 e 0) = ix1 e from by idx1, val_main_v55_apply,
    val_main_v52_apply, val_main_v54_apply, val_main_v51_apply, val_main_c_10_apply, val_main_v53_apply,
    val_main_c_11_apply, v3_at]
  unfold normW
  with_reducible rfl

theorem v63_at (e : Fin 1700000) : val_main_v63 (F := Ideal) x1 (ix2 e 0) = normW (edgeW 1 x1 e) := by
  rw [val_main_v63_apply, show idx_main_v63 (ix2 e 0) = ix1 e from by idx1, val_main_v62_apply,
    val_main_v59_apply, val_main_v61_apply, val_main_v58_apply, val_main_c_12_apply, val_main_v60_apply,
    val_main_c_13_apply, v6_at]
  unfold normW
  with_reducible rfl

theorem v71_at (e : Fin 1700000) : val_main_v71 (F := Ideal) x1 (ix2 e 0) = normW (edgeW 0 x1 e) := by
  rw [val_main_v71_apply, show idx_main_v71 (ix2 e 0) = ix1 e from by idx1, val_main_v70_apply,
    val_main_v67_apply, val_main_v69_apply, val_main_v66_apply, val_main_c_14_apply, val_main_v68_apply,
    val_main_c_15_apply, v3_at]
  unfold normW
  with_reducible rfl

/-! ### The degree factor -/

theorem v16_at (n : Fin 100000) : val_main_v16 (F := Ideal) x1 (ix1 n) = dis (edgeW 1 x1) n :=
  (dis_apply scatter_S100000_S1700000x1_S1700000_n_0_0_1 rfl rfl rfl rfl bcast_S_S100000 bcast_S_S1700000
    (val_main_v9 (F := Ideal) x1) n).trans (dis_of_col _ x1 (v9_at x1) n)

/-! ### The factor at an edge's source row and target row, and the edge's weight -/

theorem v24_at (e : Fin 1700000) :
    val_main_v24 (F := Ideal) x1 (ix1 e) = dis (edgeW 1 x1) (rowOf (edgeW 0 x1 e)) :=
  (gatherVec_apply (by decide) gather_S100000_S1700000x1_S1700000_n_0_n_n_0_1_1 rfl rfl rfl rfl rfl rfl rfl
    (val_main_v16 (F := Ideal) x1) (val_main_v23 (F := Ideal) x1) e).trans (by
      rw [v23_at, v16_at]
      unfold rowOf
      with_reducible rfl)

theorem v31_at (e : Fin 1700000) :
    val_main_v31 (F := Ideal) x1 (ix1 e) = dis (edgeW 1 x1) (rowOf (edgeW 1 x1 e)) :=
  (gatherVec_apply (by decide) gather_S100000_S1700000x1_S1700000_n_0_n_n_0_1_1 rfl rfl rfl rfl rfl rfl rfl
    (val_main_v16 (F := Ideal) x1) (val_main_v30 (F := Ideal) x1) e).trans (by
      rw [v30_at, v16_at]
      unfold rowOf
      with_reducible rfl)

theorem v57_at (e : Fin 1700000) :
    val_main_v57 (F := Ideal) x1 (ix1 e) = dis (edgeW 1 x1) (rowOf (edgeW 0 x1 e)) :=
  (gatherVec_apply (by decide) gather_S100000_S1700000x1_S1700000_n_0_n_n_0_1_1 rfl rfl rfl rfl rfl rfl rfl
    (val_main_v16 (F := Ideal) x1) (val_main_v56 (F := Ideal) x1) e).trans (by
      rw [v56_at, v16_at]
      unfold rowOf
      with_reducible rfl)

theorem v64_at (e : Fin 1700000) :
    val_main_v64 (F := Ideal) x1 (ix1 e) = dis (edgeW 1 x1) (rowOf (edgeW 1 x1 e)) :=
  (gatherVec_apply (by decide) gather_S100000_S1700000x1_S1700000_n_0_n_n_0_1_1 rfl rfl rfl rfl rfl rfl rfl
    (val_main_v16 (F := Ideal) x1) (val_main_v63 (F := Ideal) x1) e).trans (by
      rw [v63_at, v16_at]
      unfold rowOf
      with_reducible rfl)

theorem v32_at (e : Fin 1700000) :
    val_main_v32 (F := Ideal) x1 (ix1 e)
      = dis (edgeW 1 x1) (rowOf (edgeW 0 x1 e)) * dis (edgeW 1 x1) (rowOf (edgeW 1 x1 e)) := by
  rw [val_main_v32_apply, v24_at, v31_at, Ideal.mulf_def]

theorem v41_at (e : Fin 1700000) (j : Fin 128) :
    val_main_v41 (F := Ideal) x1 (ix2 e j)
      = dis (edgeW 1 x1) (rowOf (edgeW 0 x1 e)) * dis (edgeW 1 x1) (rowOf (edgeW 1 x1 e)) := by
  rw [val_main_v41_apply, val_main_v40_apply,
    show idx_main_v40 (idx_main_v41 (ix2 e j)) = ix1 e from by idx1, v32_at]

theorem v65_at (e : Fin 1700000) :
    val_main_v65 (F := Ideal) x1 (ix1 e)
      = dis (edgeW 1 x1) (rowOf (edgeW 0 x1 e)) * dis (edgeW 1 x1) (rowOf (edgeW 1 x1 e)) := by
  rw [val_main_v65_apply, v57_at, v64_at, Ideal.mulf_def]

theorem v74_at (e : Fin 1700000) (j : Fin 128) :
    val_main_v74 (F := Ideal) x1 (ix2 e j)
      = dis (edgeW 1 x1) (rowOf (edgeW 0 x1 e)) * dis (edgeW 1 x1) (rowOf (edgeW 1 x1 e)) := by
  rw [val_main_v74_apply, val_main_v73_apply,
    show idx_main_v73 (idx_main_v74 (ix2 e j)) = ix1 e from by idx1, v65_at]

end Cert.ReferenceIdeal.Ref

end
-- ==== Proof.Ref1.lean ====
/-
  The reference's first convolution read at an index: the dense product of the features with the weights, each edge's
  message (the product's row at the source times the edge's weight), the messages summed per target id, the bias, the
  clamp at zero: `Model.refLayer` of the features.
-/
import proofs.«405428_j28441273434160_2_alg».proof.Proof.Ref0
import proofs.«405428_j28441273434160_2_alg».proof.Proof.Model

set_option pp.maxSteps 5000
set_option pp.deepTerms false

noncomputable section

open scoped BigOperators

namespace Cert.ReferenceIdeal.Ref

open Cert.ReferenceIdeal Cert.ReferenceIdeal.Gen Idealize.ShloMosaic Idealize.ShloMosaic.ValueIdx Cert.Spec Cert.Inputs Cert.Model
open Cert.ReferenceIdeal.ReadP

local macro "idx1" : tactic => `(tactic| (funext a; match a with | ⟨0, _⟩ => rfl))
local macro "idx2" : tactic => `(tactic| (funext a; match a with | ⟨0, _⟩ => rfl | ⟨1, _⟩ => rfl))

variable (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))

/-- The dense product at a node and a column. -/
theorem v17_at (n : Fin 100000) (j : Fin 128) :
    val_main_v17 (F := Ideal) x0 x3 (ix2 n j) = mm (fun n k => x0 (ix2 n k)) (fun k j => x3 (ix2 k j)) n j := by
  rw [val_main_v17_apply]
  unfold mm
  refine Finset.sum_congr rfl fun k _ => ?_
  rw [show lidx_main_v17 (ix2 n j) k = ix2 n k from by idx2, show ridx_main_v17 (ix2 n j) k = ix2 k j from by idx2]

/-- The product's row at an edge's source row. -/
theorem v39_at (e : Fin 1700000) (j : Fin 128) :
    val_main_v39 (F := Ideal) x0 x1 x3 (ix2 e j)
      = mm (fun n k => x0 (ix2 n k)) (fun k j => x3 (ix2 k j)) (rowOf (edgeW 0 x1 e)) j :=
  (gatherRows_apply (N := 100000) (E := 1700000) (D := 128) (by decide)
    gather_S100000x128_S1700000x1_S1700000x128_1_0_n_n_0_1_1128 rfl rfl rfl rfl rfl rfl rfl
    (val_main_v17 (F := Ideal) x0 x3) (val_main_v38 (F := Ideal) x1) e j).trans (by
      rw [v38_at, v17_at]
      unfold rowOf
      with_reducible rfl)

/-- The message of an edge: the source's row times the edge's weight. -/
theorem v42_at (e : Fin 1700000) (j : Fin 128) :
    val_main_v42 (F := Ideal) x0 x1 x3 (ix2 e j)
      = mm (fun n k => x0 (ix2 n k)) (fun k j => x3 (ix2 k j)) (rowOf (edgeW 0 x1 e)) j
        * (dis (edgeW 1 x1) (rowOf (edgeW 0 x1 e)) * dis (edgeW 1 x1) (rowOf (edgeW 1 x1 e))) := by
  rw [val_main_v42_apply, v39_at, v41_at, Ideal.mulf_def]

/-- The segment sum starts from zero. -/
theorem v43_at (i : S100000x128.Idx) : val_main_v43 (F := Ideal) i = (0 : EReal) := by
  rw [val_main_v43_apply, val_main_cst_9_apply, Ideal.ofBits_def, Ideal.ofBits_zero_f32]

/-- The messages summed per target id. -/
theorem v45_at (n : Fin 100000) (j : Fin 128) :
    val_main_v45 (F := Ideal) x0 x1 x3 (ix2 n j)
      = (0 : EReal) + ∑ e ∈ Finset.univ.filter (fun e : Fin 1700000 => (edgeW 1 x1 e).toInt = (n.val : ℤ)),
          mm (fun n k => x0 (ix2 n k)) (fun k j => x3 (ix2 k j)) (rowOf (edgeW 0 x1 e)) j
            * (dis (edgeW 1 x1) (rowOf (edgeW 0 x1 e)) * dis (edgeW 1 x1) (rowOf (edgeW 1 x1 e))) :=
  (scatterRows_host (N := 100000) (E := 1700000) (D := 128) scatter_S100000x128_S1700000x1_S1700000x128_1_0_0_1
    rfl rfl rfl rfl (val_main_v43 (F := Ideal)) (val_main_v44 (F := Ideal) x1)
    (val_main_v42 (F := Ideal) x0 x1 x3) n j).trans
    (seg_congr _ _ (fun e => val_main_v44 (F := Ideal) x1 (ix2 e 0)) (edgeW 1 x1)
      (fun e => val_main_v42 (F := Ideal) x0 x1 x3 (ix2 e j)) _ _ (v43_at (ix2 n j)) (v44_at x1)
      (fun e => v42_at x0 x1 x3 e j))

/-- The layer: the sum plus the bias, clamped at zero. -/
theorem v49_at (n : Fin 100000) (j : Fin 128) :
    val_main_v49 (F := Ideal) x0 x1 x3 x4 (ix2 n j)
      = refLayer (fun e => rowOf (edgeW 0 x1 e)) (fun e => rowOf (edgeW 1 x1 e)) (edgeW 1 x1) (dis (edgeW 1 x1))
          (fun n k => x0 (ix2 n k)) (fun k j => x3 (ix2 k j)) (fun j => x4 (ix1 j)) n j := by
  rw [val_main_v49_apply, val_main_v48_apply, val_main_v47_apply, val_main_v46_apply,
    show idx_main_v46 (idx_main_v47 (ix2 n j)) = ix1 j from by idx1,
    val_main_call1_v0_apply, val_main_call1_cst_apply, Ideal.ofBits_def, Ideal.ofBits_zero_f32, Ideal.maximumf_def,
    Ideal.addf_def, v45_at]
  unfold refLayer into
  with_reducible rfl

end Cert.ReferenceIdeal.Ref

end
-- ==== Proof.Ref2.lean ====
/-
  The reference's second convolution read at an index, over the first one's output: `Model.refLayer` of it.
-/
import proofs.«405428_j28441273434160_2_alg».proof.Proof.Ref0
import proofs.«405428_j28441273434160_2_alg».proof.Proof.Model

set_option pp.maxSteps 5000
set_option pp.deepTerms false

noncomputable section

open scoped BigOperators

namespace Cert.ReferenceIdeal.Ref

open Cert.ReferenceIdeal Cert.ReferenceIdeal.Gen Idealize.ShloMosaic Idealize.ShloMosaic.ValueIdx Cert.Spec Cert.Inputs Cert.Model
open Cert.ReferenceIdeal.ReadP

local macro "idx1" : tactic => `(tactic| (funext a; match a with | ⟨0, _⟩ => rfl))
local macro "idx2" : tactic => `(tactic| (funext a; match a with | ⟨0, _⟩ => rfl | ⟨1, _⟩ => rfl))

variable (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-- The dense product at a node and a column. -/
theorem v50_at (n : Fin 100000) (j : Fin 128) :
    val_main_v50 (F := Ideal) x0 x1 x3 x4 x5 (ix2 n j) = mm (fun n k => val_main_v49 (F := Ideal) x0 x1 x3 x4 (ix2 n k)) (fun k j => x5 (ix2 k j)) n j := by
  rw [val_main_v50_apply]
  unfold mm
  refine Finset.sum_congr rfl fun k _ => ?_
  rw [show lidx_main_v50 (ix2 n j) k = ix2 n k from by idx2, show ridx_main_v50 (ix2 n j) k = ix2 k j from by idx2]

/-- The product's row at an edge's source row. -/
theorem v72_at (e : Fin 1700000) (j : Fin 128) :
    val_main_v72 (F := Ideal) x0 x1 x3 x4 x5 (ix2 e j)
      = mm (fun n k => val_main_v49 (F := Ideal) x0 x1 x3 x4 (ix2 n k)) (fun k j => x5 (ix2 k j)) (rowOf (edgeW 0 x1 e)) j :=
  (gatherRows_apply (N := 100000) (E := 1700000) (D := 128) (by decide)
    gather_S100000x128_S1700000x1_S1700000x128_1_0_n_n_0_1_1128 rfl rfl rfl rfl rfl rfl rfl
    (val_main_v50 (F := Ideal) x0 x1 x3 x4 x5) (val_main_v71 (F := Ideal) x1) e j).trans (by
      rw [v71_at, v50_at]
      unfold rowOf
      with_reducible rfl)

/-- The message of an edge: the source's row times the edge's weight. -/
theorem v75_at (e : Fin 1700000) (j : Fin 128) :
    val_main_v75 (F := Ideal) x0 x1 x3 x4 x5 (ix2 e j)
      = mm (fun n k => val_main_v49 (F := Ideal) x0 x1 x3 x4 (ix2 n k)) (fun k j => x5 (ix2 k j)) (rowOf (edgeW 0 x1 e)) j
        * (dis (edgeW 1 x1) (rowOf (edgeW 0 x1 e)) * dis (edgeW 1 x1) (rowOf (edgeW 1 x1 e))) := by
  rw [val_main_v75_apply, v72_at, v74_at, Ideal.mulf_def]

/-- The segment sum starts from zero. -/
theorem v76_at (i : S100000x128.Idx) : val_main_v76 (F := Ideal) i = (0 : EReal) := by
  rw [val_main_v76_apply, val_main_cst_16_apply, Ideal.ofBits_def, Ideal.ofBits_zero_f32]

/-- The messages summed per target id. -/
theorem v78_at (n : Fin 100000) (j : Fin 128) :
    val_main_v78 (F := Ideal) x0 x1 x3 x4 x5 (ix2 n j)
      = (0 : EReal) + ∑ e ∈ Finset.univ.filter (fun e : Fin 1700000 => (edgeW 1 x1 e).toInt = (n.val : ℤ)),
          mm (fun n k => val_main_v49 (F := Ideal) x0 x1 x3 x4 (ix2 n k)) (fun k j => x5 (ix2 k j)) (rowOf (edgeW 0 x1 e)) j
            * (dis (edgeW 1 x1) (rowOf (edgeW 0 x1 e)) * dis (edgeW 1 x1) (rowOf (edgeW 1 x1 e))) :=
  (scatterRows_host (N := 100000) (E := 1700000) (D := 128) scatter_S100000x128_S1700000x1_S1700000x128_1_0_0_1
    rfl rfl rfl rfl (val_main_v76 (F := Ideal)) (val_main_v77 (F := Ideal) x1)
    (val_main_v75 (F := Ideal) x0 x1 x3 x4 x5) n j).trans
    (seg_congr _ _ (fun e => val_main_v77 (F := Ideal) x1 (ix2 e 0)) (edgeW 1 x1)
      (fun e => val_main_v75 (F := Ideal) x0 x1 x3 x4 x5 (ix2 e j)) _ _ (v76_at (ix2 n j)) (v77_at x1)
      (fun e => v75_at x0 x1 x3 x4 x5 e j))

/-- The layer: the sum plus the bias, clamped at zero. -/
theorem v82_at (n : Fin 100000) (j : Fin 128) :
    val_main_v82 (F := Ideal) x0 x1 x3 x4 x5 x6 (ix2 n j)
      = refLayer (fun e => rowOf (edgeW 0 x1 e)) (fun e => rowOf (edgeW 1 x1 e)) (edgeW 1 x1) (dis (edgeW 1 x1))
          (fun n k => val_main_v49 (F := Ideal) x0 x1 x3 x4 (ix2 n k)) (fun k j => x5 (ix2 k j)) (fun j => x6 (ix1 j)) n j := by
  rw [val_main_v82_apply, val_main_v81_apply, val_main_v80_apply, val_main_v79_apply,
    show idx_main_v79 (idx_main_v80 (ix2 n j)) = ix1 j from by idx1,
    val_main_call2_v0_apply, val_main_call2_cst_apply, Ideal.ofBits_def, Ideal.ofBits_zero_f32, Ideal.maximumf_def,
    Ideal.addf_def, v78_at]
  unfold refLayer into
  with_reducible rfl

end Cert.ReferenceIdeal.Ref

end
-- ==== Proof.RefHead.lean ====
/-
  The reference's last stages — pooling per graph and the linear head — read at an entry, with the second layer's
  output h left as it stands.

  The pooled sums are a segment sum of h's rows over the graph ids onto zeros: entry (g, k) is 0 + ∑ of h (n, k) over
  the nodes n whose id, read signed, is g. The counts are the same segment sum of a vector of ones. Each sum is divided
  by max (count of its graph) 1, the quotient's row g is multiplied by the head's weight column, and the head's bias
  is added:

      y g = (∑ k, (0 + ∑ n ∈ graph g, h (n, k)) / max (0 + ∑ n ∈ graph g, 1) 1 * w k) + b.
-/
import proofs.«405428_j28441273434160_2_alg».proof.Proof.RefRead
import proofs.«405428_j28441273434160_2_alg».proof.Proof.Model
import proofs.«405428_j28441273434160_2_alg».proof.Proof.Spec
import Idealize.ShloMosaic.Lib.ValueIdx
import Idealize.ShloMosaic.Lib.Pipeline.Value
import Idealize.ShloMosaic.Lib.IdealHost

noncomputable section

open scoped BigOperators

namespace Cert.ReferenceIdeal.Ref

open Cert.ReferenceIdeal Cert.ReferenceIdeal.Gen Cert.ReferenceIdeal.ReadP
open Idealize.ShloMosaic Idealize.ShloMosaic.ValueIdx Idealize.ShloMosaic.StableHlo

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x1, .f32⟩ : BufTy).Contents (Elt Ideal))
  (x8 : (⟨S1, .f32⟩ : BufTy).Contents (Elt Ideal))

/-- Row n's graph id. -/
abbrev gidR : Fin 100000 → BitVec 32 := fun n => x2 (ix1 n)

/-! ## The index columns and the constant arrays -/

/-- The graph ids laid out as a column (for the sums) hold, in row e, the id of node e. -/
theorem ids_col_sums (e : Fin 100000) : val_main_v84 (F := Ideal) x2 (ix2 e 0) = x2 (ix1 e) :=
  (val_main_v84_apply x2 (ix2 e 0)).trans (congrArg x2 (funext fun a => match a with | ⟨0, _⟩ => rfl))

/-- The graph ids laid out as a column (for the counts), likewise. -/
theorem ids_col_cnts (e : Fin 100000) : val_main_v88 (F := Ideal) x2 (ix2 e 0) = x2 (ix1 e) :=
  (val_main_v88_apply x2 (ix2 e 0)).trans (congrArg x2 (funext fun a => match a with | ⟨0, _⟩ => rfl))

theorem zeros_sums (i : S512x128.Idx) : val_main_v83 (F := Ideal) i = (0 : EReal) :=
  (val_main_v83_apply i).trans Ideal.ofBits_zero_f32

theorem ones_nodes (i : S100000.Idx) : val_main_v86 (F := Ideal) i = (1 : EReal) :=
  (val_main_v86_apply i).trans Ideal.ofBits_one_f32

theorem zeros_cnts (i : S512.Idx) : val_main_v87 (F := Ideal) i = (0 : EReal) :=
  (val_main_v87_apply i).trans Ideal.ofBits_zero_f32

theorem ones_graphs (i : S512.Idx) : val_main_v90 (F := Ideal) i = (1 : EReal) :=
  (val_main_v90_apply i).trans Ideal.ofBits_one_f32

/-! ## The two segment sums -/

/-- The pooled sums: entry (g, k) is zero plus the sum of column k of the rows of graph g. -/
theorem sums_apply (g : Fin 512) (k : Fin 128) :
    val_main_v85 (F := Ideal) x0 x1 x2 x3 x4 x5 x6 (ix2 g k)
      = (0 : EReal) + ∑ n ∈ Cert.Model.ofGraph (gidR x2) g, val_main_v82 (F := Ideal) x0 x1 x3 x4 x5 x6 (ix2 n k) := by
  unfold val_main_v85
  show Ideal.hostScatterAdd scatter_S512x128_S100000x1_S100000x128_1_0_0_1 (val_main_v83 (F := Ideal)) (val_main_v84 (F := Ideal) x2)
    (val_main_v82 (F := Ideal) x0 x1 x3 x4 x5 x6) (ix2 g k) = _
  rw [Cert.Spec.scatterRows_apply (N := 512) (E := 100000) (D := 128) scatter_S512x128_S100000x1_S100000x128_1_0_0_1 rfl rfl rfl rfl,
    zeros_sums]
  unfold Cert.Model.ofGraph
  refine congrArg ((0 : EReal) + ·) (Finset.sum_congr (Finset.filter_congr fun e _ => ?_) fun e _ => rfl)
  show (val_main_v84 (F := Ideal) x2 (ix2 e 0)).toInt = (g.val : ℤ) ↔ (x2 (ix1 e)).toInt = (g.val : ℤ)
  rw [ids_col_sums x2 e]

/-- The pooled counts: entry g is zero plus one for every row of graph g. -/
theorem cnts_apply (g : Fin 512) :
    val_main_v89 (F := Ideal) x2 (ix1 g) = (0 : EReal) + ∑ _n ∈ Cert.Model.ofGraph (gidR x2) g, (1 : EReal) := by
  unfold val_main_v89
  show Ideal.hostScatterAdd scatter_S512_S100000x1_S100000_n_0_0_1 (val_main_v87 (F := Ideal)) (val_main_v88 (F := Ideal) x2)
    (val_main_v86 (F := Ideal)) (ix1 g) = _
  rw [Cert.Spec.scatterVec_apply (N := 512) (E := 100000) scatter_S512_S100000x1_S100000_n_0_0_1 rfl rfl rfl rfl, zeros_cnts]
  unfold Cert.Model.ofGraph
  refine congrArg ((0 : EReal) + ·) (Finset.sum_congr (Finset.filter_congr fun e _ => ?_) fun e _ => ones_nodes (ix1 e))
  show (val_main_v88 (F := Ideal) x2 (ix2 e 0)).toInt = (g.val : ℤ) ↔ (x2 (ix1 e)).toInt = (g.val : ℤ)
  rw [ids_col_cnts x2 e]

/-! ## The mean and the head -/

/-- The divisor at (g, k): the count of graph g, at least one. -/
theorem den_apply (g : Fin 512) (k : Fin 128) :
    val_main_v93 (F := Ideal) x2 (ix2 g k) = max ((0 : EReal) + ∑ _n ∈ Cert.Model.ofGraph (gidR x2) g, (1 : EReal)) 1 := by
  rw [val_main_v93_apply, val_main_v92_apply]
  have e : idx_main_v92 (idx_main_v93 (ix2 g k)) = ix1 g := funext fun a => match a with | ⟨0, _⟩ => rfl
  rw [e, val_main_v91_apply, cnts_apply, ones_graphs]
  rfl

/-- The quotient at (g, k). -/
theorem mean_apply (g : Fin 512) (k : Fin 128) :
    val_main_v94 (F := Ideal) x0 x1 x2 x3 x4 x5 x6 (ix2 g k)
      = Ideal.div ((0 : EReal) + ∑ n ∈ Cert.Model.ofGraph (gidR x2) g, val_main_v82 (F := Ideal) x0 x1 x3 x4 x5 x6 (ix2 n k))
          (max ((0 : EReal) + ∑ _n ∈ Cert.Model.ofGraph (gidR x2) g, (1 : EReal)) 1) := by
  rw [val_main_v94_apply, sums_apply, den_apply]
  rfl

/-- The reference's result at graph g is the model's head of the second layer's output. -/
theorem head_apply (g : Fin 512) :
    val_main_v99 (F := Ideal) x0 x1 x2 x3 x4 x5 x6 x7 x8 (ix1 g)
      = Cert.Model.head (fun k => x7 (ix2 k 0)) (x8 (ix1 0)) (fun n => x2 (ix1 n))
          (fun n k => val_main_v82 (F := Ideal) x0 x1 x3 x4 x5 x6 (ix2 n k)) g := by
  have e99 : idx_main_v99 (ix1 g) = ix2 g 0 := funext fun a => Fin.ext (by
    match a with
    | ⟨0, _⟩ => exact Nat.div_one _
    | ⟨1, _⟩ => rfl)
  have e97 : idx_main_v96 (idx_main_v97 (ix2 g 0)) = ix1 (0 : Fin 1) := funext fun a => match a with | ⟨0, _⟩ => rfl
  have el : ∀ k : Fin 128, lidx_main_v95 (ix2 g 0) k = ix2 g k := fun k => funext fun a => match a with
    | ⟨0, _⟩ => rfl
    | ⟨1, _⟩ => rfl
  have er : ∀ k : Fin 128, ridx_main_v95 (ix2 g 0) k = ix2 k 0 := fun k => funext fun a => match a with
    | ⟨0, _⟩ => rfl
    | ⟨1, _⟩ => rfl
  rw [val_main_v99_apply, e99, val_main_v98_apply, val_main_v95_apply, val_main_v97_apply, val_main_v96_apply, e97]
  unfold Cert.Model.head
  rw [Ideal.addf_def]
  refine congrArg (· + x8 (ix1 0)) (Finset.sum_congr rfl fun k _ => ?_)
  rw [el, er, mean_apply]

end Cert.ReferenceIdeal.Ref

end
-- ==== Proof.Ref.lean ====
/-
  The reference's result: the head (mean pooling per graph id and the linear map) of the second convolution of the first
  convolution of the features — `Model.ref` at the arrays' entries, which is what `Meet.refOf` names.
-/
import proofs.«405428_j28441273434160_2_alg».proof.Proof.RefRead
import proofs.«405428_j28441273434160_2_alg».proof.Proof.Ref1
import proofs.«405428_j28441273434160_2_alg».proof.Proof.Ref2
import proofs.«405428_j28441273434160_2_alg».proof.Proof.RefHead
import proofs.«405428_j28441273434160_2_alg».proof.Proof.Meet
import proofs.«405428_j28441273434160_2_alg».proof.Proof.Inputs
import proofs.«405428_j28441273434160_2_alg».proof.Proof.Spec

set_option pp.maxSteps 5000
set_option pp.deepTerms false

noncomputable section

open scoped BigOperators

namespace Cert.ReferenceIdeal.Ref

open Cert.ReferenceIdeal Cert.ReferenceIdeal.Gen Idealize.ShloMosaic Idealize.ShloMosaic.TcCoe Idealize.SL.Sem Idealize.ShloMosaic.ValueIdx Cert.Spec Cert.Inputs Cert.Model
open Cert.ReferenceIdeal.ReadP

/-- The result at a graph, as a function of the nine arrays: the network in the reference's arrangement. -/
theorem v99_ref (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (g : Fin 512) :
    val_main_v99 (F := Ideal) x0 x1 x2 x3 x4 x5 x6 x7 x8 (ix1 g)
      = Cert.Meet.refOf x0 x1 x2 x3 x4 x5 x6 x7 x8 (ix1 g) := by
  have h1 : (fun n k => val_main_v49 (F := Ideal) x0 x1 x3 x4 (ix2 n k))
      = refLayer (fun e => rowOf (edgeW 0 x1 e)) (fun e => rowOf (edgeW 1 x1 e)) (edgeW 1 x1) (dis (edgeW 1 x1))
          (fun n k => x0 (ix2 n k)) (fun k j => x3 (ix2 k j)) (fun j => x4 (ix1 j)) :=
    funext fun n => funext fun k => v49_at x0 x1 x3 x4 n k
  have h2 : (fun n k => val_main_v82 (F := Ideal) x0 x1 x3 x4 x5 x6 (ix2 n k))
      = refLayer (fun e => rowOf (edgeW 0 x1 e)) (fun e => rowOf (edgeW 1 x1 e)) (edgeW 1 x1) (dis (edgeW 1 x1))
          (fun n k => val_main_v49 (F := Ideal) x0 x1 x3 x4 (ix2 n k)) (fun k j => x5 (ix2 k j)) (fun j => x6 (ix1 j)) :=
    funext fun n => funext fun k => v82_at x0 x1 x3 x4 x5 x6 n k
  rw [head_apply, h2, h1]
  unfold Cert.Meet.refOf Model.ref
  rw [show (ix1 g : (⟨1, ![512]⟩ : Shape).Idx) 0 = g from rfl]

/-- On every device the reference's result is the network's, in the reference's arrangement, of the nine argument
    arrays. -/
theorem ref_result (m : (ℓ : Loc nD τ sig) → Buf (Elt Ideal) ℓ) (c : Dev nD) :
    ValueP.res_main_v99 (F := Ideal) m c = Cert.Meet.refOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ReadP.val_main_v99_eq]
  funext i
  obtain ⟨g, rfl⟩ : ∃ g, i = ix1 g := ⟨i 0, eq_ix1 i⟩
  exact v99_ref _ _ _ _ _ _ _ _ _ g

end Cert.ReferenceIdeal.Ref

end
-- ==== Proof.lean ====
/-
  The certificate: a two-layer graph convolution with mean pooling and a linear head, as three fused dense kernels around
  host gathers and segment sums, against its plain reference.

  * The three programs run to the end from any memory, fault nowhere and leave their arguments unchanged. For the two
    kernel programs (the word-level one and its idealization: one text, generic in the float values) the program is a
    chain of nine segments; each dense kernel is a pipelined region whose body is run on its staging buffers at every
    grid point, the third one carrying its pooled sums and counts from point to point in two scratch buffers.
  * Over the extended reals the idealized kernel and the reference end with equal results. The kernel scales each dense
    stage's rows by the degree factor `dis` before the gather and the segment sum's rows by it after; the reference
    scales every message by `dis[src] · dis[dst]`. The two agree because `dis` is a nonnegative real, which distributes
    over any sum of extended reals, and an edge whose target id names node `n` has target row `n`. The pooled sums the
    kernel accumulates tile by tile as one-hot products are the per-graph sums.
  * The idealization rewrote no operation of the kernel.
-/
import proofs.«405428_j28441273434160_2_alg».proof.Defs
import proofs.«405428_j28441273434160_2_alg».proof.Proof.Gen.Kernel
import proofs.«405428_j28441273434160_2_alg».proof.Proof.Gen.KernelIdeal
import proofs.«405428_j28441273434160_2_alg».proof.Proof.Gen.ReferenceIdeal
import proofs.«405428_j28441273434160_2_alg».proof.Proof.Gen.Pre_finite_inputs
import proofs.«405428_j28441273434160_2_alg».proof.Proof.K.Ends
import proofs.«405428_j28441273434160_2_alg».proof.Proof.KI.Ends
import proofs.«405428_j28441273434160_2_alg».proof.Proof.KI.Chain
import proofs.«405428_j28441273434160_2_alg».proof.Proof.Ref
import proofs.«405428_j28441273434160_2_alg».proof.Proof.Meet
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Over the extended reals, from memories agreeing on the arguments, both programs end with the same result: the
    kernel's is the network in the kernel's arrangement, the reference's the network in the reference's arrangement,
    of the same arrays; the two arrangements are equal. -/
theorem algebraic : Cert.algebraic_KernelIdeal_ReferenceIdeal := by
  intro m ρ m' ρ' _ hagree
  refine ⟨fun c => Cert.Meet.kerOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.kernel_result m ρ c), (h c).2⟩)
      (Cert.KernelIdeal.Fr.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Ref.ref_result m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Meet.kerOf_eq_refOf _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
